-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S327680x128 : Shape := ⟨2, ![327680, 128]⟩
abbrev S81920x128 : Shape := ⟨2, ![81920, 128]⟩
abbrev S256x640 : Shape := ⟨2, ![256, 640]⟩
abbrev S327680 : Shape := ⟨1, ![327680]⟩
abbrev S32768 : Shape := ⟨1, ![32768]⟩
abbrev S81920 : Shape := ⟨1, ![81920]⟩
abbrev S8192 : Shape := ⟨1, ![8192]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S327680x128 : S_.BroadcastsInDim S327680x128 (![] : Fin 0 → Fin S327680x128.rank)
  reducesTo_S327680x128_S_d0_1 : S327680x128.ReducesTo [0, 1] S_
  bcast_S_S81920x128 : S_.BroadcastsInDim S81920x128 (![] : Fin 0 → Fin S81920x128.rank)
  reducesTo_S81920x128_S_d0_1 : S81920x128.ReducesTo [0, 1] S_
  bcast_S_S256x640 : S_.BroadcastsInDim S256x640 (![] : Fin 0 → Fin S256x640.rank)
  reducesTo_S256x640_S_d0_1 : S256x640.ReducesTo [0, 1] S_
  bcast_S_S327680 : S_.BroadcastsInDim S327680 (![] : Fin 0 → Fin S327680.rank)
  reducesTo_S327680_S_d0 : S327680.ReducesTo [0] S_
  bcast_S_S32768 : S_.BroadcastsInDim S32768 (![] : Fin 0 → Fin S32768.rank)
  reducesTo_S32768_S_d0 : S32768.ReducesTo [0] S_
  bcast_S_S81920 : S_.BroadcastsInDim S81920 (![] : Fin 0 → Fin S81920.rank)
  reducesTo_S81920_S_d0 : S81920.ReducesTo [0] S_
  bcast_S_S8192 : S_.BroadcastsInDim S8192 (![] : Fin 0 → Fin S8192.rank)
  reducesTo_S8192_S_d0 : S8192.ReducesTo [0] S_

variable [Facts]

def fn_part3 {F : FTy → Type} [FloatOps F] (main_v44 : IVec S_ 1) (main_v49 : IVec S8192 1) (main_c_19 : IVec S_ 1) : IVec S_ 1 :=
  let main_v50 : IVec S_ 1 := (fun x v => Host.reduce IntOp.andi x v reducesTo_S8192_S_d0 h_S_) main_v49 main_c_19
  let main_v51 : IVec S_ 1 := andi main_v44 main_v50
  main_v51

def fn_part2 {F : FTy → Type} [FloatOps F] (main_arg7 : IVec S32768 32) (main_arg8 : IVec S81920 32) (main_arg10 : IVec S8192 32) (main_v30 : IVec S_ 1) (main_v32 : IVec S32768 1) (main_c_12 : IVec S_ 32) : IVec S_ 1 :=
  let main_v33 : IVec S32768 32 := broadcastInDim S32768 ![] bcast_S_S32768 main_c_12
  let main_v34 : IVec S32768 1 := cmpi .slt main_arg7 main_v33
  let main_v35 : IVec S32768 1 := andi main_v32 main_v34
  let main_c_13 : IVec S_ 1 := constantI S_ 1 1#1
  let main_v36 : IVec S_ 1 := (fun x v => Host.reduce IntOp.andi x v reducesTo_S32768_S_d0 h_S_) main_v35 main_c_13
  let main_v37 : IVec S_ 1 := andi main_v30 main_v36
  let main_c_14 : IVec S_ 32 := constantI S_ 32 4294867296#32
  let main_v38 : IVec S81920 32 := broadcastInDim S81920 ![] bcast_S_S81920 main_c_14
  let main_v39 : IVec S81920 1 := cmpi .sge main_arg8 main_v38
  let main_c_15 : IVec S_ 32 := constantI S_ 32 100000#32
  let main_v40 : IVec S81920 32 := broadcastInDim S81920 ![] bcast_S_S81920 main_c_15
  let main_v41 : IVec S81920 1 := cmpi .slt main_arg8 main_v40
  let main_v42 : IVec S81920 1 := andi main_v39 main_v41
  let main_c_16 : IVec S_ 1 := constantI S_ 1 1#1
  let main_v43 : IVec S_ 1 := (fun x v => Host.reduce IntOp.andi x v reducesTo_S81920_S_d0 h_S_) main_v42 main_c_16
  let main_v44 : IVec S_ 1 := andi main_v37 main_v43
  let main_c_17 : IVec S_ 32 := constantI S_ 32 4294934528#32
  let main_v45 : IVec S8192 32 := broadcastInDim S8192 ![] bcast_S_S8192 main_c_17
  let main_v46 : IVec S8192 1 := cmpi .sge main_arg10 main_v45
  let main_c_18 : IVec S_ 32 := constantI S_ 32 32768#32
  let main_v47 : IVec S8192 32 := broadcastInDim S8192 ![] bcast_S_S8192 main_c_18
  let main_v48 : IVec S8192 1 := cmpi .slt main_arg10 main_v47
  let main_v49 : IVec S8192 1 := andi main_v46 main_v48
  let main_c_19 : IVec S_ 1 := constantI S_ 1 1#1
  fn_part3 (F := F) main_v44 main_v49 main_c_19

def fn_part1 {F : FTy → Type} [FloatOps F] (main_arg4 : FVec F S256x640 .f32) (main_arg5 : IVec S327680 32) (main_arg7 : IVec S32768 32) (main_arg8 : IVec S81920 32) (main_arg10 : IVec S8192 32) (main_v13 : IVec S_ 1) (main_v16 : IVec S256x640 1) : IVec S_ 1 :=
  let main_c_5 : IVec S_ 1 := constantI S_ 1 1#1
  let main_v17 : IVec S_ 1 := (fun x v => Host.reduce IntOp.andi x v reducesTo_S256x640_S_d0_1 h_S_) main_v16 main_c_5
  let main_v18 : IVec S_ 1 := andi main_v13 main_v17
  let main_v19 : FVec F S256x640 .f32 := Host.absf main_arg4
  let main_cst_6 : FVec F S_ .f32 := constant S_ .f32 0x7F800000#32
  let main_v20 : FVec F S256x640 .f32 := broadcastInDim S256x640 ![] bcast_S_S256x640 main_cst_6
  let main_v21 : IVec S256x640 1 := cmpf .olt main_v19 main_v20
  let main_c_7 : IVec S_ 1 := constantI S_ 1 1#1
  let main_v22 : IVec S_ 1 := (fun x v => Host.reduce IntOp.andi x v reducesTo_S256x640_S_d0_1 h_S_) main_v21 main_c_7
  let main_v23 : IVec S_ 1 := andi main_v18 main_v22
  let main_c_8 : IVec S_ 32 := constantI S_ 32 4294867296#32
  let main_v24 : IVec S327680 32 := broadcastInDim S327680 ![] bcast_S_S327680 main_c_8
  let main_v25 : IVec S327680 1 := cmpi .sge main_arg5 main_v24
  let main_c_9 : IVec S_ 32 := constantI S_ 32 100000#32
  let main_v26 : IVec S327680 32 := broadcastInDim S327680 ![] bcast_S_S327680 main_c_9
  let main_v27 : IVec S327680 1 := cmpi .slt main_arg5 main_v26
  let main_v28 : IVec S327680 1 := andi main_v25 main_v27
  let main_c_10 : IVec S_ 1 := constantI S_ 1 1#1
  let main_v29 : IVec S_ 1 := (fun x v => Host.reduce IntOp.andi x v reducesTo_S327680_S_d0 h_S_) main_v28 main_c_10
  let main_v30 : IVec S_ 1 := andi main_v23 main_v29
  let main_c_11 : IVec S_ 32 := constantI S_ 32 4294867296#32
  let main_v31 : IVec S32768 32 := broadcastInDim S32768 ![] bcast_S_S32768 main_c_11
  let main_v32 : IVec S32768 1 := cmpi .sge main_arg7 main_v31
  let main_c_12 : IVec S_ 32 := constantI S_ 32 100000#32
  fn_part2 (F := F) main_arg7 main_arg8 main_arg10 main_v30 main_v32 main_c_12

def fn {F : FTy → Type} [FloatOps F] (main_arg0 : FVec F S100000x256 .f32) (main_arg1 : FVec F S327680x128 .f32) (main_arg2 : FVec F S81920x128 .f32) (main_arg3 : FVec F S256x640 .f32) (main_arg4 : FVec F S256x640 .f32) (main_arg5 : IVec S327680 32) (main_arg6 : IVec S327680 32) (main_arg7 : IVec S32768 32) (main_arg8 : IVec S81920 32) (main_arg9 : IVec S81920 32) (main_arg10 : IVec S8192 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S327680x128 .f32 := Host.absf main_arg1
  let main_cst_0 : FVec F S_ .f32 := constant S_ .f32 0x7F800000#32
  let main_v5 : FVec F S327680x128 .f32 := broadcastInDim S327680x128 ![] bcast_S_S327680x128 main_cst_0
  let main_v6 : IVec S327680x128 1 := cmpf .olt main_v4 main_v5
  let main_c_1 : IVec S_ 1 := constantI S_ 1 1#1
  let main_v7 : IVec S_ 1 := (fun x v => Host.reduce IntOp.andi x v reducesTo_S327680x128_S_d0_1 h_S_) main_v6 main_c_1
  let main_v8 : IVec S_ 1 := andi main_v3 main_v7
  let main_v9 : FVec F S81920x128 .f32 := Host.absf main_arg2
  let main_cst_2 : FVec F S_ .f32 := constant S_ .f32 0x7F800000#32
  let main_v10 : FVec F S81920x128 .f32 := broadcastInDim S81920x128 ![] bcast_S_S81920x128 main_cst_2
  let main_v11 : IVec S81920x128 1 := cmpf .olt main_v9 main_v10
  let main_c_3 : IVec S_ 1 := constantI S_ 1 1#1
  let main_v12 : IVec S_ 1 := (fun x v => Host.reduce IntOp.andi x v reducesTo_S81920x128_S_d0_1 h_S_) main_v11 main_c_3
  let main_v13 : IVec S_ 1 := andi main_v8 main_v12
  let main_v14 : FVec F S256x640 .f32 := Host.absf main_arg3
  let main_cst_4 : FVec F S_ .f32 := constant S_ .f32 0x7F800000#32
  let main_v15 : FVec F S256x640 .f32 := broadcastInDim S256x640 ![] bcast_S_S256x640 main_cst_4
  let main_v16 : IVec S256x640 1 := cmpf .olt main_v14 main_v15
  fn_part1 (F := F) main_arg4 main_arg5 main_arg7 main_arg8 main_arg10 main_v13 main_v16
-- ==== Kernel.lean ====
abbrev S100000x256 : Shape := ⟨2, ![100000, 256]⟩
abbrev S327680x128 : Shape := ⟨2, ![327680, 128]⟩
abbrev S81920x128 : Shape := ⟨2, ![81920, 128]⟩
abbrev S256x640 : Shape := ⟨2, ![256, 640]⟩
abbrev S327680 : Shape := ⟨1, ![327680]⟩
abbrev S32768 : Shape := ⟨1, ![32768]⟩
abbrev S81920 : Shape := ⟨1, ![81920]⟩
abbrev S8192 : Shape := ⟨1, ![8192]⟩
abbrev S_ : Shape := ⟨0, ![]⟩
abbrev S327680x1 : Shape := ⟨2, ![327680, 1]⟩
abbrev S1 : Shape := ⟨1, ![1]⟩
abbrev S1x1 : Shape := ⟨2, ![1, 1]⟩
abbrev S327680x256 : Shape := ⟨2, ![327680, 256]⟩
abbrev S32768x256 : Shape := ⟨2, ![32768, 256]⟩
abbrev S32768x128 : Shape := ⟨2, ![32768, 128]⟩
abbrev S32768x1 : Shape := ⟨2, ![32768, 1]⟩
abbrev S640x256 : Shape := ⟨2, ![640, 256]⟩
abbrev S2048x256 : Shape := ⟨2, ![2048, 256]⟩
abbrev S2048x128 : Shape := ⟨2, ![2048, 128]⟩
abbrev S256x256 : Shape := ⟨2, ![256, 256]⟩
abbrev S128x256 : Shape := ⟨2, ![128, 256]⟩
abbrev S81920x1 : Shape := ⟨2, ![81920, 1]⟩
abbrev S81920x256 : Shape := ⟨2, ![81920, 256]⟩
abbrev S8192x256 : Shape := ⟨2, ![8192, 256]⟩
abbrev S8192x128 : Shape := ⟨2, ![8192, 128]⟩
abbrev S8192x1 : Shape := ⟨2, ![8192, 1]⟩
abbrev S1024x256 : Shape := ⟨2, ![1024, 256]⟩
abbrev S1024x128 : Shape := ⟨2, ![1024, 128]⟩

abbrev nBuf : Space → Nat
  | .hbm => 125
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S327680x128, .f32⟩
  | .hbm, ⟨2, _⟩ => ⟨S81920x128, .f32⟩
  | .hbm, ⟨3, _⟩ => ⟨S256x640, .f32⟩
  | .hbm, ⟨4, _⟩ => ⟨S256x640, .f32⟩
  | .hbm, ⟨5, _⟩ => ⟨S327680, .i32⟩
  | .hbm, ⟨6, _⟩ => ⟨S327680, .i32⟩
  | .hbm, ⟨7, _⟩ => ⟨S32768, .i32⟩
  | .hbm, ⟨8, _⟩ => ⟨S81920, .i32⟩
  | .hbm, ⟨9, _⟩ => ⟨S81920, .i32⟩
  | .hbm, ⟨10, _⟩ => ⟨S8192, .i32⟩
  | .hbm, ⟨11, _⟩ => ⟨S_, .i32⟩
  | .hbm, ⟨12, _⟩ => ⟨S327680, .i32⟩
  | .hbm, ⟨13, _⟩ => ⟨S327680, .i1⟩
  | .hbm, ⟨14, _⟩ => ⟨S_, .i32⟩
  | .hbm, ⟨15, _⟩ => ⟨S327680, .i32⟩
  | .hbm, ⟨16, _⟩ => ⟨S327680, .i32⟩
  | .hbm, ⟨17, _⟩ => ⟨S327680, .i32⟩
  | .hbm, ⟨18, _⟩ => ⟨S327680x1, .i32⟩
  | .hbm, ⟨19, _⟩ => ⟨S1, .i32⟩
  | .hbm, ⟨20, _⟩ => ⟨S_, .i32⟩
  | .hbm, ⟨21, _⟩ => ⟨S327680x1, .i32⟩
  | .hbm, ⟨22, _⟩ => ⟨S327680x1, .i1⟩
  | .hbm, ⟨23, _⟩ => ⟨S1x1, .i32⟩
  | .hbm, ⟨24, _⟩ => ⟨S327680x1, .i32⟩
  | .hbm, ⟨25, _⟩ => ⟨S327680x1, .i1⟩
  | .hbm, ⟨26, _⟩ => ⟨S327680x1, .i1⟩
  | .hbm, ⟨27, _⟩ => ⟨S_, .i1⟩
  | .hbm, ⟨28, _⟩ => ⟨S327680, .i1⟩
  | .hbm, ⟨29, _⟩ => ⟨S327680x256, .f32⟩
  | .hbm, ⟨30, _⟩ => ⟨S327680x256, .i1⟩
  | .hbm, ⟨31, _⟩ => ⟨S_, .f32⟩
  | .hbm, ⟨32, _⟩ => ⟨S327680x256, .f32⟩
  | .hbm, ⟨33, _⟩ => ⟨S327680x256, .f32⟩
  | .hbm, ⟨34, _⟩ => ⟨S_, .f32⟩
  | .hbm, ⟨35, _⟩ => ⟨S32768x256, .f32⟩
  | .hbm, ⟨36, _⟩ => ⟨S327680x1, .i32⟩
  | .hbm, ⟨37, _⟩ => ⟨S32768x256, .f32⟩
  | .hbm, ⟨38, _⟩ => ⟨S_, .f32⟩
  | .hbm, ⟨39, _⟩ => ⟨S32768x128, .f32⟩
  | .hbm, ⟨40, _⟩ => ⟨S327680x1, .i32⟩
  | .hbm, ⟨41, _⟩ => ⟨S32768x128, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S1, .i32⟩
  | .hbm, ⟨51, _⟩ => ⟨S_, .i32⟩
  | .hbm, ⟨52, _⟩ => ⟨S32768x1, .i32⟩
  | .hbm, ⟨53, _⟩ => ⟨S32768x1, .i1⟩
  | .hbm, ⟨54, _⟩ => ⟨S1x1, .i32⟩
  | .hbm, ⟨55, _⟩ => ⟨S32768x1, .i32⟩
  | .hbm, ⟨56, _⟩ => ⟨S32768x1, .i1⟩
  | .hbm, ⟨57, _⟩ => ⟨S32768x1, .i1⟩
  | .hbm, ⟨58, _⟩ => ⟨S_, .i1⟩
  | .hbm, ⟨59, _⟩ => ⟨S32768, .i1⟩
  | .hbm, ⟨60, _⟩ => ⟨S32768x256, .f32⟩
  | .hbm, ⟨61, _⟩ => ⟨S32768x256, .i1⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S640x256, .f32⟩
  | .hbm, ⟨66, _⟩ => ⟨S640x256, .bf16⟩
  | .hbm, ⟨67, _⟩ => ⟨S32768x256, .f32⟩
  | .hbm, ⟨68, _⟩ => ⟨S_, .i32⟩
  | .hbm, ⟨69, _⟩ => ⟨S81920, .i32⟩
  | .hbm, ⟨70, _⟩ => ⟨S81920, .i1⟩
  | .hbm, ⟨71, _⟩ => ⟨S_, .i32⟩
  | .hbm, ⟨72, _⟩ => ⟨S81920, .i32⟩
  | .hbm, ⟨73, _⟩ => ⟨S81920, .i32⟩
  | .hbm, ⟨74, _⟩ => ⟨S81920, .i32⟩
  | .hbm, ⟨75, _⟩ => ⟨S81920x1, .i32⟩
  | .hbm, ⟨76, _⟩ => ⟨S1, .i32⟩
  | .hbm, ⟨77, _⟩ => ⟨S_, .i32⟩
  | .hbm, ⟨78, _⟩ => ⟨S81920x1, .i32⟩
  | .hbm, ⟨79, _⟩ => ⟨S81920x1, .i1⟩
  | .hbm, ⟨80, _⟩ => ⟨S1x1, .i32⟩
  | .hbm, ⟨81, _⟩ => ⟨S81920x1, .i32⟩
  | .hbm, ⟨82, _⟩ => ⟨S81920x1, .i1⟩
  | .hbm, ⟨83, _⟩ => ⟨S81920x1, .i1⟩
  | .hbm, ⟨84, _⟩ => ⟨S_, .i1⟩
  | .hbm, ⟨85, _⟩ => ⟨S81920, .i1⟩
  | .hbm, ⟨86, _⟩ => ⟨S81920x256, .f32⟩
  | .hbm, ⟨87, _⟩ => ⟨S81920x256, .i1⟩
  | .hbm, ⟨88, _⟩ => ⟨S_, .f32⟩
  | .hbm, ⟨89, _⟩ => ⟨S81920x256, .f32⟩
  | .hbm, ⟨90, _⟩ => ⟨S81920x256, .f32⟩
  | .hbm, ⟨91, _⟩ => ⟨S_, .f32⟩
  | .hbm, ⟨92, _⟩ => ⟨S8192x256, .f32⟩
  | .hbm, ⟨93, _⟩ => ⟨S81920x1, .i32⟩
  | .hbm, ⟨94, _⟩ => ⟨S8192x256, .f32⟩
  | .hbm, ⟨95, _⟩ => ⟨S_, .f32⟩
  | .hbm, ⟨96, _⟩ => ⟨S8192x128, .f32⟩
  | .hbm, ⟨97, _⟩ => ⟨S81920x1, .i32⟩
  | .hbm, ⟨98, _⟩ => ⟨S8192x128, .f32⟩
  | .hbm, ⟨99, _⟩ => ⟨S_, .i32⟩
  | .hbm, ⟨100, _⟩ => ⟨S8192, .i32⟩
  | .hbm, ⟨101, _⟩ => ⟨S8192, .i1⟩
  | .hbm, ⟨102, _⟩ => ⟨S_, .i32⟩
  | .hbm, ⟨103, _⟩ => ⟨S8192, .i32⟩
  | .hbm, ⟨104, _⟩ => ⟨S8192, .i32⟩
  | .hbm, ⟨105, _⟩ => ⟨S8192, .i32⟩
  | .hbm, ⟨106, _⟩ => ⟨S8192x1, .i32⟩
  | .hbm, ⟨107, _⟩ => ⟨S1, .i32⟩
  | .hbm, ⟨108, _⟩ => ⟨S_, .i32⟩
  | .hbm, ⟨109, _⟩ => ⟨S8192x1, .i32⟩
  | .hbm, ⟨110, _⟩ => ⟨S8192x1, .i1⟩
  | .hbm, ⟨111, _⟩ => ⟨S1x1, .i32⟩
  | .hbm, ⟨112, _⟩ => ⟨S8192x1, .i32⟩
  | .hbm, ⟨113, _⟩ => ⟨S8192x1, .i1⟩
  | .hbm, ⟨114, _⟩ => ⟨S8192x1, .i1⟩
  | .hbm, ⟨115, _⟩ => ⟨S_, .i1⟩
  | .hbm, ⟨116, _⟩ => ⟨S8192, .i1⟩
  | .hbm, ⟨117, _⟩ => ⟨S8192x256, .f32⟩
  | .hbm, ⟨118, _⟩ => ⟨S8192x256, .i1⟩
  | .hbm, ⟨119, _⟩ => ⟨S_, .f32⟩
  | .hbm, ⟨120, _⟩ => ⟨S8192x256, .f32⟩
  | .hbm, ⟨121, _⟩ => ⟨S8192x256, .f32⟩
  | .hbm, ⟨122, _⟩ => ⟨S640x256, .f32⟩
  | .hbm, ⟨123, _⟩ => ⟨S640x256, .bf16⟩
  | .hbm, ⟨124, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x128, .f32⟩
  | .local _ .vmem, ⟨5, _⟩ => ⟨S2048x128, .f32⟩
  | .local _ .vmem, ⟨6, _⟩ => ⟨S640x256, .bf16⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x128, .f32⟩
  | .local _ .vmem, ⟨14, _⟩ => ⟨S1024x128, .f32⟩
  | .local _ .vmem, ⟨15, _⟩ => ⟨S640x256, .bf16⟩
  | .local _ .vmem, ⟨16, _⟩ => ⟨S1024x256, .f32⟩
  | .local _ .vmem, ⟨17, _⟩ => ⟨S1024x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v11 : Ref sig .tc := ⟨.hbm, 90, rfl⟩
abbrev main_cst_1 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_cst_2 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S640x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S327680 : S_.BroadcastsInDim S327680 (![] : Fin 0 → Fin S327680.rank)
  bcast_S327680_S327680x1_0 : S327680.BroadcastsInDim S327680x1 (![0] : Fin 1 → Fin S327680x1.rank)
  bcast_S_S327680x1 : S_.BroadcastsInDim S327680x1 (![] : Fin 0 → Fin S327680x1.rank)
  bcast_S1_S1x1_1 : S1.BroadcastsInDim S1x1 (![1] : Fin 1 → Fin S1x1.rank)
  bcast_S1x1_S327680x1_0_1 : S1x1.BroadcastsInDim S327680x1 (![0, 1] : Fin 2 → Fin S327680x1.rank)
  reducesTo_S327680x1_S327680_d1 : S327680x1.ReducesTo [1] S327680
  h_S_ : 0 < S_.numel
  bcast_S327680_S327680x256_0 : S327680.BroadcastsInDim S327680x256 (![0] : Fin 1 → Fin S327680x256.rank)
  bcast_S_S327680x256 : S_.BroadcastsInDim S327680x256 (![] : Fin 0 → Fin S327680x256.rank)
  bcast_S_S32768x256 : S_.BroadcastsInDim S32768x256 (![] : Fin 0 → Fin S32768x256.rank)
  bcast_S_S32768x128 : S_.BroadcastsInDim S32768x128 (![] : Fin 0 → Fin S32768x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x256_0 : S32768.BroadcastsInDim S32768x256 (![0] : Fin 1 → Fin S32768x256.rank)
  transposes_S256x640_S640x256_1_0 : S256x640.Transposes [1, 0] S640x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S640x256_S640x256_0_0 : ∀ a, (![0, 0] : Fin 2 → Nat) a + S640x256.size a ≤ S640x256.size a
  h_S640x256 : 0 < S640x256.numel
  shapeCasts_S640x256_S640x256 : S640x256.ShapeCasts S640x256
  slices_S640x256_o0_0_S256x256 : S640x256.Slices ![0, 0] S256x256
  slices_S640x256_o256_0_S256x256 : S640x256.Slices ![256, 0] S256x256
  slices_S640x256_o512_0_S128x256 : S640x256.Slices ![512, 0] S128x256
  bcast_S_S81920 : S_.BroadcastsInDim S81920 (![] : Fin 0 → Fin S81920.rank)
  bcast_S81920_S81920x1_0 : S81920.BroadcastsInDim S81920x1 (![0] : Fin 1 → Fin S81920x1.rank)
  bcast_S_S81920x1 : S_.BroadcastsInDim S81920x1 (![] : Fin 0 → Fin S81920x1.rank)
  bcast_S1x1_S81920x1_0_1 : S1x1.BroadcastsInDim S81920x1 (![0, 1] : Fin 2 → Fin S81920x1.rank)
  reducesTo_S81920x1_S81920_d1 : S81920x1.ReducesTo [1] S81920
  bcast_S81920_S81920x256_0 : S81920.BroadcastsInDim S81920x256 (![0] : Fin 1 → Fin S81920x256.rank)
  bcast_S_S81920x256 : S_.BroadcastsInDim S81920x256 (![] : Fin 0 → Fin S81920x256.rank)
  bcast_S_S8192x256 : S_.BroadcastsInDim S8192x256 (![] : Fin 0 → Fin S8192x256.rank)
  bcast_S_S8192x128 : S_.BroadcastsInDim S8192x128 (![] : Fin 0 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x256_0 : S8192.BroadcastsInDim S8192x256 (![0] : Fin 1 → Fin S8192x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  gather_S100000x256_S327680x1_S327680x256_1_0_n_n_0_1_1256_wf : GatherDims.WF S100000x256 S327680x1 S327680x256 [1] [0] [] [0] [] 1 ![1, 256]
  scatter_S32768x256_S327680x1_S327680x256_1_0_0_1_wf : ScatterDims.WF S32768x256 S327680x1 S327680x256 [1] [0] [0] 1
  scatter_S32768x128_S327680x1_S327680x128_1_0_0_1_wf : ScatterDims.WF S32768x128 S327680x1 S327680x128 [1] [0] [0] 1
  gather_S100000x256_S32768x1_S32768x256_1_0_n_n_0_1_1256_wf : GatherDims.WF S100000x256 S32768x1 S32768x256 [1] [0] [] [0] [] 1 ![1, 256]
  dot_S2048x256_S256x256_S2048x256_1_0_0_1_n_n_wf : DotDims.WF S2048x256 S256x256 S2048x256 [1] [0] [0] [1] [] []
  dot_S2048x128_S128x256_S2048x256_1_0_0_1_n_n_wf : DotDims.WF S2048x128 S128x256 S2048x256 [1] [0] [0] [1] [] []
  gather_S100000x256_S81920x1_S81920x256_1_0_n_n_0_1_1256_wf : GatherDims.WF S100000x256 S81920x1 S81920x256 [1] [0] [] [0] [] 1 ![1, 256]
  scatter_S8192x256_S81920x1_S81920x256_1_0_0_1_wf : ScatterDims.WF S8192x256 S81920x1 S81920x256 [1] [0] [0] 1
  scatter_S8192x128_S81920x1_S81920x128_1_0_0_1_wf : ScatterDims.WF S8192x128 S81920x1 S81920x128 [1] [0] [0] 1
  gather_S32768x256_S8192x1_S8192x256_1_0_n_n_0_1_1256_wf : GatherDims.WF S32768x256 S8192x1 S8192x256 [1] [0] [] [0] [] 1 ![1, 256]
  dot_S1024x256_S256x256_S1024x256_1_0_0_1_n_n_wf : DotDims.WF S1024x256 S256x256 S1024x256 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S32768x256.size a
  hwx0_1 : ∀ i : grid0.Coords, EltTy.bits .f32 = 32 ∨ (Rect.block (s := S32768x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x256.size a ≤ S640x256.size a
  hwx0_3 : ∀ i : grid0.Coords, EltTy.bits .bf16 = 32 ∨ (Rect.block (s := S640x256) S640x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S32768x256.size a
  hwx0_4 : ∀ i : grid0.Coords, EltTy.bits .f32 = 32 ∨ (Rect.block (s := S32768x256) S2048x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S640x256.size a ≤ S640x256.size a
  hwx1_3 : ∀ i : grid1.Coords, EltTy.bits .bf16 = 32 ∨ (Rect.block (s := S640x256) S640x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def gather_S100000x256_S327680x1_S327680x256_1_0_n_n_0_1_1256 : GatherDims S100000x256 S327680x1 S327680x256 where
  offsetDims := [1]
  collapsedSliceDims := [0]
  operandBatchingDims := []
  startIndicesBatchingDims := []
  startIndexMap := [0]
  indexVectorDim := 1
  sliceSizes := ![1, 256]
  wf := gather_S100000x256_S327680x1_S327680x256_1_0_n_n_0_1_1256_wf
def scatter_S32768x256_S327680x1_S327680x256_1_0_0_1 : ScatterDims S32768x256 S327680x1 S327680x256 where
  updateWindowDims := [1]
  insertedWindowDims := [0]
  scatterDimsToOperandDims := [0]
  indexVectorDim := 1
  wf := scatter_S32768x256_S327680x1_S327680x256_1_0_0_1_wf
def scatter_S32768x128_S327680x1_S327680x128_1_0_0_1 : ScatterDims S32768x128 S327680x1 S327680x128 where
  updateWindowDims := [1]
  insertedWindowDims := [0]
  scatterDimsToOperandDims := [0]
  indexVectorDim := 1
  wf := scatter_S32768x128_S327680x1_S327680x128_1_0_0_1_wf
def gather_S100000x256_S32768x1_S32768x256_1_0_n_n_0_1_1256 : GatherDims S100000x256 S32768x1 S32768x256 where
  offsetDims := [1]
  collapsedSliceDims := [0]
  operandBatchingDims := []
  startIndicesBatchingDims := []
  startIndexMap := [0]
  indexVectorDim := 1
  sliceSizes := ![1, 256]
  wf := gather_S100000x256_S32768x1_S32768x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S100000x256_S81920x1_S81920x256_1_0_n_n_0_1_1256 : GatherDims S100000x256 S81920x1 S81920x256 where
  offsetDims := [1]
  collapsedSliceDims := [0]
  operandBatchingDims := []
  startIndicesBatchingDims := []
  startIndexMap := [0]
  indexVectorDim := 1
  sliceSizes := ![1, 256]
  wf := gather_S100000x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192x128_S81920x1_S81920x128_1_0_0_1 : ScatterDims S8192x128 S81920x1 S81920x128 where
  updateWindowDims := [1]
  insertedWindowDims := [0]
  scatterDimsToOperandDims := [0]
  indexVectorDim := 1
  wf := scatter_S8192x128_S81920x1_S81920x128_1_0_0_1_wf
def gather_S32768x256_S8192x1_S8192x256_1_0_n_n_0_1_1256 : GatherDims S32768x256 S8192x1 S8192x256 where
  offsetDims := [1]
  collapsedSliceDims := [0]
  operandBatchingDims := []
  startIndicesBatchingDims := []
  startIndexMap := [0]
  indexVectorDim := 1
  sliceSizes := ![1, 256]
  wf := gather_S32768x256_S8192x1_S8192x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_v7) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S640x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S640x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S327680x128 : Shape := ⟨2, ![327680, 128]⟩
abbrev S81920x128 : Shape := ⟨2, ![81920, 128]⟩
abbrev S256x640 : Shape := ⟨2, ![256, 640]⟩
abbrev S327680 : Shape := ⟨1, ![327680]⟩
abbrev S32768 : Shape := ⟨1, ![32768]⟩
abbrev S81920 : Shape := ⟨1, ![81920]⟩
abbrev S8192 : Shape := ⟨1, ![8192]⟩
abbrev S_ : Shape := ⟨0, ![]⟩
abbrev S327680x1 : Shape := ⟨2, ![327680, 1]⟩
abbrev S327680x256 : Shape := ⟨2, ![327680, 256]⟩
abbrev S327680x384 : Shape := ⟨2, ![327680, 384]⟩
abbrev S32768x384 : Shape := ⟨2, ![32768, 384]⟩
abbrev S32768x1 : Shape := ⟨2, ![32768, 1]⟩
abbrev S32768x256 : Shape := ⟨2, ![32768, 256]⟩
abbrev S32768x640 : Shape := ⟨2, ![32768, 640]⟩
abbrev S640x256 : Shape := ⟨2, ![640, 256]⟩
abbrev S81920x1 : Shape := ⟨2, ![81920, 1]⟩
abbrev S81920x256 : Shape := ⟨2, ![81920, 256]⟩
abbrev S81920x384 : Shape := ⟨2, ![81920, 384]⟩
abbrev S8192x384 : Shape := ⟨2, ![8192, 384]⟩
abbrev S8192x1 : Shape := ⟨2, ![8192, 1]⟩
abbrev S8192x256 : Shape := ⟨2, ![8192, 256]⟩
abbrev S8192x640 : Shape := ⟨2, ![8192, 640]⟩

abbrev nBuf : Space → Nat
  | .hbm => 69
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S327680x128, .f32⟩
  | .hbm, ⟨2, _⟩ => ⟨S81920x128, .f32⟩
  | .hbm, ⟨3, _⟩ => ⟨S256x640, .f32⟩
  | .hbm, ⟨4, _⟩ => ⟨S256x640, .f32⟩
  | .hbm, ⟨5, _⟩ => ⟨S327680, .i32⟩
  | .hbm, ⟨6, _⟩ => ⟨S327680, .i32⟩
  | .hbm, ⟨7, _⟩ => ⟨S32768, .i32⟩
  | .hbm, ⟨8, _⟩ => ⟨S81920, .i32⟩
  | .hbm, ⟨9, _⟩ => ⟨S81920, .i32⟩
  | .hbm, ⟨10, _⟩ => ⟨S8192, .i32⟩
  | .hbm, ⟨11, _⟩ => ⟨S_, .i32⟩
  | .hbm, ⟨12, _⟩ => ⟨S327680, .i32⟩
  | .hbm, ⟨13, _⟩ => ⟨S327680, .i1⟩
  | .hbm, ⟨14, _⟩ => ⟨S_, .i32⟩
  | .hbm, ⟨15, _⟩ => ⟨S327680, .i32⟩
  | .hbm, ⟨16, _⟩ => ⟨S327680, .i32⟩
  | .hbm, ⟨17, _⟩ => ⟨S327680, .i32⟩
  | .hbm, ⟨18, _⟩ => ⟨S327680x1, .i32⟩
  | .hbm, ⟨19, _⟩ => ⟨S327680x256, .f32⟩
  | .hbm, ⟨20, _⟩ => ⟨S327680x384, .f32⟩
  | .hbm, ⟨21, _⟩ => ⟨S_, .f32⟩
  | .hbm, ⟨22, _⟩ => ⟨S32768x384, .f32⟩
  | .hbm, ⟨23, _⟩ => ⟨S327680x1, .i32⟩
  | .hbm, ⟨24, _⟩ => ⟨S32768x384, .f32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768x256, .f32⟩
  | .hbm, ⟨34, _⟩ => ⟨S32768x640, .f32⟩
  | .hbm, ⟨35, _⟩ => ⟨S640x256, .f32⟩
  | .hbm, ⟨36, _⟩ => ⟨S32768x256, .f32⟩
  | .hbm, ⟨37, _⟩ => ⟨S_, .f32⟩
  | .hbm, ⟨38, _⟩ => ⟨S32768x256, .f32⟩
  | .hbm, ⟨39, _⟩ => ⟨S32768x256, .f32⟩
  | .hbm, ⟨40, _⟩ => ⟨S_, .i32⟩
  | .hbm, ⟨41, _⟩ => ⟨S81920, .i32⟩
  | .hbm, ⟨42, _⟩ => ⟨S81920, .i1⟩
  | .hbm, ⟨43, _⟩ => ⟨S_, .i32⟩
  | .hbm, ⟨44, _⟩ => ⟨S81920, .i32⟩
  | .hbm, ⟨45, _⟩ => ⟨S81920, .i32⟩
  | .hbm, ⟨46, _⟩ => ⟨S81920, .i32⟩
  | .hbm, ⟨47, _⟩ => ⟨S81920x1, .i32⟩
  | .hbm, ⟨48, _⟩ => ⟨S81920x256, .f32⟩
  | .hbm, ⟨49, _⟩ => ⟨S81920x384, .f32⟩
  | .hbm, ⟨50, _⟩ => ⟨S_, .f32⟩
  | .hbm, ⟨51, _⟩ => ⟨S8192x384, .f32⟩
  | .hbm, ⟨52, _⟩ => ⟨S81920x1, .i32⟩
  | .hbm, ⟨53, _⟩ => ⟨S8192x384, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x256, .f32⟩
  | .hbm, ⟨63, _⟩ => ⟨S8192x640, .f32⟩
  | .hbm, ⟨64, _⟩ => ⟨S640x256, .f32⟩
  | .hbm, ⟨65, _⟩ => ⟨S8192x256, .f32⟩
  | .hbm, ⟨66, _⟩ => ⟨S_, .f32⟩
  | .hbm, ⟨67, _⟩ => ⟨S8192x256, .f32⟩
  | .hbm, ⟨68, _⟩ => ⟨S8192x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_cst : Ref sig .tc := ⟨.hbm, 66, rfl⟩
abbrev main_call1_v0 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S327680 : S_.BroadcastsInDim S327680 (![] : Fin 0 → Fin S327680.rank)
  bcast_S327680_S327680x1_0 : S327680.BroadcastsInDim S327680x1 (![0] : Fin 1 → Fin S327680x1.rank)
  concatenates_S327680x256_S327680x128_S327680x384_d1 : Shape.Concatenates [S327680x256, S327680x128] S327680x384 1
  bcast_S_S32768x384 : S_.BroadcastsInDim S32768x384 (![] : Fin 0 → Fin S32768x384.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x256_S32768x384_S32768x640_d1 : Shape.Concatenates [S32768x256, S32768x384] S32768x640 1
  transposes_S256x640_S640x256_1_0 : S256x640.Transposes [1, 0] S640x256
  bcast_S_S32768x256 : S_.BroadcastsInDim S32768x256 (![] : Fin 0 → Fin S32768x256.rank)
  bcast_S_S81920 : S_.BroadcastsInDim S81920 (![] : Fin 0 → Fin S81920.rank)
  bcast_S81920_S81920x1_0 : S81920.BroadcastsInDim S81920x1 (![0] : Fin 1 → Fin S81920x1.rank)
  concatenates_S81920x256_S81920x128_S81920x384_d1 : Shape.Concatenates [S81920x256, S81920x128] S81920x384 1
  bcast_S_S8192x384 : S_.BroadcastsInDim S8192x384 (![] : Fin 0 → Fin S8192x384.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x256_S8192x384_S8192x640_d1 : Shape.Concatenates [S8192x256, S8192x384] S8192x640 1
  bcast_S_S8192x256 : S_.BroadcastsInDim S8192x256 (![] : Fin 0 → Fin S8192x256.rank)
  gather_S100000x256_S327680x1_S327680x256_1_0_n_n_0_1_1256_wf : GatherDims.WF S100000x256 S327680x1 S327680x256 [1] [0] [] [0] [] 1 ![1, 256]
  scatter_S32768x384_S327680x1_S327680x384_1_0_0_1_wf : ScatterDims.WF S32768x384 S327680x1 S327680x384 [1] [0] [0] 1
  gather_S100000x256_S32768x1_S32768x256_1_0_n_n_0_1_1256_wf : GatherDims.WF S100000x256 S32768x1 S32768x256 [1] [0] [] [0] [] 1 ![1, 256]
  dot_S32768x640_S640x256_S32768x256_1_0_0_1_n_n_wf : DotDims.WF S32768x640 S640x256 S32768x256 [1] [0] [0] [1] [] []
  gather_S100000x256_S81920x1_S81920x256_1_0_n_n_0_1_1256_wf : GatherDims.WF S100000x256 S81920x1 S81920x256 [1] [0] [] [0] [] 1 ![1, 256]
  scatter_S8192x384_S81920x1_S81920x384_1_0_0_1_wf : ScatterDims.WF S8192x384 S81920x1 S81920x384 [1] [0] [0] 1
  gather_S32768x256_S8192x1_S8192x256_1_0_n_n_0_1_1256_wf : GatherDims.WF S32768x256 S8192x1 S8192x256 [1] [0] [] [0] [] 1 ![1, 256]
  dot_S8192x640_S640x256_S8192x256_1_0_0_1_n_n_wf : DotDims.WF S8192x640 S640x256 S8192x256 [1] [0] [0] [1] [] []

variable [Facts₀]

def gather_S100000x256_S327680x1_S327680x256_1_0_n_n_0_1_1256 : GatherDims S100000x256 S327680x1 S327680x256 where
  offsetDims := [1]
  collapsedSliceDims := [0]
  operandBatchingDims := []
  startIndicesBatchingDims := []
  startIndexMap := [0]
  indexVectorDim := 1
  sliceSizes := ![1, 256]
  wf := gather_S100000x256_S327680x1_S327680x256_1_0_n_n_0_1_1256_wf
def scatter_S32768x384_S327680x1_S327680x384_1_0_0_1 : ScatterDims S32768x384 S327680x1 S327680x384 where
  updateWindowDims := [1]
  insertedWindowDims := [0]
  scatterDimsToOperandDims := [0]
  indexVectorDim := 1
  wf := scatter_S32768x384_S327680x1_S327680x384_1_0_0_1_wf
def gather_S100000x256_S32768x1_S32768x256_1_0_n_n_0_1_1256 : GatherDims S100000x256 S32768x1 S32768x256 where
  offsetDims := [1]
  collapsedSliceDims := [0]
  operandBatchingDims := []
  startIndicesBatchingDims := []
  startIndexMap := [0]
  indexVectorDim := 1
  sliceSizes := ![1, 256]
  wf := gather_S100000x256_S32768x1_S32768x256_1_0_n_n_0_1_1256_wf
def dot_S32768x640_S640x256_S32768x256_1_0_0_1_n_n : DotDims S32768x640 S640x256 S32768x256 where
  lhsContracting := [1]
  rhsContracting := [0]
  lhsNonContracting := [0]
  rhsNonContracting := [1]
  lhsBatch := []
  rhsBatch := []
  wf := dot_S32768x640_S640x256_S32768x256_1_0_0_1_n_n_wf
def gather_S100000x256_S81920x1_S81920x256_1_0_n_n_0_1_1256 : GatherDims S100000x256 S81920x1 S81920x256 where
  offsetDims := [1]
  collapsedSliceDims := [0]
  operandBatchingDims := []
  startIndicesBatchingDims := []
  startIndexMap := [0]
  indexVectorDim := 1
  sliceSizes := ![1, 256]
  wf := gather_S100000x256_S81920x1_S81920x256_1_0_n_n_0_1_1256_wf
def scatter_S8192x384_S81920x1_S81920x384_1_0_0_1 : ScatterDims S8192x384 S81920x1 S81920x384 where
  updateWindowDims := [1]
  insertedWindowDims := [0]
  scatterDimsToOperandDims := [0]
  indexVectorDim := 1
  wf := scatter_S8192x384_S81920x1_S81920x384_1_0_0_1_wf
def gather_S32768x256_S8192x1_S8192x256_1_0_n_n_0_1_1256 : GatherDims S32768x256 S8192x1 S8192x256 where
  offsetDims := [1]
  collapsedSliceDims := [0]
  operandBatchingDims := []
  startIndicesBatchingDims := []
  startIndexMap := [0]
  indexVectorDim := 1
  sliceSizes := ![1, 256]
  wf := gather_S32768x256_S8192x1_S8192x256_1_0_n_n_0_1_1256_wf
def dot_S8192x640_S640x256_S8192x256_1_0_0_1_n_n : DotDims S8192x640 S640x256 S8192x256 where
  lhsContracting := [1]
  rhsContracting := [0]
  lhsNonContracting := [0]
  rhsNonContracting := [1]
  lhsBatch := []
  rhsBatch := []
  wf := dot_S8192x640_S640x256_S8192x256_1_0_0_1_n_n_wf

class Facts : Prop extends Facts₀ where

variable [Facts]
-- ==== Proof.Spec.lean ====
/-
  The dense layer both programs compute, as one function of its operands, element by element, over the extended reals:
  for a row `r` and an output feature `j`,

      max ( Σ_{k<256} self[r,k]·w[k,j]  +  Σ_{k<256} an[r,k]·w[256+k,j]  +  Σ_{k<128} ae[r,k]·w[512+k,j] , 0 )

  where `self` are the node's own features, `an` the summed neighbour features, `ae` the summed edge features and `w` the
  weight matrix with its 640 input features along the rows. The kernel computes the three partial products one after the
  other; the reference lays the three operands side by side in one row of 640 features and takes one product. The two agree
  because a sum over 640 consecutive indices is the sum of its three consecutive stretches (256, 256, 128): addition of
  extended reals is commutative and associative, and nothing else is used (no finiteness).
-/
import Idealize.ShloMosaic.PureOps.Ideal
import Idealize.ShloMosaic.Lib.ValueIdx
import Mathlib.Algebra.BigOperators.Fin

noncomputable section

open scoped BigOperators

namespace Cert.Sage

open Idealize.ShloMosaic Idealize.ShloMosaic.ValueIdx

/-- An `r × c` array of extended reals. -/
abbrev Mat (r c : Nat) : Type := (⟨2, ![r, c]⟩ : Shape).Idx → EReal

/-- The dense layer at row `r`, output feature `j`. -/
def denseAt {M : Nat} (self an : Mat M 256) (ae : Mat M 128) (w : Mat 640 256) (r : Fin M) (j : Fin 256) : EReal :=
  max ((∑ k : Fin 256, self (ix2 r k) * w (ix2 (⟨k.val, by omega⟩ : Fin 640) j)
        + ∑ k : Fin 256, an (ix2 r k) * w (ix2 (⟨256 + k.val, by omega⟩ : Fin 640) j))
      + ∑ k : Fin 128, ae (ix2 r k) * w (ix2 (⟨512 + k.val, by omega⟩ : Fin 640) j)) 0

/-- The dense layer as an array. -/
def dense {M : Nat} (self an : Mat M 256) (ae : Mat M 128) (w : Mat 640 256) : Mat M 256 :=
  fun i => denseAt self an ae w (i 0) (i 1)

theorem dense_apply {M : Nat} (self an : Mat M 256) (ae : Mat M 128) (w : Mat 640 256) (r : Fin M) (j : Fin 256) :
    dense self an ae w (ix2 r j) = denseAt self an ae w r j := rfl

/-- A sum over 640 consecutive indices is the sum of its stretches of 256, 256 and 128. -/
theorem sum_fin640 (f : Fin 640 → EReal) :
    ∑ k : Fin 640, f k
      = (∑ k : Fin 256, f ⟨k.val, by omega⟩ + ∑ k : Fin 256, f ⟨256 + k.val, by omega⟩)
        + ∑ k : Fin 128, f ⟨512 + k.val, by omega⟩ := by
  have h1 := Fin.sum_univ_add (M := EReal) (a := 512) (b := 128) f
  have h2 := Fin.sum_univ_add (M := EReal) (a := 256) (b := 256) (fun i : Fin 512 => f (Fin.castAdd 128 i))
  rw [h1, h2]
  rfl

/-- ONE ROW OF 640 FEATURES AGAINST ONE COLUMN OF WEIGHTS is the dense layer's element, when the row is the three operands'
    rows side by side and the column is the weight matrix's. -/
theorem max_sum640_eq_denseAt {M : Nat} (self an : Mat M 256) (ae : Mat M 128) (w : Mat 640 256) (r : Fin M) (j : Fin 256)
    (C wr : Fin 640 → EReal)
    (h1 : ∀ k : Fin 256, C ⟨k.val, by omega⟩ = self (ix2 r k))
    (h2 : ∀ k : Fin 256, C ⟨256 + k.val, by omega⟩ = an (ix2 r k))
    (h3 : ∀ k : Fin 128, C ⟨512 + k.val, by omega⟩ = ae (ix2 r k))
    (hw : ∀ k : Fin 640, wr k = w (ix2 k j)) :
    max (∑ k : Fin 640, C k * wr k) 0 = denseAt self an ae w r j := by
  unfold denseAt
  rw [sum_fin640]
  simp only [h1, h2, h3, hw]

end Cert.Sage

end
-- ==== Proof.Region0Value.lean ====
/-
  What the first dense layer's kernel leaves in its output array, as one function of its four operand arrays.
  The grid has 16 points; point `t` reads rows `[2048·t, 2048·t + 2048)` of the three row operands and the whole weight matrix,
  and writes rows `[2048·t, 2048·t + 2048)` of the output. The body's value at row `p`, feature `q` of the block is the dense
  layer's element for that row and feature (three matrix products into zero accumulators, added, then the maximum with 0;
  the conversions to the narrower float format are the identity on extended reals). The 16 blocks tile the 32768 rows, so the
  whole output array is the dense layer of the whole operand arrays.
-/
import proofs.«419529_j43293270344193_2_alg».proof.Proof.Gen.KernelIdeal.Frame
import proofs.«419529_j43293270344193_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The left operand's row is the output's row. -/
theorem lhs256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- The left operand's column is the contraction position. -/
theorem lhs256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- The right operand's row is the contraction position. -/
theorem rhs256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- The right operand's column is the output's column. -/
theorem rhs256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A product of a `2048 × 256` block and a `256 × 256` block into a zero accumulator, read at `(p, q)`: the sum over the
    256 contraction positions of the products. -/
theorem matmul256_apply (a : FVec Ideal S2048x256 .bf16) (b : FVec Ideal S256x256 .bf16) (p : Fin 2048) (q : Fin 256) :
    matmul dot_S2048x256_S256x256_S2048x256_1_0_0_1_n_n none a b (constant S2048x256 .f32 0x00000000#32) (ix2 p q)
      = ∑ k : Fin 256, a (ix2 p k) * b (ix2 k q) := by
  refine (Ideal.matmul_constant_zero_apply dot_S2048x256_S256x256_S2048x256_1_0_0_1_n_n none a b (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-- The left operand's row is the output's row. -/
theorem lhs128_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
/-- The left operand's column is the contraction position. -/
theorem lhs128_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
/-- The right operand's row is the contraction position. -/
theorem rhs128_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
/-- The right operand's column is the output's column. -/
theorem rhs128_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- A product of a `2048 × 128` block and a `128 × 256` block into a zero accumulator, read at `(p, q)`: the sum over the
    128 contraction positions of the products. -/
theorem matmul128_apply (a : FVec Ideal S2048x128 .bf16) (b : FVec Ideal S128x256 .bf16) (p : Fin 2048) (q : Fin 256) :
    matmul dot_S2048x128_S128x256_S2048x256_1_0_0_1_n_n none a b (constant S2048x256 .f32 0x00000000#32) (ix2 p q)
      = ∑ k : Fin 128, a (ix2 p k) * b (ix2 k q) := by
  refine (Ideal.matmul_constant_zero_apply dot_S2048x128_S128x256_S2048x256_1_0_0_1_n_n none a b (ix2 p q)).trans ?_
  rw [← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun a => Fin.ext (by
    match a with
    | ⟨0, _⟩ => exact lhs128_0 _ _
    | ⟨1, _⟩ => exact (lhs128_1 _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The first 256 rows of the weight block, read at `(k, q)`. -/
theorem wslice0_apply (x3 : FVec Ideal S640x256 .bf16) (h : S640x256.Slices ![0, 0] S256x256) (k : Fin 256) (q : Fin 256) :
    extractStridedSlice S256x256 ![0, 0] x3 h (ix2 k q) = x3 (ix2 (⟨k.val, by omega⟩ : Fin 640) q) :=
  extractStridedSlice_apply _ x3 h _ _ (fun a => match a with
    | ⟨0, _⟩ => by show k.val = 0 + k.val; omega
    | ⟨1, _⟩ => by show q.val = 0 + q.val; omega)
/-- Rows 256 to 511 of the weight block, read at `(k, q)`. -/
theorem wslice256_apply (x3 : FVec Ideal S640x256 .bf16) (h : S640x256.Slices ![256, 0] S256x256) (k : Fin 256) (q : Fin 256) :
    extractStridedSlice S256x256 ![256, 0] x3 h (ix2 k q) = x3 (ix2 (⟨256 + k.val, by omega⟩ : Fin 640) q) :=
  extractStridedSlice_apply _ x3 h _ _ (fun a => match a with
    | ⟨0, _⟩ => by show 256 + k.val = 256 + k.val; rfl
    | ⟨1, _⟩ => by show q.val = 0 + q.val; omega)
/-- Rows 512 to 639 of the weight block, read at `(k, q)`. -/
theorem wslice512_apply (x3 : FVec Ideal S640x256 .bf16) (h : S640x256.Slices ![512, 0] S128x256) (k : Fin 128) (q : Fin 256) :
    extractStridedSlice S128x256 ![512, 0] x3 h (ix2 k q) = x3 (ix2 (⟨512 + k.val, by omega⟩ : Fin 640) q) :=
  extractStridedSlice_apply _ x3 h _ _ (fun a => match a with
    | ⟨0, _⟩ => by show 512 + k.val = 512 + k.val; rfl
    | ⟨1, _⟩ => by show q.val = 0 + q.val; omega)

/-- The body's stored value at row `p`, feature `q` of a block is the dense layer's element there. -/
theorem pay_apply (x0 x1 : Vec Ideal S2048x256 .f32) (x2 : Vec Ideal S2048x128 .f32) (x3 : Vec Ideal S640x256 .bf16)
    (p : Fin 2048) (q : Fin 256) :
    k0_pay1 (F := Ideal) x0 x1 x2 x3 (ix2 p q) = Cert.Sage.denseAt x0 x1 x2 x3 p q := by
  unfold k0_pay1
  simp only [shapeCast_self]
  unfold Cert.Sage.denseAt
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      refine congrArg₂ (· + ·) ?_ ?_
      · refine (matmul256_apply _ _ p q).trans ?_
        exact Finset.sum_congr rfl fun k _ => congrArg (x0 (ix2 p k) * ·) (wslice0_apply x3 _ k q)
      · refine (matmul256_apply _ _ p q).trans ?_
        exact Finset.sum_congr rfl fun k _ => congrArg (x1 (ix2 p k) * ·) (wslice256_apply x3 _ k q)
    · refine (matmul128_apply _ _ p q).trans ?_
      exact Finset.sum_congr rfl fun k _ => congrArg (x2 (ix2 p k) * ·) (wslice512_apply x3 _ k q)
  · exact Ideal.ofBits_zero_f32

variable (V : (c : Dev nD) → (b : Ref sig .tc) → Buf (Elt Ideal) ((c : Thread nD τ).loc b))

/-- The zero offsets of a whole-buffer access, spelled as the constant function. -/
theorem hz : (![0, 0] : Fin 2 → Nat) = fun _ => 0 := funext fun a => by fin_cases a <;> rfl

/-- The dense layer's element depends on its operands only through the row `r` of the three row operands and the column `j`
    of the weights. -/
theorem denseAt_congr {M M' : Nat} (s a : Cert.Sage.Mat M 256) (e : Cert.Sage.Mat M 128) (w : Cert.Sage.Mat 640 256)
    (s' a' : Cert.Sage.Mat M' 256) (e' : Cert.Sage.Mat M' 128) (w' : Cert.Sage.Mat 640 256)
    (r : Fin M) (r' : Fin M') (j j' : Fin 256)
    (hs : ∀ k : Fin 256, s (ix2 r k) = s' (ix2 r' k)) (ha : ∀ k : Fin 256, a (ix2 r k) = a' (ix2 r' k))
    (he : ∀ k : Fin 128, e (ix2 r k) = e' (ix2 r' k)) (hw : ∀ k : Fin 640, w (ix2 k j) = w' (ix2 k j')) :
    Cert.Sage.denseAt s a e w r j = Cert.Sage.denseAt s' a' e' w' r' j' := by
  unfold Cert.Sage.denseAt
  simp only [hs, ha, he, hw]

/-- The printed index maps, decided over the grid: windows 0, 1, 2 move with the output window 4 along the rows and window 3
    stays at the whole weight block; the output's block index is the point's number, below 16, and 0 along the columns. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = 0
    ∧ win0_4.index t (0 : Fin 2) ≤ 15
    ∧ win0_4.index t (1 : Fin 2) = 0 :=
  (by decide +kernel : ∀ t : Fin grid0.N, _)

/-- Every block of rows is SOME point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- Window 0's block at point `t`, read at `(p, k)`, is its array at `(r, k)` when `r` is the block's row `p` in the array. -/
theorem blk0_apply (c : Dev nD) (t : Fin cfg0.N) (p : Fin 2048) (k : Fin 256) (r : Fin 32768)
    (hr : r.val = win0_4.index t (0 : Fin 2) * 2048 + p.val) :
    iblk0 V c 0 t (ix2 p k) = V c main_v7 (ix2 r k) := by
  obtain ⟨e00, e01, -⟩ := idx_facts t
  show V c main_v7 (((cfg0.win 0).blk t).view.emb (ix2 p k)) = V c main_v7 (ix2 r k)
  refine congrArg (V c main_v7) (funext fun a => Fin.ext ?_)
  match a with
  | ⟨0, _⟩ => show win0_0.index t (0 : Fin 2) * 2048 + 1 * p.val = r.val; omega
  | ⟨1, _⟩ => show win0_0.index t (1 : Fin 2) * 256 + 1 * k.val = k.val; omega

/-- Window 1's block at point `t`, read at `(p, k)`, is its array at `(r, k)` when `r` is the block's row `p` in the array. -/
theorem blk1_apply (c : Dev nD) (t : Fin cfg0.N) (p : Fin 2048) (k : Fin 256) (r : Fin 32768)
    (hr : r.val = win0_4.index t (0 : Fin 2) * 2048 + p.val) :
    iblk0 V c 1 t (ix2 p k) = V c main_v3 (ix2 r k) := by
  obtain ⟨-, -, e10, e11, -⟩ := idx_facts t
  show V c main_v3 (((cfg0.win 1).blk t).view.emb (ix2 p k)) = V c main_v3 (ix2 r k)
  refine congrArg (V c main_v3) (funext fun a => Fin.ext ?_)
  match a with
  | ⟨0, _⟩ => show win0_1.index t (0 : Fin 2) * 2048 + 1 * p.val = r.val; omega
  | ⟨1, _⟩ => show win0_1.index t (1 : Fin 2) * 256 + 1 * k.val = k.val; omega

/-- Window 2's block at point `t`, read at `(p, k)`, is its array at `(r, k)` when `r` is the block's row `p` in the array. -/
theorem blk2_apply (c : Dev nD) (t : Fin cfg0.N) (p : Fin 2048) (k : Fin 128) (r : Fin 32768)
    (hr : r.val = win0_4.index t (0 : Fin 2) * 2048 + p.val) :
    iblk0 V c 2 t (ix2 p k) = V c main_v6 (ix2 r k) := by
  obtain ⟨-, -, -, -, e20, e21, -⟩ := idx_facts t
  show V c main_v6 (((cfg0.win 2).blk t).view.emb (ix2 p k)) = V c main_v6 (ix2 r k)
  refine congrArg (V c main_v6) (funext fun a => Fin.ext ?_)
  match a with
  | ⟨0, _⟩ => show win0_2.index t (0 : Fin 2) * 2048 + 1 * p.val = r.val; omega
  | ⟨1, _⟩ => show win0_2.index t (1 : Fin 2) * 128 + 1 * k.val = k.val; omega

/-- Window 3's block at every point is the whole weight array: read at `(k, q)` it is the array at `(k, j)` when `j` is `q`. -/
theorem blk3_apply (c : Dev nD) (t : Fin cfg0.N) (k : Fin 640) (q j : Fin 256) (hj : j.val = q.val) :
    iblk0 V c 3 t (ix2 k q) = V c main_v9 (ix2 k j) := by
  obtain ⟨-, -, -, -, -, -, e30, e31, -⟩ := idx_facts t
  show V c main_v9 (((cfg0.win 3).blk t).view.emb (ix2 k q)) = V c main_v9 (ix2 k j)
  refine congrArg (V c main_v9) (funext fun a => Fin.ext ?_)
  match a with
  | ⟨0, _⟩ => show win0_3.index t (0 : Fin 2) * 640 + 1 * k.val = k.val; omega
  | ⟨1, _⟩ => show win0_3.index t (1 : Fin 2) * 256 + 1 * q.val = j.val; omega

/-- WHAT POINT `t` WRITES BACK is block `t` of the dense layer of the four operand arrays as the region finds them. -/
theorem flushed_eq (c : Dev nD) (t : Fin cfg0.N) :
    (dat0 (F := Ideal) V c).flushed 4 t = ((cfg0.win 4).blk t).view.read (Elt Ideal)
      (Cert.Sage.dense (M := 32768) (V c main_v7) (V c main_v3) (V c main_v6) (V c main_v9)) := by
  show (cfg0.win 4).cut (grid0.coords t) ((dat0 V c).after 4 t) = _
  rw [after0_4]
  unfold out0_4
  rw [View.canon_unit_zero hz]
  simp only [View.ld_unit_zero (S := S2048x256) hz, View.ld_unit_zero (S := S2048x128) hz, View.ld_unit_zero (S := S640x256) hz]
  funext y
  have hy : (cfg0.win 4).xinj (grid0.coords t) y
      = ix2 (⟨(y 0).val, (y 0).isLt⟩ : Fin 2048) (⟨(y 1).val, (y 1).isLt⟩ : Fin 256) := by
    funext a; match a with | ⟨0, _⟩ => rfl | ⟨1, _⟩ => rfl
  have hr : ((((cfg0.win 4).blk t).view.emb y) 0).val = win0_4.index t (0 : Fin 2) * 2048 + (y 0).val := by
    show win0_4.index t (0 : Fin 2) * 2048 + 1 * (y 0).val = _; omega
  have hj : ((((cfg0.win 4).blk t).view.emb y) 1).val = (y 1).val := by
    have e41 := (idx_facts t).2.2.2.2.2.2.2.2.2
    show win0_4.index t (1 : Fin 2) * 256 + 1 * (y 1).val = _; omega
  show k0_pay1 (iblk0 V c 0 t) (iblk0 V c 1 t) (iblk0 V c 2 t) (iblk0 V c 3 t) ((cfg0.win 4).xinj (grid0.coords t) y)
    = Cert.Sage.denseAt (M := 32768) (V c main_v7) (V c main_v3) (V c main_v6) (V c main_v9)
        ((((cfg0.win 4).blk t).view.emb y) 0) ((((cfg0.win 4).blk t).view.emb y) 1)
  rw [hy]
  refine (pay_apply _ _ _ _ _ _).trans ?_
  exact denseAt_congr _ _ _ _ _ _ _ _ _ _ _ _ (fun k => blk0_apply V c t _ k _ hr) (fun k => blk1_apply V c t _ k _ hr)
    (fun k => blk2_apply V c t _ k _ hr) (fun k => blk3_apply V c t k _ _ hj)

/-- An index of the array is in point `t`'s block iff each coordinate is in the block's range on its axis. -/
theorem mem_blk (t : Fin cfg0.N) (i : S32768x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v10).slice (win0_4.rect t)).set ↔ _
  rw [View.set_slice_whole, Rect.mem_set_unit]
  exact Iff.rfl

/-- EVERY INDEX IS COVERED: row `r` lies in the block of the point whose block index is `r / 2048`, since 16 · 2048 = 32768. -/
theorem cover (i : S32768x256.Idx) :
    ∃ t : Fin cfg0.N, (cfg0.win 4).flush t = true ∧ i ∈ ((cfg0.win 4).blk t).view.set := by
  have hi0 : (i 0).val < 32768 := (i 0).isLt
  have hi1 : (i 1).val < 256 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- THE OUTPUT ARRAY after the region: the dense layer of the four operand arrays as the region finds them. -/
theorem final (c : Dev nD) :
    (dat0 (F := Ideal) V c).arrAt 4 cfg0.N
      = Cert.Sage.dense (M := 32768) (V c main_v7) (V c main_v3) (V c main_v6) (V c main_v9) := by
  exact (dat0 V c).arrAt_eq_of_cover 4 _ (fun t _ => flushed_eq V c t) cover

end Cert.KernelIdeal.Region0

end
-- ==== Proof.Region1Value.lean ====
/-
  What the kernel of the second dense layer leaves in its output array, as one function of its four operand arrays: the grid has 8 points; point t reads rows [1024·t, 1024·t + 1024) of the three row operands and the whole weight matrix and writes those rows of the output; the body is the first layer’s on blocks of 1024 rows, so its value at row p, feature q of a block is the dense layer’s element there; the 8 blocks tile the 8192 rows, so the whole output array is the dense layer of the whole operand arrays.
-/
import proofs.«419529_j43293270344193_2_alg».proof.Proof.Gen.KernelIdeal.Frame
import proofs.«419529_j43293270344193_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The left operand's row is the output's row. -/
theorem lhs256_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column is the contraction position. -/
theorem lhs256_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row is the contraction position. -/
theorem rhs256_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's column is the output's column. -/
theorem rhs256_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A product of a `1024 × 256` block and a `256 × 256` block into a zero accumulator, read at `(p, q)`: the sum over the
    256 contraction positions of the products. -/
theorem matmul256_apply (a : FVec Ideal S1024x256 .bf16) (b : FVec Ideal S256x256 .bf16) (p : Fin 1024) (q : Fin 256) :
    matmul dot_S1024x256_S256x256_S1024x256_1_0_0_1_n_n none a b (constant S1024x256 .f32 0x00000000#32) (ix2 p q)
      = ∑ k : Fin 256, a (ix2 p k) * b (ix2 k q) := by
  refine (Ideal.matmul_constant_zero_apply dot_S1024x256_S256x256_S1024x256_1_0_0_1_n_n none a b (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-- The left operand's row is the output's row. -/
theorem lhs128_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
/-- The left operand's column is the contraction position. -/
theorem lhs128_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
/-- The right operand's row is the contraction position. -/
theorem rhs128_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
/-- The right operand's column is the output's column. -/
theorem rhs128_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A product of a `1024 × 128` block and a `128 × 256` block into a zero accumulator, read at `(p, q)`: the sum over the
    128 contraction positions of the products. -/
theorem matmul128_apply (a : FVec Ideal S1024x128 .bf16) (b : FVec Ideal S128x256 .bf16) (p : Fin 1024) (q : Fin 256) :
    matmul dot_S1024x128_S128x256_S1024x256_1_0_0_1_n_n none a b (constant S1024x256 .f32 0x00000000#32) (ix2 p q)
      = ∑ k : Fin 128, a (ix2 p k) * b (ix2 k q) := by
  refine (Ideal.matmul_constant_zero_apply dot_S1024x128_S128x256_S1024x256_1_0_0_1_n_n none a b (ix2 p q)).trans ?_
  rw [← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 p q) ((contrEquiv1 dot_S1024x128_S128x256_S1024x256_1_0_0_1_n_n 128 rfl rfl).symm k) = ix2 p k := funext fun a => Fin.ext (by
    match a with
    | ⟨0, _⟩ => exact lhs128_0 _ _
    | ⟨1, _⟩ => exact (lhs128_1 _ _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The first 256 rows of the weight block, read at `(k, q)`. -/
theorem wslice0_apply (x3 : FVec Ideal S640x256 .bf16) (h : S640x256.Slices ![0, 0] S256x256) (k : Fin 256) (q : Fin 256) :
    extractStridedSlice S256x256 ![0, 0] x3 h (ix2 k q) = x3 (ix2 (⟨k.val, by omega⟩ : Fin 640) q) :=
  extractStridedSlice_apply _ x3 h _ _ (fun a => match a with
    | ⟨0, _⟩ => by show k.val = 0 + k.val; omega
    | ⟨1, _⟩ => by show q.val = 0 + q.val; omega)
/-- Rows 256 to 511 of the weight block, read at `(k, q)`. -/
theorem wslice256_apply (x3 : FVec Ideal S640x256 .bf16) (h : S640x256.Slices ![256, 0] S256x256) (k : Fin 256) (q : Fin 256) :
    extractStridedSlice S256x256 ![256, 0] x3 h (ix2 k q) = x3 (ix2 (⟨256 + k.val, by omega⟩ : Fin 640) q) :=
  extractStridedSlice_apply _ x3 h _ _ (fun a => match a with
    | ⟨0, _⟩ => by show 256 + k.val = 256 + k.val; rfl
    | ⟨1, _⟩ => by show q.val = 0 + q.val; omega)
/-- Rows 512 to 639 of the weight block, read at `(k, q)`. -/
theorem wslice512_apply (x3 : FVec Ideal S640x256 .bf16) (h : S640x256.Slices ![512, 0] S128x256) (k : Fin 128) (q : Fin 256) :
    extractStridedSlice S128x256 ![512, 0] x3 h (ix2 k q) = x3 (ix2 (⟨512 + k.val, by omega⟩ : Fin 640) q) :=
  extractStridedSlice_apply _ x3 h _ _ (fun a => match a with
    | ⟨0, _⟩ => by show 512 + k.val = 512 + k.val; rfl
    | ⟨1, _⟩ => by show q.val = 0 + q.val; omega)

/-- The body's stored value at row `p`, feature `q` of a block is the dense layer's element there. -/
theorem pay_apply (x0 x1 : Vec Ideal S1024x256 .f32) (x2 : Vec Ideal S1024x128 .f32) (x3 : Vec Ideal S640x256 .bf16)
    (p : Fin 1024) (q : Fin 256) :
    k1_pay1 (F := Ideal) x0 x1 x2 x3 (ix2 p q) = Cert.Sage.denseAt x0 x1 x2 x3 p q := by
  unfold k1_pay1
  simp only [shapeCast_self]
  unfold Cert.Sage.denseAt
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      refine congrArg₂ (· + ·) ?_ ?_
      · refine (matmul256_apply _ _ p q).trans ?_
        exact Finset.sum_congr rfl fun k _ => congrArg (x0 (ix2 p k) * ·) (wslice0_apply x3 _ k q)
      · refine (matmul256_apply _ _ p q).trans ?_
        exact Finset.sum_congr rfl fun k _ => congrArg (x1 (ix2 p k) * ·) (wslice256_apply x3 _ k q)
    · refine (matmul128_apply _ _ p q).trans ?_
      exact Finset.sum_congr rfl fun k _ => congrArg (x2 (ix2 p k) * ·) (wslice512_apply x3 _ k q)
  · exact Ideal.ofBits_zero_f32

variable (V : (c : Dev nD) → (b : Ref sig .tc) → Buf (Elt Ideal) ((c : Thread nD τ).loc b))

/-- The zero offsets of a whole-buffer access, spelled as the constant function. -/
theorem hz : (![0, 0] : Fin 2 → Nat) = fun _ => 0 := funext fun a => by fin_cases a <;> rfl

/-- The dense layer's element depends on its operands only through the row `r` of the three row operands and the column `j`
    of the weights. -/
theorem denseAt_congr {M M' : Nat} (s a : Cert.Sage.Mat M 256) (e : Cert.Sage.Mat M 128) (w : Cert.Sage.Mat 640 256)
    (s' a' : Cert.Sage.Mat M' 256) (e' : Cert.Sage.Mat M' 128) (w' : Cert.Sage.Mat 640 256)
    (r : Fin M) (r' : Fin M') (j j' : Fin 256)
    (hs : ∀ k : Fin 256, s (ix2 r k) = s' (ix2 r' k)) (ha : ∀ k : Fin 256, a (ix2 r k) = a' (ix2 r' k))
    (he : ∀ k : Fin 128, e (ix2 r k) = e' (ix2 r' k)) (hw : ∀ k : Fin 640, w (ix2 k j) = w' (ix2 k j')) :
    Cert.Sage.denseAt s a e w r j = Cert.Sage.denseAt s' a' e' w' r' j' := by
  unfold Cert.Sage.denseAt
  simp only [hs, ha, he, hw]

/-- The printed index maps, decided over the grid: windows 0, 1, 2 move with the output window 4 along the rows and window 3
    stays at the whole weight block; the output's block index is the point's number, below 8, and 0 along the columns. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) ≤ 7
    ∧ win1_4.index t (1 : Fin 2) = 0 :=
  (by decide +kernel : ∀ t : Fin grid1.N, _)

/-- Every block of rows is SOME point's. -/
theorem idx_onto : ∀ q0 : Fin 8, ∃ t : Fin cfg1.N, win1_4.index t = ![q0.val, 0] :=
  (by decide +kernel : ∀ q0 : Fin 8, ∃ t : Fin grid1.N, win1_4.index t = ![q0.val, 0])

/-- Window 0's block at point `t`, read at `(p, k)`, is its array at `(r, k)` when `r` is the block's row `p` in the array. -/
theorem blk0_apply (c : Dev nD) (t : Fin cfg1.N) (p : Fin 1024) (k : Fin 256) (r : Fin 8192)
    (hr : r.val = win1_4.index t (0 : Fin 2) * 1024 + p.val) :
    iblk1 V c 0 t (ix2 p k) = V c main_v18 (ix2 r k) := by
  obtain ⟨e00, e01, -⟩ := idx_facts t
  show V c main_v18 (((cfg1.win 0).blk t).view.emb (ix2 p k)) = V c main_v18 (ix2 r k)
  refine congrArg (V c main_v18) (funext fun a => Fin.ext ?_)
  match a with
  | ⟨0, _⟩ => show win1_0.index t (0 : Fin 2) * 1024 + 1 * p.val = r.val; omega
  | ⟨1, _⟩ => show win1_0.index t (1 : Fin 2) * 256 + 1 * k.val = k.val; omega

/-- Window 1's block at point `t`, read at `(p, k)`, is its array at `(r, k)` when `r` is the block's row `p` in the array. -/
theorem blk1_apply (c : Dev nD) (t : Fin cfg1.N) (p : Fin 1024) (k : Fin 256) (r : Fin 8192)
    (hr : r.val = win1_4.index t (0 : Fin 2) * 1024 + p.val) :
    iblk1 V c 1 t (ix2 p k) = V c main_v14 (ix2 r k) := by
  obtain ⟨-, -, e10, e11, -⟩ := idx_facts t
  show V c main_v14 (((cfg1.win 1).blk t).view.emb (ix2 p k)) = V c main_v14 (ix2 r k)
  refine congrArg (V c main_v14) (funext fun a => Fin.ext ?_)
  match a with
  | ⟨0, _⟩ => show win1_1.index t (0 : Fin 2) * 1024 + 1 * p.val = r.val; omega
  | ⟨1, _⟩ => show win1_1.index t (1 : Fin 2) * 256 + 1 * k.val = k.val; omega

/-- Window 2's block at point `t`, read at `(p, k)`, is its array at `(r, k)` when `r` is the block's row `p` in the array. -/
theorem blk2_apply (c : Dev nD) (t : Fin cfg1.N) (p : Fin 1024) (k : Fin 128) (r : Fin 8192)
    (hr : r.val = win1_4.index t (0 : Fin 2) * 1024 + p.val) :
    iblk1 V c 2 t (ix2 p k) = V c main_v17 (ix2 r k) := by
  obtain ⟨-, -, -, -, e20, e21, -⟩ := idx_facts t
  show V c main_v17 (((cfg1.win 2).blk t).view.emb (ix2 p k)) = V c main_v17 (ix2 r k)
  refine congrArg (V c main_v17) (funext fun a => Fin.ext ?_)
  match a with
  | ⟨0, _⟩ => show win1_2.index t (0 : Fin 2) * 1024 + 1 * p.val = r.val; omega
  | ⟨1, _⟩ => show win1_2.index t (1 : Fin 2) * 128 + 1 * k.val = k.val; omega

/-- Window 3's block at every point is the whole weight array: read at `(k, q)` it is the array at `(k, j)` when `j` is `q`. -/
theorem blk3_apply (c : Dev nD) (t : Fin cfg1.N) (k : Fin 640) (q j : Fin 256) (hj : j.val = q.val) :
    iblk1 V c 3 t (ix2 k q) = V c main_v20 (ix2 k j) := by
  obtain ⟨-, -, -, -, -, -, e30, e31, -⟩ := idx_facts t
  show V c main_v20 (((cfg1.win 3).blk t).view.emb (ix2 k q)) = V c main_v20 (ix2 k j)
  refine congrArg (V c main_v20) (funext fun a => Fin.ext ?_)
  match a with
  | ⟨0, _⟩ => show win1_3.index t (0 : Fin 2) * 640 + 1 * k.val = k.val; omega
  | ⟨1, _⟩ => show win1_3.index t (1 : Fin 2) * 256 + 1 * q.val = j.val; omega

/-- WHAT POINT `t` WRITES BACK is block `t` of the dense layer of the four operand arrays as the region finds them. -/
theorem flushed_eq (c : Dev nD) (t : Fin cfg1.N) :
    (dat1 (F := Ideal) V c).flushed 4 t = ((cfg1.win 4).blk t).view.read (Elt Ideal)
      (Cert.Sage.dense (M := 8192) (V c main_v18) (V c main_v14) (V c main_v17) (V c main_v20)) := by
  show (cfg1.win 4).cut (grid1.coords t) ((dat1 V c).after 4 t) = _
  rw [after1_4]
  unfold out1_4
  rw [View.canon_unit_zero hz]
  simp only [View.ld_unit_zero (S := S1024x256) hz, View.ld_unit_zero (S := S1024x128) hz, View.ld_unit_zero (S := S640x256) hz]
  funext y
  have hy : (cfg1.win 4).xinj (grid1.coords t) y
      = ix2 (⟨(y 0).val, (y 0).isLt⟩ : Fin 1024) (⟨(y 1).val, (y 1).isLt⟩ : Fin 256) := by
    funext a; match a with | ⟨0, _⟩ => rfl | ⟨1, _⟩ => rfl
  have hr : ((((cfg1.win 4).blk t).view.emb y) 0).val = win1_4.index t (0 : Fin 2) * 1024 + (y 0).val := by
    show win1_4.index t (0 : Fin 2) * 1024 + 1 * (y 0).val = _; omega
  have hj : ((((cfg1.win 4).blk t).view.emb y) 1).val = (y 1).val := by
    have e41 := (idx_facts t).2.2.2.2.2.2.2.2.2
    show win1_4.index t (1 : Fin 2) * 256 + 1 * (y 1).val = _; omega
  show k1_pay1 (iblk1 V c 0 t) (iblk1 V c 1 t) (iblk1 V c 2 t) (iblk1 V c 3 t) ((cfg1.win 4).xinj (grid1.coords t) y)
    = Cert.Sage.denseAt (M := 8192) (V c main_v18) (V c main_v14) (V c main_v17) (V c main_v20)
        ((((cfg1.win 4).blk t).view.emb y) 0) ((((cfg1.win 4).blk t).view.emb y) 1)
  rw [hy]
  refine (pay_apply _ _ _ _ _ _).trans ?_
  exact denseAt_congr _ _ _ _ _ _ _ _ _ _ _ _ (fun k => blk0_apply V c t _ k _ hr) (fun k => blk1_apply V c t _ k _ hr)
    (fun k => blk2_apply V c t _ k _ hr) (fun k => blk3_apply V c t k _ _ hj)

/-- An index of the array is in point `t`'s block iff each coordinate is in the block's range on its axis. -/
theorem mem_blk (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v21).slice (win1_4.rect t)).set ↔ _
  rw [View.set_slice_whole, Rect.mem_set_unit]
  exact Iff.rfl

/-- EVERY INDEX IS COVERED: row `r` lies in the block of the point whose block index is `r / 1024`, since 8 · 1024 = 8192. -/
theorem cover (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  obtain ⟨t, ht⟩ := idx_onto ⟨(i 0).val / 1024, by omega⟩
  have q0 : win1_4.index t (0 : Fin 2) = (i 0).val / 1024 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 256 ≤ (i 1).val ∧ (i 1).val < win1_4.index t (1 : Fin 2) * 256 + 256; omega

/-- THE OUTPUT ARRAY after the region: the dense layer of the four operand arrays as the region finds them. -/
theorem final (c : Dev nD) :
    (dat1 (F := Ideal) V c).arrAt 4 cfg1.N
      = Cert.Sage.dense (M := 8192) (V c main_v18) (V c main_v14) (V c main_v17) (V c main_v20) := by
  exact (dat1 V c).arrAt_eq_of_cover 4 _ (fun t _ => flushed_eq V c t) cover

end Cert.KernelIdeal.Region1

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.KernelHost0.lean ====
/-
  What the first dense layer's kernel finds in its four operand arrays, in terms of the program's arguments. Before the
  first kernel call the host program gathers the edge sources' rows (a filling gather), takes the two segment sums (of the
  gathered rows and of the edge features), gathers the nodes' own rows (another filling gather) and transposes and narrows
  the weights. Each host stretch's result is its operations applied to what the stretches before it left; a buffer a
  stretch does not write keeps its contents through it; and a filling gather whose indices all lie in range is the plain
  gather (the fill is never read).
-/
import proofs.«419529_j43293270344193_2_alg».proof.Proof.Gen.KernelIdeal.Frame
import proofs.«419529_j43293270344193_2_alg».proof.Proof.LibTakeFill
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.SL.Sem Idealize.ShloMosaic.StableHlo
open Cert.LibTakeFill (wrapCol)

/-- A result buffer among a list is written inside the list's buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers `hostOps0` writes. -/
abbrev WA : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
/-- A buffer `hostOps0` does not write keeps its contents through it. -/
theorem keepA (U : Valuation τ sig (Elt Ideal)) (r : Ref sig .tc) (hr : r ∉ WA) :
    after hostOps0 U (Proc.devRef .tc r) = U (Proc.devRef .tc r) :=
  after_of_writes_sub hostOps0 U
    ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩ hr

/-- The buffers `hostOps0_1` writes. -/
abbrev WB : List (Ref sig .tc) := [main_cst, main_v1, main_v2, main_v3, main_cst_0, main_v4, main_v5, main_v6]
/-- A buffer `hostOps0_1` does not write keeps its contents through it. -/
theorem keepB (U : Valuation τ sig (Elt Ideal)) (r : Ref sig .tc) (hr : r ∉ WB) :
    after hostOps0_1 U (Proc.devRef .tc r) = U (Proc.devRef .tc r) :=
  after_of_writes_sub hostOps0_1 U
    ⟨sub_of_mem (by decide), sub_of_mem (by decide), sub_of_mem (by decide), sub_of_mem (by decide), sub_of_mem (by decide), sub_of_mem (by decide), sub_of_mem (by decide), sub_of_mem (by decide)⟩ hr

/-- The buffers `hostOps0_2` writes. -/
abbrev WC : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
/-- A buffer `hostOps0_2` does not write keeps its contents through it. -/
theorem keepC (U : Valuation τ sig (Elt Ideal)) (r : Ref sig .tc) (hr : r ∉ WC) :
    after hostOps0_2 U (Proc.devRef .tc r) = U (Proc.devRef .tc r) :=
  after_of_writes_sub hostOps0_2 U
    ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩ hr

/-- The buffers `hostOps0_3` writes. -/
abbrev WD : List (Ref sig .tc) := [main_v8, main_v9]
/-- A buffer `hostOps0_3` does not write keeps its contents through it. -/
theorem keepD (U : Valuation τ sig (Elt Ideal)) (r : Ref sig .tc) (hr : r ∉ WD) :
    after hostOps0_3 U (Proc.devRef .tc r) = U (Proc.devRef .tc r) :=
  after_of_writes_sub hostOps0_3 U
    ⟨sub_of_mem (by decide), sub_of_mem (by decide)⟩ hr

/-- The first scatter-add of `hostOps0_1`: `main_v3` is the row scatter-add, onto zeros, of `main_v0` by the segment ids. -/
theorem resB3 (U : Valuation τ sig (Elt Ideal)) :
    (after hostOps0_1 U (Proc.devRef .tc main_v3) : (⟨S32768x256, .f32⟩ : BufTy).Contents (Elt Ideal))
      = Host.scatterAdd (F := Ideal) scatter_S32768x256_S327680x1_S327680x256_1_0_0_1
          (broadcastInDim S32768x256 ![] bcast_S_S32768x256 (constant (F := Ideal) S_ .f32 0x00000000#32))
          (broadcastInDim S327680x1 ![0] bcast_S327680_S327680x1_0 (U (Proc.devRef .tc main_arg6)))
          (U (Proc.devRef .tc main_v0)) := by
  delta hostOps0_1
  after_results_simp <;> rfl

/-- The second scatter-add of `hostOps0_1`: `main_v6` is the row scatter-add, onto zeros, of argument 1 by the segment ids. -/
theorem resB6 (U : Valuation τ sig (Elt Ideal)) :
    (after hostOps0_1 U (Proc.devRef .tc main_v6) : (⟨S32768x128, .f32⟩ : BufTy).Contents (Elt Ideal))
      = Host.scatterAdd (F := Ideal) scatter_S32768x128_S327680x1_S327680x128_1_0_0_1
          (broadcastInDim S32768x128 ![] bcast_S_S32768x128 (constant (F := Ideal) S_ .f32 0x00000000#32))
          (broadcastInDim S327680x1 ![0] bcast_S327680_S327680x1_0 (U (Proc.devRef .tc main_arg6)))
          (U (Proc.devRef .tc main_arg1)) := by
  delta hostOps0_1
  after_results_simp <;> rfl

/-- `hostOps0_3`: `main_v9` is argument 3 transposed, then narrowed. -/
theorem resD9 (U : Valuation τ sig (Elt Ideal)) :
    (after hostOps0_3 U (Proc.devRef .tc main_v9) : (⟨S640x256, .bf16⟩ : BufTy).Contents (Elt Ideal))
      = truncf (F := Ideal) .bf16 (transpose S640x256 [1, 0] (U (Proc.devRef .tc main_arg3)) transposes_S256x640_S640x256_1_0) bitsLt_bf16_f32 := by
  delta hostOps0_3
  after_results_simp <;> rfl

set_option maxHeartbeats 2000000 in
/-- `hostOps0` (a filling gather) with every index word in `[−100000, 100000)`: `main_v0` is the plain gather of argument 0
    at the wrapped argument 5. -/
theorem takeA (U : Valuation τ sig (Elt Ideal))
    (h : ∀ e : S327680.Idx, -((100000 : ℕ) : ℤ) ≤ ((U (Proc.devRef .tc main_arg5) : IVec S327680 32) e).toInt
      ∧ ((U (Proc.devRef .tc main_arg5) : IVec S327680 32) e).toInt < ((100000 : ℕ) : ℤ)) :
    (after hostOps0 U (Proc.devRef .tc main_v0) : (⟨S327680x256, .f32⟩ : BufTy).Contents (Elt Ideal))
      = Host.gather gather_S100000x256_S327680x1_S327680x256_1_0_n_n_0_1_1256 (U (Proc.devRef .tc main_arg0))
          (wrapCol bcast_S_S327680 bcast_S327680_S327680x1_0 100000#32 (U (Proc.devRef .tc main_arg5))) := by
  delta hostOps0
  after_results_simp
  simp only [TRef.ofBuf, TRef.toBuf, cast_eq]
  exact Cert.LibTakeFill.take_fill_eq 100000 100000#32 99999#32 bcast_S_S327680 bcast_S327680_S327680x1_0 bcast_S_S327680x1
    bcast_S1_S1x1_1 bcast_S1x1_S327680x1_0_1 reducesTo_S327680x1_S327680_d1 h_S_ bcast_S327680_S327680x256_0 (by decide) (by decide)
    rfl rfl _ h _ _

set_option maxHeartbeats 2000000 in
/-- `hostOps0_2` (a filling gather) with every index word in `[−100000, 100000)`: `main_v7` is the plain gather of argument 0
    at the wrapped argument 7. -/
theorem takeC (U : Valuation τ sig (Elt Ideal))
    (h : ∀ e : S32768.Idx, -((100000 : ℕ) : ℤ) ≤ ((U (Proc.devRef .tc main_arg7) : IVec S32768 32) e).toInt
      ∧ ((U (Proc.devRef .tc main_arg7) : IVec S32768 32) e).toInt < ((100000 : ℕ) : ℤ)) :
    (after hostOps0_2 U (Proc.devRef .tc main_v7) : (⟨S32768x256, .f32⟩ : BufTy).Contents (Elt Ideal))
      = Host.gather gather_S100000x256_S32768x1_S32768x256_1_0_n_n_0_1_1256 (U (Proc.devRef .tc main_arg0))
          (wrapCol bcast_S_S32768 bcast_S32768_S32768x1_0 100000#32 (U (Proc.devRef .tc main_arg7))) := by
  delta hostOps0_2
  after_results_simp
  simp only [TRef.ofBuf, TRef.toBuf, cast_eq]
  exact Cert.LibTakeFill.take_fill_eq 100000 100000#32 99999#32 bcast_S_S32768 bcast_S32768_S32768x1_0 bcast_S_S32768x1
    bcast_S1_S1x1_1 bcast_S1x1_S32768x1_0_1 reducesTo_S32768x1_S32768_d1 h_S_ bcast_S32768_S32768x256_0 (by decide) (by decide)
    rfl rfl _ h _ _

variable (m : (ℓ : Loc nD τ sig) → Buf (Elt Ideal) ℓ) (ρ : Dev nD → PrngReg)

/-- A buffer the first stretch does not write holds, after it, what the launch memory holds. -/
theorem W1_arg (c : Dev nD) (r : Ref sig .tc) (hA : r ∉ WA) : W1 m ρ c (Proc.devRef .tc r) = m ((c : Thread nD τ).loc r) :=
  keepA _ r hA
/-- A buffer the first two stretches do not write holds, after them, what the launch memory holds. -/
theorem W2_arg (c : Dev nD) (r : Ref sig .tc) (hA : r ∉ WA) (hB : r ∉ WB) :
    W2 m ρ c (Proc.devRef .tc r) = m ((c : Thread nD τ).loc r) :=
  (keepB _ r hB).trans (keepA _ r hA)
/-- A buffer the first three stretches do not write holds, after them, what the launch memory holds. -/
theorem W3_arg (c : Dev nD) (r : Ref sig .tc) (hA : r ∉ WA) (hB : r ∉ WB) (hC : r ∉ WC) :
    W3 m ρ c (Proc.devRef .tc r) = m ((c : Thread nD τ).loc r) :=
  (keepC _ r hC).trans ((keepB _ r hB).trans (keepA _ r hA))

/-- The nodes' own rows (operand 0 of the first kernel call): the gather at the wrapped own-row indices. -/
theorem V4_v7 (c : Dev nD) (h7 : ∀ e : S32768.Idx, -((100000 : ℕ) : ℤ) ≤ ((m ((c : Thread nD τ).loc main_arg7) : IVec S32768 32) e).toInt ∧ ((m ((c : Thread nD τ).loc main_arg7) : IVec S32768 32) e).toInt < ((100000 : ℕ) : ℤ)) :
    (V4 m ρ c main_v7 : (⟨S32768x256, .f32⟩ : BufTy).Contents (Elt Ideal))
      = Host.gather gather_S100000x256_S32768x1_S32768x256_1_0_n_n_0_1_1256 (m ((c : Thread nD τ).loc main_arg0) : FVec Ideal S100000x256 .f32)
          (wrapCol bcast_S_S32768 bcast_S32768_S32768x1_0 100000#32 (m ((c : Thread nD τ).loc main_arg7))) := by
  have h7' : ∀ e : S32768.Idx, -((100000 : ℕ) : ℤ) ≤ ((W2 m ρ c (Proc.devRef .tc main_arg7) : IVec S32768 32) e).toInt
      ∧ ((W2 m ρ c (Proc.devRef .tc main_arg7) : IVec S32768 32) e).toInt < ((100000 : ℕ) : ℤ) := by
    rw [W2_arg m ρ c main_arg7 (by decide) (by decide)]
    exact h7
  refine (keepD _ main_v7 (by decide)).trans ((takeC (W2 m ρ c) h7').trans ?_)
  rw [W2_arg m ρ c main_arg0 (by decide) (by decide), W2_arg m ρ c main_arg7 (by decide) (by decide)]

/-- The summed neighbour rows (operand 1): the row scatter-add, onto zeros, of the rows gathered at the wrapped edge sources. -/
theorem V4_v3 (c : Dev nD) (h5 : ∀ e : S327680.Idx, -((100000 : ℕ) : ℤ) ≤ ((m ((c : Thread nD τ).loc main_arg5) : IVec S327680 32) e).toInt ∧ ((m ((c : Thread nD τ).loc main_arg5) : IVec S327680 32) e).toInt < ((100000 : ℕ) : ℤ)) :
    (V4 m ρ c main_v3 : (⟨S32768x256, .f32⟩ : BufTy).Contents (Elt Ideal))
      = Host.scatterAdd (F := Ideal) scatter_S32768x256_S327680x1_S327680x256_1_0_0_1
          (broadcastInDim S32768x256 ![] bcast_S_S32768x256 (constant (F := Ideal) S_ .f32 0x00000000#32))
          (broadcastInDim S327680x1 ![0] bcast_S327680_S327680x1_0 (m ((c : Thread nD τ).loc main_arg6)))
          (Host.gather gather_S100000x256_S327680x1_S327680x256_1_0_n_n_0_1_1256 (m ((c : Thread nD τ).loc main_arg0) : FVec Ideal S100000x256 .f32)
            (wrapCol bcast_S_S327680 bcast_S327680_S327680x1_0 100000#32 (m ((c : Thread nD τ).loc main_arg5)))) := by
  have h5' : ∀ e : S327680.Idx, -((100000 : ℕ) : ℤ) ≤ ((W0 m ρ c (Proc.devRef .tc main_arg5) : IVec S327680 32) e).toInt
      ∧ ((W0 m ρ c (Proc.devRef .tc main_arg5) : IVec S327680 32) e).toInt < ((100000 : ℕ) : ℤ) := h5
  refine (keepD _ main_v3 (by decide)).trans ((keepC _ main_v3 (by decide)).trans ((resB3 (W1 m ρ c)).trans ?_))
  rw [W1_arg m ρ c main_arg6 (by decide)]
  exact congrArg _ (takeA (W0 m ρ c) h5')

/-- The summed edge features (operand 2): the row scatter-add, onto zeros, of the edge features. -/
theorem V4_v6 (c : Dev nD) :
    (V4 m ρ c main_v6 : (⟨S32768x128, .f32⟩ : BufTy).Contents (Elt Ideal))
      = Host.scatterAdd (F := Ideal) scatter_S32768x128_S327680x1_S327680x128_1_0_0_1
          (broadcastInDim S32768x128 ![] bcast_S_S32768x128 (constant (F := Ideal) S_ .f32 0x00000000#32))
          (broadcastInDim S327680x1 ![0] bcast_S327680_S327680x1_0 (m ((c : Thread nD τ).loc main_arg6)))
          (m ((c : Thread nD τ).loc main_arg1) : FVec Ideal S327680x128 .f32) := by
  refine (keepD _ main_v6 (by decide)).trans ((keepC _ main_v6 (by decide)).trans ((resB6 (W1 m ρ c)).trans ?_))
  rw [W1_arg m ρ c main_arg6 (by decide), W1_arg m ρ c main_arg1 (by decide)]

/-- The weights (operand 3): transposed, then narrowed. -/
theorem V4_v9 (c : Dev nD) :
    (V4 m ρ c main_v9 : (⟨S640x256, .bf16⟩ : BufTy).Contents (Elt Ideal))
      = truncf (F := Ideal) .bf16 (transpose S640x256 [1, 0] (m ((c : Thread nD τ).loc main_arg3) : FVec Ideal S256x640 .f32) transposes_S256x640_S640x256_1_0) bitsLt_bf16_f32 := by
  refine (resD9 (W3 m ρ c)).trans ?_
  rw [W3_arg m ρ c main_arg3 (by decide) (by decide) (by decide)]

end Cert.KernelIdeal.Host0

end
-- ==== Proof.KernelHost1.lean ====
/-
  What the second dense layer's kernel finds in its four operand arrays, in terms of the program's arguments and of the
  first kernel call's output array. Between the two kernel calls the host program gathers the second layer's edge sources'
  rows from the node features, takes the two segment sums, gathers the nodes' own rows from the FIRST LAYER'S OUTPUT, and
  transposes and narrows the second weight matrix. The first kernel call leaves its output array at what its write-backs
  fold to and every other buffer as it found it.
-/
import proofs.«419529_j43293270344193_2_alg».proof.Proof.Gen.KernelIdeal.Frame
import proofs.«419529_j43293270344193_2_alg».proof.Proof.LibTakeFill
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.SL.Sem Idealize.ShloMosaic.StableHlo
open Cert.LibTakeFill (wrapCol)

variable (m : (ℓ : Loc nD τ sig) → Buf (Elt Ideal) ℓ) (ρ : Dev nD → PrngReg)

/-! ## The buffers each stretch writes, and that it leaves every other buffer alone -/

/-- A result buffer among a list is written inside the list's buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers that the first gather's stretch writes. -/
abbrev Wr0 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

/-- The buffers that the first pair of segment sums writes. -/
abbrev Wr01 : List (Ref sig .tc) :=
  [main_cst, main_v1, main_v2, main_v3, main_cst_0, main_v4, main_v5, main_v6]

/-- The buffers that the second gather's stretch writes. -/
abbrev Wr02 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]

/-- The buffers that the first transpose and narrowing writes. -/
abbrev Wr03 : List (Ref sig .tc) :=
  [main_v8, main_v9]

/-- The buffers that the third gather's stretch writes. -/
abbrev Wr1 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v11]

/-- The buffers that the second pair of segment sums writes. -/
abbrev Wr11 : List (Ref sig .tc) :=
  [main_cst_1, main_v12, main_v13, main_v14, main_cst_2, main_v15, main_v16, main_v17]

/-- The buffers that the fourth gather's stretch writes. -/
abbrev Wr12 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v18]

/-- The buffers that the second transpose and narrowing writes. -/
abbrev Wr13 : List (Ref sig .tc) :=
  [main_v19, main_v20]

/-- A buffer that the first gather's stretch does not write keeps its contents through it. -/
theorem keep0 (U : Valuation τ sig (Elt Ideal)) (r : Ref sig .tc) (hr : r ∉ Wr0) :
    after hostOps0 U (Proc.devRef .tc r) = U (Proc.devRef .tc r) :=
  after_of_writes_sub hostOps0 U
    ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩ hr

/-- A buffer that the first pair of segment sums does not write keeps its contents through it. -/
theorem keep0_1 (U : Valuation τ sig (Elt Ideal)) (r : Ref sig .tc) (hr : r ∉ Wr01) :
    after hostOps0_1 U (Proc.devRef .tc r) = U (Proc.devRef .tc r) :=
  after_of_writes_sub hostOps0_1 U
    ⟨sub_of_mem (by decide), sub_of_mem (by decide), sub_of_mem (by decide), sub_of_mem (by decide), sub_of_mem (by decide), sub_of_mem (by decide), sub_of_mem (by decide), sub_of_mem (by decide)⟩ hr

/-- A buffer that the second gather's stretch does not write keeps its contents through it. -/
theorem keep0_2 (U : Valuation τ sig (Elt Ideal)) (r : Ref sig .tc) (hr : r ∉ Wr02) :
    after hostOps0_2 U (Proc.devRef .tc r) = U (Proc.devRef .tc r) :=
  after_of_writes_sub hostOps0_2 U
    ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩ hr

/-- A buffer that the first transpose and narrowing does not write keeps its contents through it. -/
theorem keep0_3 (U : Valuation τ sig (Elt Ideal)) (r : Ref sig .tc) (hr : r ∉ Wr03) :
    after hostOps0_3 U (Proc.devRef .tc r) = U (Proc.devRef .tc r) :=
  after_of_writes_sub hostOps0_3 U
    ⟨sub_of_mem (by decide), sub_of_mem (by decide)⟩ hr

/-- A buffer that the third gather's stretch does not write keeps its contents through it. -/
theorem keep1 (U : Valuation τ sig (Elt Ideal)) (r : Ref sig .tc) (hr : r ∉ Wr1) :
    after hostOps1 U (Proc.devRef .tc r) = U (Proc.devRef .tc r) :=
  after_of_writes_sub hostOps1 U
    ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩ hr

/-- A buffer that the second pair of segment sums does not write keeps its contents through it. -/
theorem keep1_1 (U : Valuation τ sig (Elt Ideal)) (r : Ref sig .tc) (hr : r ∉ Wr11) :
    after hostOps1_1 U (Proc.devRef .tc r) = U (Proc.devRef .tc r) :=
  after_of_writes_sub hostOps1_1 U
    ⟨sub_of_mem (by decide), sub_of_mem (by decide), sub_of_mem (by decide), sub_of_mem (by decide), sub_of_mem (by decide), sub_of_mem (by decide), sub_of_mem (by decide), sub_of_mem (by decide)⟩ hr

/-- A buffer that the fourth gather's stretch does not write keeps its contents through it. -/
theorem keep1_2 (U : Valuation τ sig (Elt Ideal)) (r : Ref sig .tc) (hr : r ∉ Wr12) :
    after hostOps1_2 U (Proc.devRef .tc r) = U (Proc.devRef .tc r) :=
  after_of_writes_sub hostOps1_2 U
    ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩ hr

/-- A buffer that the second transpose and narrowing does not write keeps its contents through it. -/
theorem keep1_3 (U : Valuation τ sig (Elt Ideal)) (r : Ref sig .tc) (hr : r ∉ Wr13) :
    after hostOps1_3 U (Proc.devRef .tc r) = U (Proc.devRef .tc r) :=
  after_of_writes_sub hostOps1_3 U
    ⟨sub_of_mem (by decide), sub_of_mem (by decide)⟩ hr

/-! ## What each stretch leaves at its result buffers, over arbitrary contents at its start -/

/-- The second pair of segment sums leaves at `main_v14` the segment sum, by argument 9, of the rows at `main_v11`. -/
theorem res1_1_v14 (U : Valuation τ sig (Elt Ideal)) (seg : IVec S81920 32) (g : FVec Ideal S81920x256 .f32)
    (hs : U (Proc.devRef .tc main_arg9) = seg) (hg : U (Proc.devRef .tc main_v11) = g) :
    (after hostOps1_1 U (Proc.devRef .tc main_v14) : (⟨S8192x256, .f32⟩ : BufTy).Contents (Elt Ideal))
      = Host.scatterAdd (F := Ideal) scatter_S8192x256_S81920x1_S81920x256_1_0_0_1
          (broadcastInDim S8192x256 ![] bcast_S_S8192x256 (constant (F := Ideal) S_ .f32 0x00000000#32))
          (broadcastInDim S81920x1 ![0] bcast_S81920_S81920x1_0 seg) g := by
  subst hs hg
  delta hostOps1_1
  after_results

/-- The second pair of segment sums leaves at `main_v17` the segment sum, by argument 9, of argument 2. -/
theorem res1_1_v17 (U : Valuation τ sig (Elt Ideal)) (seg : IVec S81920 32) (g : FVec Ideal S81920x128 .f32)
    (hs : U (Proc.devRef .tc main_arg9) = seg) (hg : U (Proc.devRef .tc main_arg2) = g) :
    (after hostOps1_1 U (Proc.devRef .tc main_v17) : (⟨S8192x128, .f32⟩ : BufTy).Contents (Elt Ideal))
      = Host.scatterAdd (F := Ideal) scatter_S8192x128_S81920x1_S81920x128_1_0_0_1
          (broadcastInDim S8192x128 ![] bcast_S_S8192x128 (constant (F := Ideal) S_ .f32 0x00000000#32))
          (broadcastInDim S81920x1 ![0] bcast_S81920_S81920x1_0 seg) g := by
  subst hs hg
  delta hostOps1_1
  after_results

/-- The second transpose and narrowing leaves at `main_v20` argument 4 transposed, then narrowed. -/
theorem res1_3_v20 (U : Valuation τ sig (Elt Ideal)) (w : FVec Ideal S256x640 .f32)
    (hw : U (Proc.devRef .tc main_arg4) = w) :
    (after hostOps1_3 U (Proc.devRef .tc main_v20) : (⟨S640x256, .bf16⟩ : BufTy).Contents (Elt Ideal))
      = truncf (F := Ideal) .bf16 (transpose S640x256 [1, 0] w transposes_S256x640_S640x256_1_0) bitsLt_bf16_f32 := by
  subst hw
  delta hostOps1_3
  after_results

set_option maxHeartbeats 2000000 in
/-- The third gather's stretch leaves at `main_v11` the rows of argument 0 gathered at the wrapped argument 8, when
    every word of argument 8 lies in `[-100000, 100000)`: the range mask is then all ones and the fill is never read. -/
theorem res1_v11 (U : Valuation τ sig (Elt Ideal)) (x : FVec Ideal S100000x256 .f32) (idx : IVec S81920 32)
    (hx : U (Proc.devRef .tc main_arg0) = x) (hi : U (Proc.devRef .tc main_arg8) = idx)
    (hidx : ∀ e : S81920.Idx, -((100000 : ℕ) : ℤ) ≤ (idx e).toInt ∧ (idx e).toInt < ((100000 : ℕ) : ℤ)) :
    (after hostOps1 U (Proc.devRef .tc main_v11) : (⟨S81920x256, .f32⟩ : BufTy).Contents (Elt Ideal))
      = Host.gather gather_S100000x256_S81920x1_S81920x256_1_0_n_n_0_1_1256 x
          (wrapCol bcast_S_S81920 bcast_S81920_S81920x1_0 100000#32 idx) := by
  subst hx hi
  delta hostOps1
  after_results_simp
  simp only [TRef.ofBuf, TRef.toBuf, cast_eq]
  exact Cert.LibTakeFill.take_fill_eq 100000 100000#32 99999#32 bcast_S_S81920 bcast_S81920_S81920x1_0 bcast_S_S81920x1
    bcast_S1_S1x1_1 bcast_S1x1_S81920x1_0_1 reducesTo_S81920x1_S81920_d1 h_S_ bcast_S81920_S81920x256_0
    (by decide) (by decide) rfl rfl _ hidx _ _

set_option maxHeartbeats 2000000 in
/-- The fourth gather's stretch leaves at `main_v18` the rows of `main_v10` gathered at the wrapped argument 10, when
    every word of argument 10 lies in `[-32768, 32768)`. -/
theorem res1_2_v18 (U : Valuation τ sig (Elt Ideal)) (x : FVec Ideal S32768x256 .f32) (idx : IVec S8192 32)
    (hx : U (Proc.devRef .tc main_v10) = x) (hi : U (Proc.devRef .tc main_arg10) = idx)
    (hidx : ∀ e : S8192.Idx, -((32768 : ℕ) : ℤ) ≤ (idx e).toInt ∧ (idx e).toInt < ((32768 : ℕ) : ℤ)) :
    (after hostOps1_2 U (Proc.devRef .tc main_v18) : (⟨S8192x256, .f32⟩ : BufTy).Contents (Elt Ideal))
      = Host.gather gather_S32768x256_S8192x1_S8192x256_1_0_n_n_0_1_1256 x
          (wrapCol bcast_S_S8192 bcast_S8192_S8192x1_0 32768#32 idx) := by
  subst hx hi
  delta hostOps1_2
  after_results_simp
  simp only [TRef.ofBuf, TRef.toBuf, cast_eq]
  exact Cert.LibTakeFill.take_fill_eq 32768 32768#32 32767#32 bcast_S_S8192 bcast_S8192_S8192x1_0 bcast_S_S8192x1
    bcast_S1_S1x1_1 bcast_S1x1_S8192x1_0_1 reducesTo_S8192x1_S8192_d1 h_S_ bcast_S8192_S8192x256_0
    (by decide) (by decide) rfl rfl _ hidx _ _

/-! ## A buffer that nothing writes, walked back to the launch -/

/-- At the first kernel call's entry, a buffer none of the first four stretches writes holds its launch contents. -/
theorem W4_keep (c : Dev nD) (r : Ref sig .tc) (h0 : r ∉ Wr0) (h1 : r ∉ Wr01) (h2 : r ∉ Wr02) (h3 : r ∉ Wr03) :
    W4 m ρ c (Proc.devRef .tc r) = m ((c : Thread nD τ).loc r) :=
  (keep0_3 (W3 m ρ c) r h3).trans ((keep0_2 (W2 m ρ c) r h2).trans ((keep0_1 (W1 m ρ c) r h1).trans
    ((keep0 (W0 m ρ c) r h0).trans rfl)))

/-- At the first kernel call's exit, likewise, for a buffer that is none of the call's arrays. -/
theorem W5_keep (c : Dev nD) (r : Ref sig .tc) (hne : ∀ w, Pipeline.arrRef spec0 w ≠ r)
    (h0 : r ∉ Wr0) (h1 : r ∉ Wr01) (h2 : r ∉ Wr02) (h3 : r ∉ Wr03) :
    W5 m ρ c (Proc.devRef .tc r) = m ((c : Thread nD τ).loc r) :=
  (W5_of_ne m ρ c r hne).trans (W4_keep m ρ c r h0 h1 h2 h3)

/-- After the third gather's stretch. -/
theorem W6_keep (c : Dev nD) (r : Ref sig .tc) (hne : ∀ w, Pipeline.arrRef spec0 w ≠ r)
    (h0 : r ∉ Wr0) (h1 : r ∉ Wr01) (h2 : r ∉ Wr02) (h3 : r ∉ Wr03) (h4 : r ∉ Wr1) :
    W6 m ρ c (Proc.devRef .tc r) = m ((c : Thread nD τ).loc r) :=
  (keep1 (W5 m ρ c) r h4).trans (W5_keep m ρ c r hne h0 h1 h2 h3)

/-- After the second pair of segment sums. -/
theorem W7_keep (c : Dev nD) (r : Ref sig .tc) (hne : ∀ w, Pipeline.arrRef spec0 w ≠ r)
    (h0 : r ∉ Wr0) (h1 : r ∉ Wr01) (h2 : r ∉ Wr02) (h3 : r ∉ Wr03) (h4 : r ∉ Wr1) (h5 : r ∉ Wr11) :
    W7 m ρ c (Proc.devRef .tc r) = m ((c : Thread nD τ).loc r) :=
  (keep1_1 (W6 m ρ c) r h5).trans (W6_keep m ρ c r hne h0 h1 h2 h3 h4)

/-- After the fourth gather's stretch. -/
theorem W8_keep (c : Dev nD) (r : Ref sig .tc) (hne : ∀ w, Pipeline.arrRef spec0 w ≠ r)
    (h0 : r ∉ Wr0) (h1 : r ∉ Wr01) (h2 : r ∉ Wr02) (h3 : r ∉ Wr03) (h4 : r ∉ Wr1) (h5 : r ∉ Wr11) (h6 : r ∉ Wr12) :
    W8 m ρ c (Proc.devRef .tc r) = m ((c : Thread nD τ).loc r) :=
  (keep1_2 (W7 m ρ c) r h6).trans (W7_keep m ρ c r hne h0 h1 h2 h3 h4 h5)

/-! ## The four operand arrays -/

/-- The nodes' own rows (operand 0 of the second kernel call): gathered from the first call's output at the wrapped indices. -/
theorem V9_v18 (c : Dev nD) (h10 : ∀ e : S8192.Idx, -((32768 : ℕ) : ℤ) ≤ ((m ((c : Thread nD τ).loc main_arg10) : IVec S8192 32) e).toInt ∧ ((m ((c : Thread nD τ).loc main_arg10) : IVec S8192 32) e).toInt < ((32768 : ℕ) : ℤ)) :
    (V9 m ρ c main_v18 : (⟨S8192x256, .f32⟩ : BufTy).Contents (Elt Ideal))
      = Host.gather gather_S32768x256_S8192x1_S8192x256_1_0_n_n_0_1_1256 ((dat0 (V4 m ρ) c).arrAt 4 cfg0.N)
          (wrapCol bcast_S_S8192 bcast_S8192_S8192x1_0 32768#32 (m ((c : Thread nD τ).loc main_arg10))) :=
  (keep1_3 (W8 m ρ c) main_v18 (by decide)).trans
    (res1_2_v18 (W7 m ρ c) _ _
      ((keep1_1 (W6 m ρ c) main_v10 (by decide)).trans ((keep1 (W5 m ρ c) main_v10 (by decide)).trans (W5_arr m ρ c 4)))
      (W7_keep m ρ c main_arg10 (by decide) (by decide) (by decide) (by decide) (by decide) (by decide) (by decide))
      h10)

/-- The summed neighbour rows (operand 1). -/
theorem V9_v14 (c : Dev nD) (h8 : ∀ e : S81920.Idx, -((100000 : ℕ) : ℤ) ≤ ((m ((c : Thread nD τ).loc main_arg8) : IVec S81920 32) e).toInt ∧ ((m ((c : Thread nD τ).loc main_arg8) : IVec S81920 32) e).toInt < ((100000 : ℕ) : ℤ)) :
    (V9 m ρ c main_v14 : (⟨S8192x256, .f32⟩ : BufTy).Contents (Elt Ideal))
      = Host.scatterAdd (F := Ideal) scatter_S8192x256_S81920x1_S81920x256_1_0_0_1
          (broadcastInDim S8192x256 ![] bcast_S_S8192x256 (constant (F := Ideal) S_ .f32 0x00000000#32))
          (broadcastInDim S81920x1 ![0] bcast_S81920_S81920x1_0 (m ((c : Thread nD τ).loc main_arg9)))
          (Host.gather gather_S100000x256_S81920x1_S81920x256_1_0_n_n_0_1_1256 (m ((c : Thread nD τ).loc main_arg0) : FVec Ideal S100000x256 .f32)
            (wrapCol bcast_S_S81920 bcast_S81920_S81920x1_0 100000#32 (m ((c : Thread nD τ).loc main_arg8)))) :=
  (keep1_3 (W8 m ρ c) main_v14 (by decide)).trans ((keep1_2 (W7 m ρ c) main_v14 (by decide)).trans
    (res1_1_v14 (W6 m ρ c) _ _
      (W6_keep m ρ c main_arg9 (by decide) (by decide) (by decide) (by decide) (by decide) (by decide))
      (res1_v11 (W5 m ρ c) _ _
        (W5_keep m ρ c main_arg0 (by decide) (by decide) (by decide) (by decide) (by decide))
        (W5_keep m ρ c main_arg8 (by decide) (by decide) (by decide) (by decide) (by decide))
        h8)))

/-- The summed edge features (operand 2). -/
theorem V9_v17 (c : Dev nD) :
    (V9 m ρ c main_v17 : (⟨S8192x128, .f32⟩ : BufTy).Contents (Elt Ideal))
      = Host.scatterAdd (F := Ideal) scatter_S8192x128_S81920x1_S81920x128_1_0_0_1
          (broadcastInDim S8192x128 ![] bcast_S_S8192x128 (constant (F := Ideal) S_ .f32 0x00000000#32))
          (broadcastInDim S81920x1 ![0] bcast_S81920_S81920x1_0 (m ((c : Thread nD τ).loc main_arg9)))
          (m ((c : Thread nD τ).loc main_arg2) : FVec Ideal S81920x128 .f32) :=
  (keep1_3 (W8 m ρ c) main_v17 (by decide)).trans ((keep1_2 (W7 m ρ c) main_v17 (by decide)).trans
    (res1_1_v17 (W6 m ρ c) _ _
      (W6_keep m ρ c main_arg9 (by decide) (by decide) (by decide) (by decide) (by decide) (by decide))
      (W6_keep m ρ c main_arg2 (by decide) (by decide) (by decide) (by decide) (by decide) (by decide))))

/-- The weights (operand 3): transposed, then narrowed. -/
theorem V9_v20 (c : Dev nD) :
    (V9 m ρ c main_v20 : (⟨S640x256, .bf16⟩ : BufTy).Contents (Elt Ideal))
      = truncf (F := Ideal) .bf16 (transpose S640x256 [1, 0] (m ((c : Thread nD τ).loc main_arg4) : FVec Ideal S256x640 .f32) transposes_S256x640_S640x256_1_0) bitsLt_bf16_f32 :=
  res1_3_v20 (W8 m ρ c) _
    (W8_keep m ρ c main_arg4 (by decide) (by decide) (by decide) (by decide) (by decide) (by decide) (by decide) (by decide))

end Cert.KernelIdeal.Host1

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.SegSum.lean ====
/-
  The segment sum as one function: row `r` of the result is the sum of the update rows whose segment id is `r`. A row
  scatter-add onto zeros is the segment sum of its updates.
-/
import proofs.«419529_j43293270344193_2_alg».proof.Proof.Spec
import proofs.«419529_j43293270344193_2_alg».proof.Proof.LibSegmentSum

noncomputable section

open scoped BigOperators

namespace Cert.Sage

open Idealize.ShloMosaic Idealize.ShloMosaic.ValueIdx Cert.LibSegmentSum

/-- The segment sum of the `E` rows of `u` into `M` rows, by the column `seg` of segment ids (signed words; an id outside
    `[0, M)` names no row). -/
def segsum {M D E : Nat} (seg : IVec (⟨2, ![E, 1]⟩ : Shape) 32) (u : Mat E D) : Mat M D :=
  fun i => ∑ e : Fin E, if (seg (ix2 e (0 : Fin 1))).toInt = (((i 0).val : ℕ) : ℤ) then u (ix2 e (i 1)) else 0

theorem segsum_apply {M D E : Nat} (seg : IVec (⟨2, ![E, 1]⟩ : Shape) 32) (u : Mat E D) (r : Fin M) (k : Fin D) :
    segsum (M := M) seg u (ix2 r k) = ∑ e : Fin E, if (seg (ix2 e (0 : Fin 1))).toInt = ((r.val : ℕ) : ℤ) then u (ix2 e k) else 0 := rfl

/-- A row scatter-add onto an all-zero operand is the segment sum of the updates. -/
theorem scatterAdd_zero_eq_segsum {M D E : Nat}
    (wf : ScatterDims.WF (⟨2, ![M, D]⟩ : Shape) (⟨2, ![E, 1]⟩ : Shape) (⟨2, ![E, D]⟩ : Shape) [1] [0] [0] 1)
    (z : Mat M D) (hz : ∀ i, z i = 0) (seg : IVec (⟨2, ![E, 1]⟩ : Shape) 32) (u : Mat E D) :
    Ideal.hostScatterAdd (rowScatterDims M D E wf) z seg u = segsum seg u := by
  funext i
  obtain ⟨r, k, rfl⟩ : ∃ (r : Fin M) (k : Fin D), i = ix2 r k := ⟨i 0, i 1, eq_ix2 i⟩
  rw [rowScatterAdd_apply wf z seg u r k, hz, zero_add]
  rfl

end Cert.Sage

end
-- ==== Proof.KernelNet.lean ====
/-
  The kernel program's result as one expression of its arguments: the dense layer over rows gathered from the first dense
  layer's result, the two segment sums of the second layer, and the second weight matrix transposed (and narrowed, which is
  the identity on extended reals); the first dense layer likewise over the node features.
-/
import proofs.«419529_j43293270344193_2_alg».proof.Proof.Gen.KernelIdeal
import proofs.«419529_j43293270344193_2_alg».proof.Proof.SegSum
import proofs.«419529_j43293270344193_2_alg».proof.Proof.LibTakeFill

noncomputable section

namespace Cert.KernelIdeal.ValueK

open Cert.KernelIdeal Cert.KernelIdeal.Gen
open Idealize.ShloMosaic
open Cert.LibTakeFill (wrapCol)
open Cert.Sage (dense segsum)

/-- The first dense layer of the kernel program, over its arguments. -/
def layerK1 (x0 : FVec Ideal S100000x256 .f32) (x1 : FVec Ideal S327680x128 .f32) (x3 : FVec Ideal S256x640 .f32) (x5 x6 : IVec S327680 32) (x7 : IVec S32768 32) :
    FVec Ideal S32768x256 .f32 :=
  dense (M := 32768)
    (Host.gather gather_S100000x256_S32768x1_S32768x256_1_0_n_n_0_1_1256 x0 (wrapCol bcast_S_S32768 bcast_S32768_S32768x1_0 100000#32 x7))
    (segsum (broadcastInDim S327680x1 ![0] bcast_S327680_S327680x1_0 x6)
      (Host.gather gather_S100000x256_S327680x1_S327680x256_1_0_n_n_0_1_1256 x0 (wrapCol bcast_S_S327680 bcast_S327680_S327680x1_0 100000#32 x5)))
    (segsum (broadcastInDim S327680x1 ![0] bcast_S327680_S327680x1_0 x6) x1)
    (truncf (F := Ideal) .bf16 (transpose S640x256 [1, 0] x3 transposes_S256x640_S640x256_1_0) bitsLt_bf16_f32)

/-- The kernel program's result, over its arguments. -/
def netK (x0 : FVec Ideal S100000x256 .f32) (x1 : FVec Ideal S327680x128 .f32) (x2 : FVec Ideal S81920x128 .f32) (x3 x4 : FVec Ideal S256x640 .f32) (x5 x6 : IVec S327680 32) (x7 : IVec S32768 32)
    (x8 x9 : IVec S81920 32) (x10 : IVec S8192 32) : FVec Ideal S8192x256 .f32 :=
  dense (M := 8192)
    (Host.gather gather_S32768x256_S8192x1_S8192x256_1_0_n_n_0_1_1256 (layerK1 x0 x1 x3 x5 x6 x7) (wrapCol bcast_S_S8192 bcast_S8192_S8192x1_0 32768#32 x10))
    (segsum (broadcastInDim S81920x1 ![0] bcast_S81920_S81920x1_0 x9)
      (Host.gather gather_S100000x256_S81920x1_S81920x256_1_0_n_n_0_1_1256 x0 (wrapCol bcast_S_S81920 bcast_S81920_S81920x1_0 100000#32 x8)))
    (segsum (broadcastInDim S81920x1 ![0] bcast_S81920_S81920x1_0 x9) x2)
    (truncf (F := Ideal) .bf16 (transpose S640x256 [1, 0] x4 transposes_S256x640_S640x256_1_0) bitsLt_bf16_f32)

end Cert.KernelIdeal.ValueK

end
-- ==== Proof.KernelValue.lean ====
/-
  The kernel program's result as one function of its arguments. The second kernel call's output array is the dense layer of
  what that call finds in its four operand arrays; those are: rows gathered from the FIRST call's output, two segment sums,
  and the second weight matrix transposed; the first call's output is in turn the dense layer of rows gathered from the node
  features, two segment sums and the first weight matrix transposed. A row scatter-add onto zeros is a segment sum. All
  four gathers are the plain (clamping) gathers, because the precondition keeps every index in range and the fill value of
  the filling gather is then never read.
-/
import proofs.«419529_j43293270344193_2_alg».proof.Proof.Region0Value
import proofs.«419529_j43293270344193_2_alg».proof.Proof.Region1Value
import proofs.«419529_j43293270344193_2_alg».proof.Proof.KernelHost0
import proofs.«419529_j43293270344193_2_alg».proof.Proof.KernelHost1
import proofs.«419529_j43293270344193_2_alg».proof.Proof.SegSum
import proofs.«419529_j43293270344193_2_alg».proof.Proof.KernelNet

set_option maxRecDepth 16384

noncomputable section

namespace Cert.KernelIdeal.ValueK

open Cert.KernelIdeal Cert.KernelIdeal.Gen
open Idealize.ShloMosaic Idealize.ShloMosaic.TcCoe Idealize.SL.Sem Idealize.ShloMosaic.StableHlo
open Cert.LibTakeFill (wrapCol)
open Cert.Sage (dense segsum)

/-- An all-zero array, as the program builds it: the zero constant broadcast. -/
theorem zeros_apply {t : Shape} (h : S_.BroadcastsInDim t (![] : Fin 0 → Fin t.rank)) (i : t.Idx) :
    broadcastInDim t ![] h (constant (F := Ideal) S_ .f32 0x00000000#32) i = 0 := by
  unfold broadcastInDim
  exact Ideal.ofBits_zero_f32

variable (m : (ℓ : Loc nD τ sig) → Buf (Elt Ideal) ℓ) (ρ : Dev nD → PrngReg)

/-- A row scatter-add of the program onto the broadcast zero constant is the segment sum (four instances, by their
    dimension records). -/
theorem scat_32768x256 (seg : IVec S327680x1 32) (u : FVec Ideal S327680x256 .f32) :
    Host.scatterAdd (F := Ideal) scatter_S32768x256_S327680x1_S327680x256_1_0_0_1
      (broadcastInDim S32768x256 ![] bcast_S_S32768x256 (constant (F := Ideal) S_ .f32 0x00000000#32)) seg u = segsum seg u :=
  Cert.Sage.scatterAdd_zero_eq_segsum scatter_S32768x256_S327680x1_S327680x256_1_0_0_1_wf _ (zeros_apply bcast_S_S32768x256) seg u
theorem scat_32768x128 (seg : IVec S327680x1 32) (u : FVec Ideal S327680x128 .f32) :
    Host.scatterAdd (F := Ideal) scatter_S32768x128_S327680x1_S327680x128_1_0_0_1
      (broadcastInDim S32768x128 ![] bcast_S_S32768x128 (constant (F := Ideal) S_ .f32 0x00000000#32)) seg u = segsum seg u :=
  Cert.Sage.scatterAdd_zero_eq_segsum scatter_S32768x128_S327680x1_S327680x128_1_0_0_1_wf _ (zeros_apply bcast_S_S32768x128) seg u
theorem scat_8192x256 (seg : IVec S81920x1 32) (u : FVec Ideal S81920x256 .f32) :
    Host.scatterAdd (F := Ideal) scatter_S8192x256_S81920x1_S81920x256_1_0_0_1
      (broadcastInDim S8192x256 ![] bcast_S_S8192x256 (constant (F := Ideal) S_ .f32 0x00000000#32)) seg u = segsum seg u :=
  Cert.Sage.scatterAdd_zero_eq_segsum scatter_S8192x256_S81920x1_S81920x256_1_0_0_1_wf _ (zeros_apply bcast_S_S8192x256) seg u
theorem scat_8192x128 (seg : IVec S81920x1 32) (u : FVec Ideal S81920x128 .f32) :
    Host.scatterAdd (F := Ideal) scatter_S8192x128_S81920x1_S81920x128_1_0_0_1
      (broadcastInDim S8192x128 ![] bcast_S_S8192x128 (constant (F := Ideal) S_ .f32 0x00000000#32)) seg u = segsum seg u :=
  Cert.Sage.scatterAdd_zero_eq_segsum scatter_S8192x128_S81920x1_S81920x128_1_0_0_1_wf _ (zeros_apply bcast_S_S8192x128) seg u

/-- The first kernel call's output array is the first dense layer of the arguments. -/
theorem first_layer (c : Dev nD)
    (h5 : ∀ e : S327680.Idx, -((100000 : ℕ) : ℤ) ≤ ((m ((c : Thread nD τ).loc main_arg5) : IVec S327680 32) e).toInt ∧ ((m ((c : Thread nD τ).loc main_arg5) : IVec S327680 32) e).toInt < ((100000 : ℕ) : ℤ))
    (h7 : ∀ e : S32768.Idx, -((100000 : ℕ) : ℤ) ≤ ((m ((c : Thread nD τ).loc main_arg7) : IVec S32768 32) e).toInt ∧ ((m ((c : Thread nD τ).loc main_arg7) : IVec S32768 32) e).toInt < ((100000 : ℕ) : ℤ)) :
    ((dat0 (F := Ideal) (V4 m ρ) c).arrAt 4 cfg0.N : (⟨S32768x256, .f32⟩ : BufTy).Contents (Elt Ideal))
      = layerK1 (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) := by
  refine (Cert.KernelIdeal.Region0.final (V4 m ρ) c).trans ?_
  unfold layerK1
  rw [Cert.KernelIdeal.Host0.V4_v7 m ρ c h7, Cert.KernelIdeal.Host0.V4_v3 m ρ c h5, Cert.KernelIdeal.Host0.V4_v6 m ρ c,
    Cert.KernelIdeal.Host0.V4_v9 m ρ c, scat_32768x256, scat_32768x128]

/-- THE RESULT BUFFER at the last boundary is `netK` of the arguments. -/
theorem value (c : Dev nD)
    (h5 : ∀ e : S327680.Idx, -((100000 : ℕ) : ℤ) ≤ ((m ((c : Thread nD τ).loc main_arg5) : IVec S327680 32) e).toInt ∧ ((m ((c : Thread nD τ).loc main_arg5) : IVec S327680 32) e).toInt < ((100000 : ℕ) : ℤ))
    (h7 : ∀ e : S32768.Idx, -((100000 : ℕ) : ℤ) ≤ ((m ((c : Thread nD τ).loc main_arg7) : IVec S32768 32) e).toInt ∧ ((m ((c : Thread nD τ).loc main_arg7) : IVec S32768 32) e).toInt < ((100000 : ℕ) : ℤ))
    (h8 : ∀ e : S81920.Idx, -((100000 : ℕ) : ℤ) ≤ ((m ((c : Thread nD τ).loc main_arg8) : IVec S81920 32) e).toInt ∧ ((m ((c : Thread nD τ).loc main_arg8) : IVec S81920 32) e).toInt < ((100000 : ℕ) : ℤ))
    (h10 : ∀ e : S8192.Idx, -((32768 : ℕ) : ℤ) ≤ ((m ((c : Thread nD τ).loc main_arg10) : IVec S8192 32) e).toInt ∧ ((m ((c : Thread nD τ).loc main_arg10) : IVec S8192 32) e).toInt < ((32768 : ℕ) : ℤ)) :
    (W10 m ρ c (Proc.devRef .tc main_v21) : (⟨S8192x256, .f32⟩ : BufTy).Contents (Elt Ideal))
      = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 4).trans ?_
  refine (Cert.KernelIdeal.Region1.final (V9 m ρ) c).trans ?_
  unfold netK
  rw [Cert.KernelIdeal.Host1.V9_v18 m ρ c h10, Cert.KernelIdeal.Host1.V9_v14 m ρ c h8, Cert.KernelIdeal.Host1.V9_v17 m ρ c,
    Cert.KernelIdeal.Host1.V9_v20 m ρ c, scat_8192x256, scat_8192x128, first_layer m ρ c h5 h7]

end Cert.KernelIdeal.ValueK

end
-- ==== Proof.RefRun.lean ====
/-
  The reference program's run, read back in stages. Its @main is a straight line of 58 host operations: four times the
  same gather (wrap the negative indices, gather rows), two segment sums of gathered rows laid beside edge features, and two
  dense layers (lay the node's own rows beside the segment sums, multiply by the transposed weights, maximum with 0), the
  second layer gathering its own rows from the first layer's result. The run is stated over those pieces as named functions
  (`wrapN`, `colN`, `layer1`, `layer2`, `net`) and proved stretch by stretch, the operation list cut before every
  concatenation: each stretch's result is its operations applied to what the earlier stretches left, and a buffer no
  operation of a stretch writes keeps its contents through it.
-/
import proofs.«419529_j43293270344193_2_alg».proof.Proof.Gen.ReferenceIdeal
import Idealize.ShloMosaic.Lib.StableHlo.Run

noncomputable section

namespace Cert.ReferenceIdeal.RunS

open Cert.ReferenceIdeal Cert.ReferenceIdeal.Gen Idealize.ShloMosaic Idealize.ShloMosaic.TcCoe Idealize.SL.Sem Idealize.ShloMosaic.StableHlo

variable {F : FTy → Type} [FloatOps F]

/-- @main's 58 operations, in order (a called function's operations stand in its call's place, spelt `TRef.…`). -/
abbrev ops : List (HloOp τ sig (Elt F)) :=
  [ nullary main_c (constantI S_ 32 0#32),
    unary main_c main_v0 (broadcastInDim S327680 ![] bcast_S_S327680 : (⟨S_, .i32⟩ : BufTy).Contents (Elt F) → (⟨S327680, .i32⟩ : BufTy).Contents (Elt F)),
    binary main_arg5 main_v0 main_v1 (cmpi .slt : (⟨S327680, .i32⟩ : BufTy).Contents (Elt F) → (⟨S327680, .i32⟩ : BufTy).Contents (Elt F) → (⟨S327680, .i1⟩ : BufTy).Contents (Elt F)),
    nullary main_c_0 (constantI S_ 32 100000#32),
    unary main_c_0 main_v2 (broadcastInDim S327680 ![] bcast_S_S327680 : (⟨S_, .i32⟩ : BufTy).Contents (Elt F) → (⟨S327680, .i32⟩ : BufTy).Contents (Elt F)),
    binary main_arg5 main_v2 main_v3 (addi : (⟨S327680, .i32⟩ : BufTy).Contents (Elt F) → (⟨S327680, .i32⟩ : BufTy).Contents (Elt F) → (⟨S327680, .i32⟩ : BufTy).Contents (Elt F)),
    ternary main_v1 main_v3 main_arg5 main_v4 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v4 main_v5 (broadcastInDim S327680x1 ![0] bcast_S327680_S327680x1_0 : (⟨S327680, .i32⟩ : BufTy).Contents (Elt F) → (⟨S327680x1, .i32⟩ : BufTy).Contents (Elt F)),
    binary main_arg0 main_v5 main_v6 ((fun x i => Host.gather gather_S100000x256_S327680x1_S327680x256_1_0_n_n_0_1_1256 x i) : (⟨S100000x256, .f32⟩ : BufTy).Contents (Elt F) → (⟨S327680x1, .i32⟩ : BufTy).Contents (Elt F) → (⟨S327680x256, .f32⟩ : BufTy).Contents (Elt F)),
    binary main_v6 main_arg1 main_v7 ((fun a b => concatenate S327680x384 1 [⟨S327680x256, a⟩, ⟨S327680x128, b⟩] concatenates_S327680x256_S327680x128_S327680x384_d1) : (⟨S327680x256, .f32⟩ : BufTy).Contents (Elt F) → (⟨S327680x128, .f32⟩ : BufTy).Contents (Elt F) → (⟨S327680x384, .f32⟩ : BufTy).Contents (Elt F)),
    nullary main_cst (constant S_ .f32 0x00000000#32),
    unary main_cst main_v8 (broadcastInDim S32768x384 ![] bcast_S_S32768x384 : (⟨S_, .f32⟩ : BufTy).Contents (Elt F) → (⟨S32768x384, .f32⟩ : BufTy).Contents (Elt F)),
    unary main_arg6 main_v9 (broadcastInDim S327680x1 ![0] bcast_S327680_S327680x1_0 : (⟨S327680, .i32⟩ : BufTy).Contents (Elt F) → (⟨S327680x1, .i32⟩ : BufTy).Contents (Elt F)),
    ternary main_v8 main_v9 main_v7 main_v10 ((fun x i u => Host.scatterAdd scatter_S32768x384_S327680x1_S327680x384_1_0_0_1 x i u) : (⟨S32768x384, .f32⟩ : BufTy).Contents (Elt F) → (⟨S327680x1, .i32⟩ : BufTy).Contents (Elt F) → (⟨S327680x384, .f32⟩ : BufTy).Contents (Elt F) → (⟨S32768x384, .f32⟩ : BufTy).Contents (Elt F)),
    nullary main_c_1 (constantI S_ 32 0#32),
    unary main_c_1 main_v11 (broadcastInDim S32768 ![] bcast_S_S32768 : (⟨S_, .i32⟩ : BufTy).Contents (Elt F) → (⟨S32768, .i32⟩ : BufTy).Contents (Elt F)),
    binary main_arg7 main_v11 main_v12 (cmpi .slt : (⟨S32768, .i32⟩ : BufTy).Contents (Elt F) → (⟨S32768, .i32⟩ : BufTy).Contents (Elt F) → (⟨S32768, .i1⟩ : BufTy).Contents (Elt F)),
    nullary main_c_2 (constantI S_ 32 100000#32),
    unary main_c_2 main_v13 (broadcastInDim S32768 ![] bcast_S_S32768 : (⟨S_, .i32⟩ : BufTy).Contents (Elt F) → (⟨S32768, .i32⟩ : BufTy).Contents (Elt F)),
    binary main_arg7 main_v13 main_v14 (addi : (⟨S32768, .i32⟩ : BufTy).Contents (Elt F) → (⟨S32768, .i32⟩ : BufTy).Contents (Elt F) → (⟨S32768, .i32⟩ : BufTy).Contents (Elt F)),
    ternary main_v12 main_v14 main_arg7 main_v15 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v15 main_v16 (broadcastInDim S32768x1 ![0] bcast_S32768_S32768x1_0 : (⟨S32768, .i32⟩ : BufTy).Contents (Elt F) → (⟨S32768x1, .i32⟩ : BufTy).Contents (Elt F)),
    binary main_arg0 main_v16 main_v17 ((fun x i => Host.gather gather_S100000x256_S32768x1_S32768x256_1_0_n_n_0_1_1256 x i) : (⟨S100000x256, .f32⟩ : BufTy).Contents (Elt F) → (⟨S32768x1, .i32⟩ : BufTy).Contents (Elt F) → (⟨S32768x256, .f32⟩ : BufTy).Contents (Elt F)),
    binary main_v17 main_v10 main_v18 ((fun a b => concatenate S32768x640 1 [⟨S32768x256, a⟩, ⟨S32768x384, b⟩] concatenates_S32768x256_S32768x384_S32768x640_d1) : (⟨S32768x256, .f32⟩ : BufTy).Contents (Elt F) → (⟨S32768x384, .f32⟩ : BufTy).Contents (Elt F) → (⟨S32768x640, .f32⟩ : BufTy).Contents (Elt F)),
    unary main_arg3 main_v19 ((transpose S640x256 [1, 0] · transposes_S256x640_S640x256_1_0) : (⟨S256x640, .f32⟩ : BufTy).Contents (Elt F) → (⟨S640x256, .f32⟩ : BufTy).Contents (Elt F)),
    binary main_v18 main_v19 main_v20 ((fun l r => Host.dotGeneral dot_S32768x640_S640x256_S32768x256_1_0_0_1_n_n none l r) : (⟨S32768x640, .f32⟩ : BufTy).Contents (Elt F) → (⟨S640x256, .f32⟩ : BufTy).Contents (Elt F) → (⟨S32768x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x256, .f32⟩) main_call0_v0) (broadcastInDim S32768x256 ![] bcast_S_S32768x256),
    TRef.binary (TRef.of (T := ⟨S32768x256, .f32⟩) main_v20) (TRef.of (T := ⟨S32768x256, .f32⟩) main_call0_v0) (TRef.of (T := ⟨S32768x256, .f32⟩) main_v21) maximumf,
    nullary main_c_3 (constantI S_ 32 0#32),
    unary main_c_3 main_v22 (broadcastInDim S81920 ![] bcast_S_S81920 : (⟨S_, .i32⟩ : BufTy).Contents (Elt F) → (⟨S81920, .i32⟩ : BufTy).Contents (Elt F)),
    binary main_arg8 main_v22 main_v23 (cmpi .slt : (⟨S81920, .i32⟩ : BufTy).Contents (Elt F) → (⟨S81920, .i32⟩ : BufTy).Contents (Elt F) → (⟨S81920, .i1⟩ : BufTy).Contents (Elt F)),
    nullary main_c_4 (constantI S_ 32 100000#32),
    unary main_c_4 main_v24 (broadcastInDim S81920 ![] bcast_S_S81920 : (⟨S_, .i32⟩ : BufTy).Contents (Elt F) → (⟨S81920, .i32⟩ : BufTy).Contents (Elt F)),
    binary main_arg8 main_v24 main_v25 (addi : (⟨S81920, .i32⟩ : BufTy).Contents (Elt F) → (⟨S81920, .i32⟩ : BufTy).Contents (Elt F) → (⟨S81920, .i32⟩ : BufTy).Contents (Elt F)),
    ternary main_v23 main_v25 main_arg8 main_v26 (select : (⟨S81920, .i1⟩ : BufTy).Contents (Elt F) → (⟨S81920, .i32⟩ : BufTy).Contents (Elt F) → (⟨S81920, .i32⟩ : BufTy).Contents (Elt F) → (⟨S81920, .i32⟩ : BufTy).Contents (Elt F)),
    unary main_v26 main_v27 (broadcastInDim S81920x1 ![0] bcast_S81920_S81920x1_0 : (⟨S81920, .i32⟩ : BufTy).Contents (Elt F) → (⟨S81920x1, .i32⟩ : BufTy).Contents (Elt F)),
    binary main_arg0 main_v27 main_v28 ((fun x i => Host.gather gather_S100000x256_S81920x1_S81920x256_1_0_n_n_0_1_1256 x i) : (⟨S100000x256, .f32⟩ : BufTy).Contents (Elt F) → (⟨S81920x1, .i32⟩ : BufTy).Contents (Elt F) → (⟨S81920x256, .f32⟩ : BufTy).Contents (Elt F)),
    binary main_v28 main_arg2 main_v29 ((fun a b => concatenate S81920x384 1 [⟨S81920x256, a⟩, ⟨S81920x128, b⟩] concatenates_S81920x256_S81920x128_S81920x384_d1) : (⟨S81920x256, .f32⟩ : BufTy).Contents (Elt F) → (⟨S81920x128, .f32⟩ : BufTy).Contents (Elt F) → (⟨S81920x384, .f32⟩ : BufTy).Contents (Elt F)),
    nullary main_cst_5 (constant S_ .f32 0x00000000#32),
    unary main_cst_5 main_v30 (broadcastInDim S8192x384 ![] bcast_S_S8192x384 : (⟨S_, .f32⟩ : BufTy).Contents (Elt F) → (⟨S8192x384, .f32⟩ : BufTy).Contents (Elt F)),
    unary main_arg9 main_v31 (broadcastInDim S81920x1 ![0] bcast_S81920_S81920x1_0 : (⟨S81920, .i32⟩ : BufTy).Contents (Elt F) → (⟨S81920x1, .i32⟩ : BufTy).Contents (Elt F)),
    ternary main_v30 main_v31 main_v29 main_v32 ((fun x i u => Host.scatterAdd scatter_S8192x384_S81920x1_S81920x384_1_0_0_1 x i u) : (⟨S8192x384, .f32⟩ : BufTy).Contents (Elt F) → (⟨S81920x1, .i32⟩ : BufTy).Contents (Elt F) → (⟨S81920x384, .f32⟩ : BufTy).Contents (Elt F) → (⟨S8192x384, .f32⟩ : BufTy).Contents (Elt F)),
    nullary main_c_6 (constantI S_ 32 0#32),
    unary main_c_6 main_v33 (broadcastInDim S8192 ![] bcast_S_S8192 : (⟨S_, .i32⟩ : BufTy).Contents (Elt F) → (⟨S8192, .i32⟩ : BufTy).Contents (Elt F)),
    binary main_arg10 main_v33 main_v34 (cmpi .slt : (⟨S8192, .i32⟩ : BufTy).Contents (Elt F) → (⟨S8192, .i32⟩ : BufTy).Contents (Elt F) → (⟨S8192, .i1⟩ : BufTy).Contents (Elt F)),
    nullary main_c_7 (constantI S_ 32 32768#32),
    unary main_c_7 main_v35 (broadcastInDim S8192 ![] bcast_S_S8192 : (⟨S_, .i32⟩ : BufTy).Contents (Elt F) → (⟨S8192, .i32⟩ : BufTy).Contents (Elt F)),
    binary main_arg10 main_v35 main_v36 (addi : (⟨S8192, .i32⟩ : BufTy).Contents (Elt F) → (⟨S8192, .i32⟩ : BufTy).Contents (Elt F) → (⟨S8192, .i32⟩ : BufTy).Contents (Elt F)),
    ternary main_v34 main_v36 main_arg10 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v37 main_v38 (broadcastInDim S8192x1 ![0] bcast_S8192_S8192x1_0 : (⟨S8192, .i32⟩ : BufTy).Contents (Elt F) → (⟨S8192x1, .i32⟩ : BufTy).Contents (Elt F)),
    binary main_v21 main_v38 main_v39 ((fun x i => Host.gather gather_S32768x256_S8192x1_S8192x256_1_0_n_n_0_1_1256 x i) : (⟨S32768x256, .f32⟩ : BufTy).Contents (Elt F) → (⟨S8192x1, .i32⟩ : BufTy).Contents (Elt F) → (⟨S8192x256, .f32⟩ : BufTy).Contents (Elt F)),
    binary main_v39 main_v32 main_v40 ((fun a b => concatenate S8192x640 1 [⟨S8192x256, a⟩, ⟨S8192x384, b⟩] concatenates_S8192x256_S8192x384_S8192x640_d1) : (⟨S8192x256, .f32⟩ : BufTy).Contents (Elt F) → (⟨S8192x384, .f32⟩ : BufTy).Contents (Elt F) → (⟨S8192x640, .f32⟩ : BufTy).Contents (Elt F)),
    unary main_arg4 main_v41 ((transpose S640x256 [1, 0] · transposes_S256x640_S640x256_1_0) : (⟨S256x640, .f32⟩ : BufTy).Contents (Elt F) → (⟨S640x256, .f32⟩ : BufTy).Contents (Elt F)),
    binary main_v40 main_v41 main_v42 ((fun l r => Host.dotGeneral dot_S8192x640_S640x256_S8192x256_1_0_0_1_n_n none l r) : (⟨S8192x640, .f32⟩ : BufTy).Contents (Elt F) → (⟨S640x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v42) (TRef.of (T := ⟨S8192x256, .f32⟩) main_call1_v0) (TRef.of (T := ⟨S8192x256, .f32⟩) main_v43) maximumf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub ..⟩

/-! ## The pieces -/

/-- The edge-source indices of layer 1 (327680 words into 100000 rows), negative words wrapped, as a column. -/
def wrap5 (x : IVec S327680 32) : IVec S327680x1 32 :=
  broadcastInDim S327680x1 ![0] bcast_S327680_S327680x1_0 (select (cmpi .slt x (broadcastInDim S327680 ![] bcast_S_S327680 (constantI S_ 32 0#32))) (addi x (broadcastInDim S327680 ![] bcast_S_S327680 (constantI S_ 32 100000#32))) x)
/-- The own-row indices of layer 1 (32768 words into 100000 rows), wrapped, as a column. -/
def wrap7 (x : IVec S32768 32) : IVec S32768x1 32 :=
  broadcastInDim S32768x1 ![0] bcast_S32768_S32768x1_0 (select (cmpi .slt x (broadcastInDim S32768 ![] bcast_S_S32768 (constantI S_ 32 0#32))) (addi x (broadcastInDim S32768 ![] bcast_S_S32768 (constantI S_ 32 100000#32))) x)
/-- The edge-source indices of layer 2 (81920 words into 100000 rows), wrapped, as a column. -/
def wrap8 (x : IVec S81920 32) : IVec S81920x1 32 :=
  broadcastInDim S81920x1 ![0] bcast_S81920_S81920x1_0 (select (cmpi .slt x (broadcastInDim S81920 ![] bcast_S_S81920 (constantI S_ 32 0#32))) (addi x (broadcastInDim S81920 ![] bcast_S_S81920 (constantI S_ 32 100000#32))) x)
/-- The own-row indices of layer 2 (8192 words into the 32768 rows of layer 1's result), wrapped, as a column. -/
def wrap10 (x : IVec S8192 32) : IVec S8192x1 32 :=
  broadcastInDim S8192x1 ![0] bcast_S8192_S8192x1_0 (select (cmpi .slt x (broadcastInDim S8192 ![] bcast_S_S8192 (constantI S_ 32 0#32))) (addi x (broadcastInDim S8192 ![] bcast_S_S8192 (constantI S_ 32 32768#32))) x)
/-- Layer 1's segment ids as a column. -/
def col6 (x : IVec S327680 32) : IVec S327680x1 32 := broadcastInDim S327680x1 ![0] bcast_S327680_S327680x1_0 x
/-- Layer 2's segment ids as a column. -/
def col9 (x : IVec S81920 32) : IVec S81920x1 32 := broadcastInDim S81920x1 ![0] bcast_S81920_S81920x1_0 x

/-- Layer 1: own rows beside the segment sum of (gathered rows beside edge features), times the transposed weights, maximum with 0. -/
def layer1 (self : FVec F S32768x256 .f32) (seg : IVec S327680x1 32) (G : FVec F S327680x256 .f32) (edge : FVec F S327680x128 .f32)
    (W : FVec F S256x640 .f32) : FVec F S32768x256 .f32 :=
  maximumf (Host.dotGeneral dot_S32768x640_S640x256_S32768x256_1_0_0_1_n_n none
      (concatenate S32768x640 1 [⟨S32768x256, self⟩, ⟨S32768x384, Host.scatterAdd scatter_S32768x384_S327680x1_S327680x384_1_0_0_1 (broadcastInDim S32768x384 ![] bcast_S_S32768x384 (constant S_ .f32 0x00000000#32)) seg (concatenate S327680x384 1 [⟨S327680x256, G⟩, ⟨S327680x128, edge⟩] concatenates_S327680x256_S327680x128_S327680x384_d1)⟩] concatenates_S32768x256_S32768x384_S32768x640_d1)
      (transpose S640x256 [1, 0] W transposes_S256x640_S640x256_1_0))
    (broadcastInDim S32768x256 ![] bcast_S_S32768x256 (constant S_ .f32 0x00000000#32))
/-- Layer 2: the same over 8192 rows and 81920 edges. -/
def layer2 (self : FVec F S8192x256 .f32) (seg : IVec S81920x1 32) (G : FVec F S81920x256 .f32) (edge : FVec F S81920x128 .f32)
    (W : FVec F S256x640 .f32) : FVec F S8192x256 .f32 :=
  maximumf (Host.dotGeneral dot_S8192x640_S640x256_S8192x256_1_0_0_1_n_n none
      (concatenate S8192x640 1 [⟨S8192x256, self⟩, ⟨S8192x384, Host.scatterAdd scatter_S8192x384_S81920x1_S81920x384_1_0_0_1 (broadcastInDim S8192x384 ![] bcast_S_S8192x384 (constant S_ .f32 0x00000000#32)) seg (concatenate S81920x384 1 [⟨S81920x256, G⟩, ⟨S81920x128, edge⟩] concatenates_S81920x256_S81920x128_S81920x384_d1)⟩] concatenates_S8192x256_S8192x384_S8192x640_d1)
      (transpose S640x256 [1, 0] W transposes_S256x640_S640x256_1_0))
    (broadcastInDim S8192x256 ![] bcast_S_S8192x256 (constant S_ .f32 0x00000000#32))

/-- The whole reference: layer 2 over rows gathered from layer 1's result. -/
def net (x0 : FVec F S100000x256 .f32) (x1 : FVec F S327680x128 .f32) (x2 : FVec F S81920x128 .f32) (x3 x4 : FVec F S256x640 .f32)
    (x5 x6 : IVec S327680 32) (x7 : IVec S32768 32) (x8 x9 : IVec S81920 32) (x10 : IVec S8192 32) : FVec F S8192x256 .f32 :=
  layer2
    (Host.gather gather_S32768x256_S8192x1_S8192x256_1_0_n_n_0_1_1256
      (layer1 (Host.gather gather_S100000x256_S32768x1_S32768x256_1_0_n_n_0_1_1256 x0 (wrap7 x7)) (col6 x6)
        (Host.gather gather_S100000x256_S327680x1_S327680x256_1_0_n_n_0_1_1256 x0 (wrap5 x5)) x1 x3)
      (wrap10 x10))
    (col9 x9) (Host.gather gather_S100000x256_S81920x1_S81920x256_1_0_n_n_0_1_1256 x0 (wrap8 x8)) x2 x4

/-! ## The stretches -/

/-- Stretch 1: operations 0–8. -/
abbrev S1 : List (HloOp τ sig (Elt F)) :=
  [ nullary main_c (constantI S_ 32 0#32),
    unary main_c main_v0 (broadcastInDim S327680 ![] bcast_S_S327680 : (⟨S_, .i32⟩ : BufTy).Contents (Elt F) → (⟨S327680, .i32⟩ : BufTy).Contents (Elt F)),
    binary main_arg5 main_v0 main_v1 (cmpi .slt : (⟨S327680, .i32⟩ : BufTy).Contents (Elt F) → (⟨S327680, .i32⟩ : BufTy).Contents (Elt F) → (⟨S327680, .i1⟩ : BufTy).Contents (Elt F)),
    nullary main_c_0 (constantI S_ 32 100000#32),
    unary main_c_0 main_v2 (broadcastInDim S327680 ![] bcast_S_S327680 : (⟨S_, .i32⟩ : BufTy).Contents (Elt F) → (⟨S327680, .i32⟩ : BufTy).Contents (Elt F)),
    binary main_arg5 main_v2 main_v3 (addi : (⟨S327680, .i32⟩ : BufTy).Contents (Elt F) → (⟨S327680, .i32⟩ : BufTy).Contents (Elt F) → (⟨S327680, .i32⟩ : BufTy).Contents (Elt F)),
    ternary main_v1 main_v3 main_arg5 main_v4 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v4 main_v5 (broadcastInDim S327680x1 ![0] bcast_S327680_S327680x1_0 : (⟨S327680, .i32⟩ : BufTy).Contents (Elt F) → (⟨S327680x1, .i32⟩ : BufTy).Contents (Elt F)),
    binary main_arg0 main_v5 main_v6 ((fun x i => Host.gather gather_S100000x256_S327680x1_S327680x256_1_0_n_n_0_1_1256 x i) : (⟨S100000x256, .f32⟩ : BufTy).Contents (Elt F) → (⟨S327680x1, .i32⟩ : BufTy).Contents (Elt F) → (⟨S327680x256, .f32⟩ : BufTy).Contents (Elt F)) ]

/-- Stretch 2: operations 9–13. -/
abbrev S2 : List (HloOp τ sig (Elt F)) :=
  [ binary main_v6 main_arg1 main_v7 ((fun a b => concatenate S327680x384 1 [⟨S327680x256, a⟩, ⟨S327680x128, b⟩] concatenates_S327680x256_S327680x128_S327680x384_d1) : (⟨S327680x256, .f32⟩ : BufTy).Contents (Elt F) → (⟨S327680x128, .f32⟩ : BufTy).Contents (Elt F) → (⟨S327680x384, .f32⟩ : BufTy).Contents (Elt F)),
    nullary main_cst (constant S_ .f32 0x00000000#32),
    unary main_cst main_v8 (broadcastInDim S32768x384 ![] bcast_S_S32768x384 : (⟨S_, .f32⟩ : BufTy).Contents (Elt F) → (⟨S32768x384, .f32⟩ : BufTy).Contents (Elt F)),
    unary main_arg6 main_v9 (broadcastInDim S327680x1 ![0] bcast_S327680_S327680x1_0 : (⟨S327680, .i32⟩ : BufTy).Contents (Elt F) → (⟨S327680x1, .i32⟩ : BufTy).Contents (Elt F)),
    ternary main_v8 main_v9 main_v7 main_v10 ((fun x i u => Host.scatterAdd scatter_S32768x384_S327680x1_S327680x384_1_0_0_1 x i u) : (⟨S32768x384, .f32⟩ : BufTy).Contents (Elt F) → (⟨S327680x1, .i32⟩ : BufTy).Contents (Elt F) → (⟨S327680x384, .f32⟩ : BufTy).Contents (Elt F) → (⟨S32768x384, .f32⟩ : BufTy).Contents (Elt F)) ]

/-- Stretch 3: operations 14–22. -/
abbrev S3 : List (HloOp τ sig (Elt F)) :=
  [ nullary main_c_1 (constantI S_ 32 0#32),
    unary main_c_1 main_v11 (broadcastInDim S32768 ![] bcast_S_S32768 : (⟨S_, .i32⟩ : BufTy).Contents (Elt F) → (⟨S32768, .i32⟩ : BufTy).Contents (Elt F)),
    binary main_arg7 main_v11 main_v12 (cmpi .slt : (⟨S32768, .i32⟩ : BufTy).Contents (Elt F) → (⟨S32768, .i32⟩ : BufTy).Contents (Elt F) → (⟨S32768, .i1⟩ : BufTy).Contents (Elt F)),
    nullary main_c_2 (constantI S_ 32 100000#32),
    unary main_c_2 main_v13 (broadcastInDim S32768 ![] bcast_S_S32768 : (⟨S_, .i32⟩ : BufTy).Contents (Elt F) → (⟨S32768, .i32⟩ : BufTy).Contents (Elt F)),
    binary main_arg7 main_v13 main_v14 (addi : (⟨S32768, .i32⟩ : BufTy).Contents (Elt F) → (⟨S32768, .i32⟩ : BufTy).Contents (Elt F) → (⟨S32768, .i32⟩ : BufTy).Contents (Elt F)),
    ternary main_v12 main_v14 main_arg7 main_v15 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v15 main_v16 (broadcastInDim S32768x1 ![0] bcast_S32768_S32768x1_0 : (⟨S32768, .i32⟩ : BufTy).Contents (Elt F) → (⟨S32768x1, .i32⟩ : BufTy).Contents (Elt F)),
    binary main_arg0 main_v16 main_v17 ((fun x i => Host.gather gather_S100000x256_S32768x1_S32768x256_1_0_n_n_0_1_1256 x i) : (⟨S100000x256, .f32⟩ : BufTy).Contents (Elt F) → (⟨S32768x1, .i32⟩ : BufTy).Contents (Elt F) → (⟨S32768x256, .f32⟩ : BufTy).Contents (Elt F)) ]

/-- Stretch 4: operations 23–28. -/
abbrev S4 : List (HloOp τ sig (Elt F)) :=
  [ binary main_v17 main_v10 main_v18 ((fun a b => concatenate S32768x640 1 [⟨S32768x256, a⟩, ⟨S32768x384, b⟩] concatenates_S32768x256_S32768x384_S32768x640_d1) : (⟨S32768x256, .f32⟩ : BufTy).Contents (Elt F) → (⟨S32768x384, .f32⟩ : BufTy).Contents (Elt F) → (⟨S32768x640, .f32⟩ : BufTy).Contents (Elt F)),
    unary main_arg3 main_v19 ((transpose S640x256 [1, 0] · transposes_S256x640_S640x256_1_0) : (⟨S256x640, .f32⟩ : BufTy).Contents (Elt F) → (⟨S640x256, .f32⟩ : BufTy).Contents (Elt F)),
    binary main_v18 main_v19 main_v20 ((fun l r => Host.dotGeneral dot_S32768x640_S640x256_S32768x256_1_0_0_1_n_n none l r) : (⟨S32768x640, .f32⟩ : BufTy).Contents (Elt F) → (⟨S640x256, .f32⟩ : BufTy).Contents (Elt F) → (⟨S32768x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x256, .f32⟩) main_call0_v0) (broadcastInDim S32768x256 ![] bcast_S_S32768x256),
    TRef.binary (TRef.of (T := ⟨S32768x256, .f32⟩) main_v20) (TRef.of (T := ⟨S32768x256, .f32⟩) main_call0_v0) (TRef.of (T := ⟨S32768x256, .f32⟩) main_v21) maximumf ]

/-- Stretch 5: operations 29–37. -/
abbrev S5 : List (HloOp τ sig (Elt F)) :=
  [ nullary main_c_3 (constantI S_ 32 0#32),
    unary main_c_3 main_v22 (broadcastInDim S81920 ![] bcast_S_S81920 : (⟨S_, .i32⟩ : BufTy).Contents (Elt F) → (⟨S81920, .i32⟩ : BufTy).Contents (Elt F)),
    binary main_arg8 main_v22 main_v23 (cmpi .slt : (⟨S81920, .i32⟩ : BufTy).Contents (Elt F) → (⟨S81920, .i32⟩ : BufTy).Contents (Elt F) → (⟨S81920, .i1⟩ : BufTy).Contents (Elt F)),
    nullary main_c_4 (constantI S_ 32 100000#32),
    unary main_c_4 main_v24 (broadcastInDim S81920 ![] bcast_S_S81920 : (⟨S_, .i32⟩ : BufTy).Contents (Elt F) → (⟨S81920, .i32⟩ : BufTy).Contents (Elt F)),
    binary main_arg8 main_v24 main_v25 (addi : (⟨S81920, .i32⟩ : BufTy).Contents (Elt F) → (⟨S81920, .i32⟩ : BufTy).Contents (Elt F) → (⟨S81920, .i32⟩ : BufTy).Contents (Elt F)),
    ternary main_v23 main_v25 main_arg8 main_v26 (select : (⟨S81920, .i1⟩ : BufTy).Contents (Elt F) → (⟨S81920, .i32⟩ : BufTy).Contents (Elt F) → (⟨S81920, .i32⟩ : BufTy).Contents (Elt F) → (⟨S81920, .i32⟩ : BufTy).Contents (Elt F)),
    unary main_v26 main_v27 (broadcastInDim S81920x1 ![0] bcast_S81920_S81920x1_0 : (⟨S81920, .i32⟩ : BufTy).Contents (Elt F) → (⟨S81920x1, .i32⟩ : BufTy).Contents (Elt F)),
    binary main_arg0 main_v27 main_v28 ((fun x i => Host.gather gather_S100000x256_S81920x1_S81920x256_1_0_n_n_0_1_1256 x i) : (⟨S100000x256, .f32⟩ : BufTy).Contents (Elt F) → (⟨S81920x1, .i32⟩ : BufTy).Contents (Elt F) → (⟨S81920x256, .f32⟩ : BufTy).Contents (Elt F)) ]

/-- Stretch 6: operations 38–42. -/
abbrev S6 : List (HloOp τ sig (Elt F)) :=
  [ binary main_v28 main_arg2 main_v29 ((fun a b => concatenate S81920x384 1 [⟨S81920x256, a⟩, ⟨S81920x128, b⟩] concatenates_S81920x256_S81920x128_S81920x384_d1) : (⟨S81920x256, .f32⟩ : BufTy).Contents (Elt F) → (⟨S81920x128, .f32⟩ : BufTy).Contents (Elt F) → (⟨S81920x384, .f32⟩ : BufTy).Contents (Elt F)),
    nullary main_cst_5 (constant S_ .f32 0x00000000#32),
    unary main_cst_5 main_v30 (broadcastInDim S8192x384 ![] bcast_S_S8192x384 : (⟨S_, .f32⟩ : BufTy).Contents (Elt F) → (⟨S8192x384, .f32⟩ : BufTy).Contents (Elt F)),
    unary main_arg9 main_v31 (broadcastInDim S81920x1 ![0] bcast_S81920_S81920x1_0 : (⟨S81920, .i32⟩ : BufTy).Contents (Elt F) → (⟨S81920x1, .i32⟩ : BufTy).Contents (Elt F)),
    ternary main_v30 main_v31 main_v29 main_v32 ((fun x i u => Host.scatterAdd scatter_S8192x384_S81920x1_S81920x384_1_0_0_1 x i u) : (⟨S8192x384, .f32⟩ : BufTy).Contents (Elt F) → (⟨S81920x1, .i32⟩ : BufTy).Contents (Elt F) → (⟨S81920x384, .f32⟩ : BufTy).Contents (Elt F) → (⟨S8192x384, .f32⟩ : BufTy).Contents (Elt F)) ]

/-- Stretch 7: operations 43–51. -/
abbrev S7 : List (HloOp τ sig (Elt F)) :=
  [ nullary main_c_6 (constantI S_ 32 0#32),
    unary main_c_6 main_v33 (broadcastInDim S8192 ![] bcast_S_S8192 : (⟨S_, .i32⟩ : BufTy).Contents (Elt F) → (⟨S8192, .i32⟩ : BufTy).Contents (Elt F)),
    binary main_arg10 main_v33 main_v34 (cmpi .slt : (⟨S8192, .i32⟩ : BufTy).Contents (Elt F) → (⟨S8192, .i32⟩ : BufTy).Contents (Elt F) → (⟨S8192, .i1⟩ : BufTy).Contents (Elt F)),
    nullary main_c_7 (constantI S_ 32 32768#32),
    unary main_c_7 main_v35 (broadcastInDim S8192 ![] bcast_S_S8192 : (⟨S_, .i32⟩ : BufTy).Contents (Elt F) → (⟨S8192, .i32⟩ : BufTy).Contents (Elt F)),
    binary main_arg10 main_v35 main_v36 (addi : (⟨S8192, .i32⟩ : BufTy).Contents (Elt F) → (⟨S8192, .i32⟩ : BufTy).Contents (Elt F) → (⟨S8192, .i32⟩ : BufTy).Contents (Elt F)),
    ternary main_v34 main_v36 main_arg10 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v37 main_v38 (broadcastInDim S8192x1 ![0] bcast_S8192_S8192x1_0 : (⟨S8192, .i32⟩ : BufTy).Contents (Elt F) → (⟨S8192x1, .i32⟩ : BufTy).Contents (Elt F)),
    binary main_v21 main_v38 main_v39 ((fun x i => Host.gather gather_S32768x256_S8192x1_S8192x256_1_0_n_n_0_1_1256 x i) : (⟨S32768x256, .f32⟩ : BufTy).Contents (Elt F) → (⟨S8192x1, .i32⟩ : BufTy).Contents (Elt F) → (⟨S8192x256, .f32⟩ : BufTy).Contents (Elt F)) ]

/-- Stretch 8: operations 52–57. -/
abbrev S8 : List (HloOp τ sig (Elt F)) :=
  [ binary main_v39 main_v32 main_v40 ((fun a b => concatenate S8192x640 1 [⟨S8192x256, a⟩, ⟨S8192x384, b⟩] concatenates_S8192x256_S8192x384_S8192x640_d1) : (⟨S8192x256, .f32⟩ : BufTy).Contents (Elt F) → (⟨S8192x384, .f32⟩ : BufTy).Contents (Elt F) → (⟨S8192x640, .f32⟩ : BufTy).Contents (Elt F)),
    unary main_arg4 main_v41 ((transpose S640x256 [1, 0] · transposes_S256x640_S640x256_1_0) : (⟨S256x640, .f32⟩ : BufTy).Contents (Elt F) → (⟨S640x256, .f32⟩ : BufTy).Contents (Elt F)),
    binary main_v40 main_v41 main_v42 ((fun l r => Host.dotGeneral dot_S8192x640_S640x256_S8192x256_1_0_0_1_n_n none l r) : (⟨S8192x640, .f32⟩ : BufTy).Contents (Elt F) → (⟨S640x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v42) (TRef.of (T := ⟨S8192x256, .f32⟩) main_call1_v0) (TRef.of (T := ⟨S8192x256, .f32⟩) main_v43) maximumf ]

/-- The buffers stretch 1 writes. -/
abbrev W1 : List (Ref sig .tc) := [main_c, main_v0, main_v1, main_c_0, main_v2, main_v3, main_v4, main_v5, main_v6]
/-- The buffers stretch 2 writes. -/
abbrev W2 : List (Ref sig .tc) := [main_v7, main_cst, main_v8, main_v9, main_v10]
/-- The buffers stretch 3 writes. -/
abbrev W3 : List (Ref sig .tc) := [main_c_1, main_v11, main_v12, main_c_2, main_v13, main_v14, main_v15, main_v16, main_v17]
/-- The buffers stretch 4 writes. -/
abbrev W4 : List (Ref sig .tc) := [main_v18, main_v19, main_v20, main_call0_cst, main_call0_v0, main_v21]
/-- The buffers stretch 5 writes. -/
abbrev W5 : List (Ref sig .tc) := [main_c_3, main_v22, main_v23, main_c_4, main_v24, main_v25, main_v26, main_v27, main_v28]
/-- The buffers stretch 6 writes. -/
abbrev W6 : List (Ref sig .tc) := [main_v29, main_cst_5, main_v30, main_v31, main_v32]
/-- The buffers stretch 7 writes. -/
abbrev W7 : List (Ref sig .tc) := [main_c_6, main_v33, main_v34, main_c_7, main_v35, main_v36, main_v37, main_v38, main_v39]
/-- The buffers stretch 8 writes. -/
abbrev W8 : List (Ref sig .tc) := [main_v40, main_v41, main_v42, main_call1_cst, main_call1_v0, main_v43]

/-- A line run after a line is their concatenation run as one. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A result buffer among a list is written inside the list's buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops_eq : (ops : List (HloOp τ sig (Elt F))) = S1 ++ (S2 ++ (S3 ++ (S4 ++ (S5 ++ (S6 ++ (S7 ++ S8)))))) := rfl

/-- A buffer stretch 1 does not write keeps its contents through it. -/
theorem keep1 (U : Valuation τ sig (Elt F)) (r : Ref sig .tc) (hr : r ∉ W1) :
    after S1 U (Proc.devRef .tc r) = U (Proc.devRef .tc r) :=
  after_of_writes_sub S1 U
    ⟨sub_of_mem (by decide), sub_of_mem (by decide), sub_of_mem (by decide), sub_of_mem (by decide), sub_of_mem (by decide), sub_of_mem (by decide), sub_of_mem (by decide), sub_of_mem (by decide), sub_of_mem (by decide)⟩ hr

/-- A buffer stretch 2 does not write keeps its contents through it. -/
theorem keep2 (U : Valuation τ sig (Elt F)) (r : Ref sig .tc) (hr : r ∉ W2) :
    after S2 U (Proc.devRef .tc r) = U (Proc.devRef .tc r) :=
  after_of_writes_sub S2 U
    ⟨sub_of_mem (by decide), sub_of_mem (by decide), sub_of_mem (by decide), sub_of_mem (by decide), sub_of_mem (by decide)⟩ hr

/-- A buffer stretch 3 does not write keeps its contents through it. -/
theorem keep3 (U : Valuation τ sig (Elt F)) (r : Ref sig .tc) (hr : r ∉ W3) :
    after S3 U (Proc.devRef .tc r) = U (Proc.devRef .tc r) :=
  after_of_writes_sub S3 U
    ⟨sub_of_mem (by decide), sub_of_mem (by decide), sub_of_mem (by decide), sub_of_mem (by decide), sub_of_mem (by decide), sub_of_mem (by decide), sub_of_mem (by decide), sub_of_mem (by decide), sub_of_mem (by decide)⟩ hr

/-- A buffer stretch 4 does not write keeps its contents through it. -/
theorem keep4 (U : Valuation τ sig (Elt F)) (r : Ref sig .tc) (hr : r ∉ W4) :
    after S4 U (Proc.devRef .tc r) = U (Proc.devRef .tc r) :=
  after_of_writes_sub S4 U
    ⟨sub_of_mem (by decide), sub_of_mem (by decide), sub_of_mem (by decide), sub_of_mem (by decide), sub_of_mem (by decide), sub_of_mem (by decide)⟩ hr

/-- A buffer stretch 5 does not write keeps its contents through it. -/
theorem keep5 (U : Valuation τ sig (Elt F)) (r : Ref sig .tc) (hr : r ∉ W5) :
    after S5 U (Proc.devRef .tc r) = U (Proc.devRef .tc r) :=
  after_of_writes_sub S5 U
    ⟨sub_of_mem (by decide), sub_of_mem (by decide), sub_of_mem (by decide), sub_of_mem (by decide), sub_of_mem (by decide), sub_of_mem (by decide), sub_of_mem (by decide), sub_of_mem (by decide), sub_of_mem (by decide)⟩ hr

/-- A buffer stretch 6 does not write keeps its contents through it. -/
theorem keep6 (U : Valuation τ sig (Elt F)) (r : Ref sig .tc) (hr : r ∉ W6) :
    after S6 U (Proc.devRef .tc r) = U (Proc.devRef .tc r) :=
  after_of_writes_sub S6 U
    ⟨sub_of_mem (by decide), sub_of_mem (by decide), sub_of_mem (by decide), sub_of_mem (by decide), sub_of_mem (by decide)⟩ hr

/-- A buffer stretch 7 does not write keeps its contents through it. -/
theorem keep7 (U : Valuation τ sig (Elt F)) (r : Ref sig .tc) (hr : r ∉ W7) :
    after S7 U (Proc.devRef .tc r) = U (Proc.devRef .tc r) :=
  after_of_writes_sub S7 U
    ⟨sub_of_mem (by decide), sub_of_mem (by decide), sub_of_mem (by decide), sub_of_mem (by decide), sub_of_mem (by decide), sub_of_mem (by decide), sub_of_mem (by decide), sub_of_mem (by decide), sub_of_mem (by decide)⟩ hr

/-- A buffer stretch 8 does not write keeps its contents through it. -/
theorem keep8 (U : Valuation τ sig (Elt F)) (r : Ref sig .tc) (hr : r ∉ W8) :
    after S8 U (Proc.devRef .tc r) = U (Proc.devRef .tc r) :=
  after_of_writes_sub S8 U
    ⟨sub_of_mem (by decide), sub_of_mem (by decide), sub_of_mem (by decide), sub_of_mem (by decide), sub_of_mem (by decide), sub_of_mem (by decide)⟩ hr

/-- Stretch 1 leaves at `main_v6` the rows of argument 0 gathered at the wrapped argument 5. -/
theorem res1 (U : Valuation τ sig (Elt F)) :
    after S1 U (Proc.devRef .tc main_v6)
      = Host.gather gather_S100000x256_S327680x1_S327680x256_1_0_n_n_0_1_1256 (U (Proc.devRef .tc main_arg0))
          (wrap5 (U (Proc.devRef .tc main_arg5))) := by
  unfold wrap5
  simp only [S1]
  after_results_simp <;> rfl

/-- Stretch 2 leaves at `main_v10` the segment sum, by argument 6, of `main_v6` beside argument 1. -/
theorem res2 (U : Valuation τ sig (Elt F)) :
    after S2 U (Proc.devRef .tc main_v10)
      = Host.scatterAdd scatter_S32768x384_S327680x1_S327680x384_1_0_0_1
          (broadcastInDim S32768x384 ![] bcast_S_S32768x384 (constant S_ .f32 0x00000000#32)) (col6 (U (Proc.devRef .tc main_arg6)))
          (concatenate S327680x384 1 [⟨S327680x256, U (Proc.devRef .tc main_v6)⟩, ⟨S327680x128, U (Proc.devRef .tc main_arg1)⟩]
            concatenates_S327680x256_S327680x128_S327680x384_d1) := by
  unfold col6
  simp only [S2]
  after_results_simp <;> rfl

/-- Stretch 3 leaves at `main_v17` the rows of argument 0 gathered at the wrapped argument 7. -/
theorem res3 (U : Valuation τ sig (Elt F)) :
    after S3 U (Proc.devRef .tc main_v17)
      = Host.gather gather_S100000x256_S32768x1_S32768x256_1_0_n_n_0_1_1256 (U (Proc.devRef .tc main_arg0))
          (wrap7 (U (Proc.devRef .tc main_arg7))) := by
  unfold wrap7
  simp only [S3]
  after_results_simp <;> rfl

/-- Stretch 4 leaves at `main_v21` the dense layer of `main_v17` beside `main_v10` under argument 3. -/
theorem res4 (U : Valuation τ sig (Elt F)) :
    after S4 U (Proc.devRef .tc main_v21)
      = maximumf (Host.dotGeneral dot_S32768x640_S640x256_S32768x256_1_0_0_1_n_n none
          (concatenate S32768x640 1 [⟨S32768x256, U (Proc.devRef .tc main_v17)⟩, ⟨S32768x384, U (Proc.devRef .tc main_v10)⟩]
            concatenates_S32768x256_S32768x384_S32768x640_d1)
          (transpose S640x256 [1, 0] (U (Proc.devRef .tc main_arg3)) transposes_S256x640_S640x256_1_0))
        (broadcastInDim S32768x256 ![] bcast_S_S32768x256 (constant S_ .f32 0x00000000#32)) := by
  simp only [S4]
  after_results_simp <;> rfl

/-- Stretch 5 leaves at `main_v28` the rows of argument 0 gathered at the wrapped argument 8. -/
theorem res5 (U : Valuation τ sig (Elt F)) :
    after S5 U (Proc.devRef .tc main_v28)
      = Host.gather gather_S100000x256_S81920x1_S81920x256_1_0_n_n_0_1_1256 (U (Proc.devRef .tc main_arg0))
          (wrap8 (U (Proc.devRef .tc main_arg8))) := by
  unfold wrap8
  simp only [S5]
  after_results_simp <;> rfl

/-- Stretch 6 leaves at `main_v32` the segment sum, by argument 9, of `main_v28` beside argument 2. -/
theorem res6 (U : Valuation τ sig (Elt F)) :
    after S6 U (Proc.devRef .tc main_v32)
      = Host.scatterAdd scatter_S8192x384_S81920x1_S81920x384_1_0_0_1
          (broadcastInDim S8192x384 ![] bcast_S_S8192x384 (constant S_ .f32 0x00000000#32)) (col9 (U (Proc.devRef .tc main_arg9)))
          (concatenate S81920x384 1 [⟨S81920x256, U (Proc.devRef .tc main_v28)⟩, ⟨S81920x128, U (Proc.devRef .tc main_arg2)⟩]
            concatenates_S81920x256_S81920x128_S81920x384_d1) := by
  unfold col9
  simp only [S6]
  after_results_simp <;> rfl

/-- Stretch 7 leaves at `main_v39` the rows of `main_v21` gathered at the wrapped argument 10. -/
theorem res7 (U : Valuation τ sig (Elt F)) :
    after S7 U (Proc.devRef .tc main_v39)
      = Host.gather gather_S32768x256_S8192x1_S8192x256_1_0_n_n_0_1_1256 (U (Proc.devRef .tc main_v21))
          (wrap10 (U (Proc.devRef .tc main_arg10))) := by
  unfold wrap10
  simp only [S7]
  after_results_simp <;> rfl

/-- Stretch 8 leaves at `main_v43` the dense layer of `main_v39` beside `main_v32` under argument 4. -/
theorem res8 (U : Valuation τ sig (Elt F)) :
    after S8 U (Proc.devRef .tc main_v43)
      = maximumf (Host.dotGeneral dot_S8192x640_S640x256_S8192x256_1_0_0_1_n_n none
          (concatenate S8192x640 1 [⟨S8192x256, U (Proc.devRef .tc main_v39)⟩, ⟨S8192x384, U (Proc.devRef .tc main_v32)⟩]
            concatenates_S8192x256_S8192x384_S8192x640_d1)
          (transpose S640x256 [1, 0] (U (Proc.devRef .tc main_arg4)) transposes_S256x640_S640x256_1_0))
        (broadcastInDim S8192x256 ![] bcast_S_S8192x256 (constant S_ .f32 0x00000000#32)) := by
  simp only [S8]
  after_results_simp <;> rfl

/-! ## The stretches chained -/

/-- After the first four stretches `main_v21` holds layer 1 of the arguments. -/
theorem v21_eq (U : Valuation τ sig (Elt F)) :
    after S4 (after S3 (after S2 (after S1 U))) (Proc.devRef .tc main_v21)
      = layer1 (Host.gather gather_S100000x256_S32768x1_S32768x256_1_0_n_n_0_1_1256 (U (Proc.devRef .tc main_arg0)) (wrap7 (U (Proc.devRef .tc main_arg7))))
          (col6 (U (Proc.devRef .tc main_arg6)))
          (Host.gather gather_S100000x256_S327680x1_S327680x256_1_0_n_n_0_1_1256 (U (Proc.devRef .tc main_arg0)) (wrap5 (U (Proc.devRef .tc main_arg5))))
          (U (Proc.devRef .tc main_arg1)) (U (Proc.devRef .tc main_arg3)) := by
  rw [res4]
  rw [res3, keep3 _ main_v10 (by decide), keep3 _ main_arg3 (by decide)]
  rw [res2, keep2 _ main_arg0 (by decide), keep2 _ main_arg7 (by decide), keep2 _ main_arg3 (by decide)]
  rw [res1, keep1 _ main_arg6 (by decide), keep1 _ main_arg1 (by decide), keep1 _ main_arg0 (by decide), keep1 _ main_arg7 (by decide), keep1 _ main_arg3 (by decide)]
  rfl

/-- After the whole line `main_v43` holds `net` of the arguments. -/
theorem v43_eq (U : Valuation τ sig (Elt F)) :
    after ops U (Proc.devRef .tc main_v43)
      = net (U (Proc.devRef .tc main_arg0)) (U (Proc.devRef .tc main_arg1)) (U (Proc.devRef .tc main_arg2)) (U (Proc.devRef .tc main_arg3))
          (U (Proc.devRef .tc main_arg4)) (U (Proc.devRef .tc main_arg5)) (U (Proc.devRef .tc main_arg6)) (U (Proc.devRef .tc main_arg7))
          (U (Proc.devRef .tc main_arg8)) (U (Proc.devRef .tc main_arg9)) (U (Proc.devRef .tc main_arg10)) := by
  rw [ops_eq]
  simp only [after_app]
  rw [res8]
  rw [res7, keep7 _ main_v32 (by decide), keep7 _ main_arg4 (by decide)]
  rw [res6, keep6 _ main_v21 (by decide), keep6 _ main_arg10 (by decide), keep6 _ main_arg4 (by decide)]
  rw [res5, keep5 _ main_arg9 (by decide), keep5 _ main_arg2 (by decide), keep5 _ main_v21 (by decide), keep5 _ main_arg10 (by decide), keep5 _ main_arg4 (by decide)]
  rw [keep4 _ main_arg0 (by decide), keep4 _ main_arg8 (by decide), keep4 _ main_arg9 (by decide), keep4 _ main_arg2 (by decide), keep4 _ main_arg10 (by decide), keep4 _ main_arg4 (by decide)]
  rw [v21_eq]
  rw [keep3 _ main_arg0 (by decide), keep3 _ main_arg8 (by decide), keep3 _ main_arg9 (by decide), keep3 _ main_arg2 (by decide), keep3 _ main_arg10 (by decide), keep3 _ main_arg4 (by decide)]
  rw [keep2 _ main_arg0 (by decide), keep2 _ main_arg8 (by decide), keep2 _ main_arg9 (by decide), keep2 _ main_arg2 (by decide), keep2 _ main_arg10 (by decide), keep2 _ main_arg4 (by decide)]
  rw [keep1 _ main_arg0 (by decide), keep1 _ main_arg8 (by decide), keep1 _ main_arg9 (by decide), keep1 _ main_arg2 (by decide), keep1 _ main_arg10 (by decide), keep1 _ main_arg4 (by decide)]
  rfl

/-- A buffer no stretch writes holds after the whole line what it held before. -/
theorem arg_keep (U : Valuation τ sig (Elt F)) (r : Ref sig .tc) (h1 : r ∉ W1) (h2 : r ∉ W2) (h3 : r ∉ W3) (h4 : r ∉ W4)
    (h5 : r ∉ W5) (h6 : r ∉ W6) (h7 : r ∉ W7) (h8 : r ∉ W8) : after ops U (Proc.devRef .tc r) = U (Proc.devRef .tc r) := by
  rw [ops_eq]
  simp only [after_app]
  rw [keep8 _ r h8, keep7 _ r h7, keep6 _ r h6, keep5 _ r h5, keep4 _ r h4, keep3 _ r h3, keep2 _ r h2, keep1 _ r h1]

/-! ## The run -/

/-- On every device, from any memory with zero counters: every weakly fair execution of @main terminates with the result
    at `net` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun _ h c => ⟨(h c main_v43).trans (v43_eq (launchContents m c)),
      (h c main_arg0).trans (arg_keep _ main_arg0 (by decide) (by decide) (by decide) (by decide) (by decide) (by decide) (by decide) (by decide)),
      (h c main_arg1).trans (arg_keep _ main_arg1 (by decide) (by decide) (by decide) (by decide) (by decide) (by decide) (by decide) (by decide)),
      (h c main_arg2).trans (arg_keep _ main_arg2 (by decide) (by decide) (by decide) (by decide) (by decide) (by decide) (by decide) (by decide)),
      (h c main_arg3).trans (arg_keep _ main_arg3 (by decide) (by decide) (by decide) (by decide) (by decide) (by decide) (by decide) (by decide)),
      (h c main_arg4).trans (arg_keep _ main_arg4 (by decide) (by decide) (by decide) (by decide) (by decide) (by decide) (by decide) (by decide)),
      (h c main_arg5).trans (arg_keep _ main_arg5 (by decide) (by decide) (by decide) (by decide) (by decide) (by decide) (by decide) (by decide)),
      (h c main_arg6).trans (arg_keep _ main_arg6 (by decide) (by decide) (by decide) (by decide) (by decide) (by decide) (by decide) (by decide)),
      (h c main_arg7).trans (arg_keep _ main_arg7 (by decide) (by decide) (by decide) (by decide) (by decide) (by decide) (by decide) (by decide)),
      (h c main_arg8).trans (arg_keep _ main_arg8 (by decide) (by decide) (by decide) (by decide) (by decide) (by decide) (by decide) (by decide)),
      (h c main_arg9).trans (arg_keep _ main_arg9 (by decide) (by decide) (by decide) (by decide) (by decide) (by decide) (by decide) (by decide)),
      (h c main_arg10).trans (arg_keep _ main_arg10 (by decide) (by decide) (by decide) (by decide) (by decide) (by decide) (by decide) (by decide))⟩)
    (run_seq scopedRefs_eq scopedSems_eq defs main (fun _ => ops) main_eq (fun _ => ops_sub) m ρ)

end Cert.ReferenceIdeal.RunS

end
-- ==== Proof.RefLayer1.lean ====
/-
  The reference's first layer is the dense layer of the segment sums. The reference lays the gathered rows beside the edge
  features (384 columns), takes one segment sum of the 384-wide rows, lays the node's own rows beside it (640 columns) and
  multiplies by the transposed weights. A row scatter-add works column by column, so the 384-wide segment sum restricted to
  its first 256 columns is the segment sum of the gathered rows, and to its last 128 the segment sum of the edge features;
  the 640-wide row is then the three operands side by side, and one row times one column of weights is the dense layer's
  element (a sum over 640 indices split into its stretches of 256, 256 and 128).
-/
import proofs.«419529_j43293270344193_2_alg».proof.Proof.RefRun
import proofs.«419529_j43293270344193_2_alg».proof.Proof.SegSum
import Idealize.ShloMosaic.Lib.Pipeline.Value
import Idealize.ShloMosaic.Lib.ValueIdx
import Idealize.ShloMosaic.PureOps.Ideal.Laws

noncomputable section

open scoped BigOperators

namespace Cert.ReferenceIdeal.Layer1

open Cert.ReferenceIdeal Cert.ReferenceIdeal.Gen Cert.ReferenceIdeal.RunS
open Idealize.ShloMosaic Idealize.ShloMosaic.ValueIdx

/-! ## The product of a 640-wide row array and a 640-tall column array, at an element -/

/-- The left operand's index has the result's row on axis 0 … -/
theorem lhs_0 (i : S32768x256.Idx) (q : dot_S32768x640_S640x256_S32768x256_1_0_0_1_n_n.contr.Idx) :
    (dot_S32768x640_S640x256_S32768x256_1_0_0_1_n_n.lhsIdx i q 0).val = (i 0).val := by
  unfold DotDims.lhsIdx
  rw [dif_neg (show ¬(0 : Fin S32768x640.rank) ∈ dot_S32768x640_S640x256_S32768x256_1_0_0_1_n_n.lhsBatch by decide), dif_pos (show (0 : Fin S32768x640.rank) ∈ dot_S32768x640_S640x256_S32768x256_1_0_0_1_n_n.lhsNonContracting by decide)]
  rfl
/-- … and the contracted coordinate on axis 1. -/
theorem lhs_1 (i : S32768x256.Idx) (q : dot_S32768x640_S640x256_S32768x256_1_0_0_1_n_n.contr.Idx) :
    (dot_S32768x640_S640x256_S32768x256_1_0_0_1_n_n.lhsIdx i q 1).val = (q ⟨0, by decide⟩).val :=
  dot_S32768x640_S640x256_S32768x256_1_0_0_1_n_n.lhsIdx_val_of_single rfl i q
/-- The right operand's index has the contracted coordinate on axis 0 … -/
theorem rhs_0 (i : S32768x256.Idx) (q : dot_S32768x640_S640x256_S32768x256_1_0_0_1_n_n.contr.Idx) :
    (dot_S32768x640_S640x256_S32768x256_1_0_0_1_n_n.rhsIdx i q 0).val = (q ⟨0, by decide⟩).val :=
  dot_S32768x640_S640x256_S32768x256_1_0_0_1_n_n.rhsIdx_val_of_single rfl i q
/-- … and the result's column on axis 1. -/
theorem rhs_1 (i : S32768x256.Idx) (q : dot_S32768x640_S640x256_S32768x256_1_0_0_1_n_n.contr.Idx) :
    (dot_S32768x640_S640x256_S32768x256_1_0_0_1_n_n.rhsIdx i q 1).val = (i 1).val := by
  unfold DotDims.rhsIdx
  rw [dif_neg (show ¬(1 : Fin S640x256.rank) ∈ dot_S32768x640_S640x256_S32768x256_1_0_0_1_n_n.rhsBatch by decide), dif_pos (show (1 : Fin S640x256.rank) ∈ dot_S32768x640_S640x256_S32768x256_1_0_0_1_n_n.rhsNonContracting by decide)]
  rfl

/-- The product at row `r`, column `j`: the sum over the 640 contracted positions of the row's element times the column's. -/
theorem dot_apply (l : FVec Ideal S32768x640 .f32) (rr : FVec Ideal S640x256 .f32) (r : Fin 32768) (j : Fin 256) :
    Host.dotGeneral dot_S32768x640_S640x256_S32768x256_1_0_0_1_n_n none l rr (ix2 r j)
      = ∑ k : Fin 640, l (ix2 r k) * rr (ix2 k j) := by
  simp only [Host.dotGeneral]
  rw [Ideal.dotGeneral_apply, ← Equiv.sum_comp (ValueIdx.contrEquiv1 dot_S32768x640_S640x256_S32768x256_1_0_0_1_n_n 640 rfl rfl).symm]
  refine Finset.sum_congr rfl fun k _ => ?_
  have hk := ValueIdx.contrEquiv1_symm_val dot_S32768x640_S640x256_S32768x256_1_0_0_1_n_n 640 rfl rfl k
  have el : dot_S32768x640_S640x256_S32768x256_1_0_0_1_n_n.lhsIdx (ix2 r j) ((ValueIdx.contrEquiv1 dot_S32768x640_S640x256_S32768x256_1_0_0_1_n_n 640 rfl rfl).symm k) = ix2 r k := funext fun a => Fin.ext (by
    match a with
    | ⟨0, _⟩ => exact lhs_0 _ _
    | ⟨1, _⟩ => exact (lhs_1 _ _).trans hk)
  have er : dot_S32768x640_S640x256_S32768x256_1_0_0_1_n_n.rhsIdx (ix2 r j) ((ValueIdx.contrEquiv1 dot_S32768x640_S640x256_S32768x256_1_0_0_1_n_n 640 rfl rfl).symm k) = ix2 k j := funext fun a => Fin.ext (by
    match a with
    | ⟨0, _⟩ => exact (rhs_0 _ _).trans hk
    | ⟨1, _⟩ => exact rhs_1 _ _)
  rw [el, er]

/-! ## The zero arrays -/

/-- The 32768 × 256 array of the zero constant reads 0. -/
theorem zeros256_apply (i : S32768x256.Idx) :
    broadcastInDim S32768x256 ![] bcast_S_S32768x256 (constant (F := Ideal) S_ .f32 0x00000000#32) i = 0 :=
  (broadcastInDim_apply _ bcast_S_S32768x256 (constant (F := Ideal) S_ .f32 0x00000000#32) i (fun a => a.elim0) (fun a => a.elim0)).trans
    ((constant_apply _ _).trans Ideal.ofBits_zero_f32)

/-- The 32768 × 384 array of the zero constant reads 0. -/
theorem zeros384_apply (i : S32768x384.Idx) :
    broadcastInDim S32768x384 ![] bcast_S_S32768x384 (constant (F := Ideal) S_ .f32 0x00000000#32) i = 0 :=
  (broadcastInDim_apply _ bcast_S_S32768x384 (constant (F := Ideal) S_ .f32 0x00000000#32) i (fun a => a.elim0) (fun a => a.elim0)).trans
    ((constant_apply _ _).trans Ideal.ofBits_zero_f32)

/-! ## The two arrays laid side by side, at an element -/

/-- The 384-wide update rows read the gathered rows on their first 256 columns … -/
theorem cat384_left (G : FVec Ideal S327680x256 .f32) (edge : FVec Ideal S327680x128 .f32) (e : Fin 327680) (c : Fin 384) (k : Fin 256)
    (h : k.val = c.val) :
    concatenate S327680x384 1 [⟨S327680x256, G⟩, ⟨S327680x128, edge⟩] concatenates_S327680x256_S327680x128_S327680x384_d1 (ix2 e c)
      = G (ix2 e k) :=
  concatenate_pair_apply_left 1 G edge concatenates_S327680x256_S327680x128_S327680x384_d1 (ix2 e c) rfl (ix2 e k)
    (fun b => by match b with | ⟨0, _⟩ => rfl | ⟨1, _⟩ => exact h)

/-- … and the edge features on their last 128. -/
theorem cat384_right (G : FVec Ideal S327680x256 .f32) (edge : FVec Ideal S327680x128 .f32) (e : Fin 327680) (c : Fin 384) (k : Fin 128)
    (h : k.val + 256 = c.val) :
    concatenate S327680x384 1 [⟨S327680x256, G⟩, ⟨S327680x128, edge⟩] concatenates_S327680x256_S327680x128_S327680x384_d1 (ix2 e c)
      = edge (ix2 e k) :=
  concatenate_pair_apply_right 1 G edge concatenates_S327680x256_S327680x128_S327680x384_d1 (ix2 e c) rfl rfl (ix2 e k)
    (fun b hb => by match b with | ⟨0, _⟩ => rfl | ⟨1, _⟩ => exact absurd rfl hb) h

/-- The 640-wide rows read the own rows on their first 256 columns … -/
theorem cat640_left (self : FVec Ideal S32768x256 .f32) (s : FVec Ideal S32768x384 .f32) (r : Fin 32768) (c : Fin 640) (k : Fin 256)
    (h : k.val = c.val) :
    concatenate S32768x640 1 [⟨S32768x256, self⟩, ⟨S32768x384, s⟩] concatenates_S32768x256_S32768x384_S32768x640_d1 (ix2 r c)
      = self (ix2 r k) :=
  concatenate_pair_apply_left 1 self s concatenates_S32768x256_S32768x384_S32768x640_d1 (ix2 r c) rfl (ix2 r k)
    (fun b => by match b with | ⟨0, _⟩ => rfl | ⟨1, _⟩ => exact h)

/-- … and the 384-wide array on their last 384. -/
theorem cat640_right (self : FVec Ideal S32768x256 .f32) (s : FVec Ideal S32768x384 .f32) (r : Fin 32768) (c : Fin 640) (k : Fin 384)
    (h : k.val + 256 = c.val) :
    concatenate S32768x640 1 [⟨S32768x256, self⟩, ⟨S32768x384, s⟩] concatenates_S32768x256_S32768x384_S32768x640_d1 (ix2 r c)
      = s (ix2 r k) :=
  concatenate_pair_apply_right 1 self s concatenates_S32768x256_S32768x384_S32768x640_d1 (ix2 r c) rfl rfl (ix2 r k)
    (fun b hb => by match b with | ⟨0, _⟩ => rfl | ⟨1, _⟩ => exact absurd rfl hb) h

/-! ## The 384-wide segment sum, column by column -/

/-- The row scatter-add at row `r`, column `c`: the operand's element plus the update rows whose segment id is `r`, at column `c`. -/
theorem scatter_apply (z : FVec Ideal S32768x384 .f32) (seg : IVec S327680x1 32) (u : FVec Ideal S327680x384 .f32) (r : Fin 32768) (c : Fin 384) :
    Host.scatterAdd scatter_S32768x384_S327680x1_S327680x384_1_0_0_1 z seg u (ix2 r c)
      = z (ix2 r c) + ∑ e : Fin 327680, if (seg (ix2 e (0 : Fin 1))).toInt = (r.val : ℤ) then u (ix2 e c) else 0 :=
  Cert.LibSegmentSum.rowScatterAdd_apply scatter_S32768x384_S327680x1_S327680x384_1_0_0_1_wf z seg u r c

/-- The 384-wide segment sum's first 256 columns are the segment sum of the gathered rows … -/
theorem scatter_left (seg : IVec S327680x1 32) (G : FVec Ideal S327680x256 .f32) (edge : FVec Ideal S327680x128 .f32) (r : Fin 32768)
    (c : Fin 384) (k : Fin 256) (h : k.val = c.val) :
    Host.scatterAdd scatter_S32768x384_S327680x1_S327680x384_1_0_0_1
        (broadcastInDim S32768x384 ![] bcast_S_S32768x384 (constant (F := Ideal) S_ .f32 0x00000000#32)) seg
        (concatenate S327680x384 1 [⟨S327680x256, G⟩, ⟨S327680x128, edge⟩] concatenates_S327680x256_S327680x128_S327680x384_d1) (ix2 r c)
      = Cert.Sage.segsum (M := 32768) seg G (ix2 r k) := by
  refine (scatter_apply _ seg _ r c).trans ?_
  rw [zeros384_apply, zero_add, Cert.Sage.segsum_apply]
  refine Finset.sum_congr rfl fun e _ => ?_
  rw [cat384_left G edge e c k h]

/-- … and its last 128 the segment sum of the edge features. -/
theorem scatter_right (seg : IVec S327680x1 32) (G : FVec Ideal S327680x256 .f32) (edge : FVec Ideal S327680x128 .f32) (r : Fin 32768)
    (c : Fin 384) (k : Fin 128) (h : k.val + 256 = c.val) :
    Host.scatterAdd scatter_S32768x384_S327680x1_S327680x384_1_0_0_1
        (broadcastInDim S32768x384 ![] bcast_S_S32768x384 (constant (F := Ideal) S_ .f32 0x00000000#32)) seg
        (concatenate S327680x384 1 [⟨S327680x256, G⟩, ⟨S327680x128, edge⟩] concatenates_S327680x256_S327680x128_S327680x384_d1) (ix2 r c)
      = Cert.Sage.segsum (M := 32768) seg edge (ix2 r k) := by
  refine (scatter_apply _ seg _ r c).trans ?_
  rw [zeros384_apply, zero_add, Cert.Sage.segsum_apply]
  refine Finset.sum_congr rfl fun e _ => ?_
  rw [cat384_right G edge e c k h]

/-- LAYER 1 OF THE REFERENCE is the dense layer of: the own rows, the segment sum of the gathered rows, the segment sum of
    the edge features, and the transposed weights. -/
theorem layer1_eq (self : FVec Ideal S32768x256 .f32) (seg : IVec S327680x1 32) (G : FVec Ideal S327680x256 .f32)
    (edge : FVec Ideal S327680x128 .f32) (W : FVec Ideal S256x640 .f32) :
    layer1 (F := Ideal) self seg G edge W
      = Cert.Sage.dense (M := 32768) self (Cert.Sage.segsum seg G) (Cert.Sage.segsum seg edge)
          (transpose S640x256 [1, 0] W transposes_S256x640_S640x256_1_0) := by
  funext i
  obtain ⟨r, j, rfl⟩ : ∃ (r : Fin 32768) (j : Fin 256), i = ix2 r j := ⟨i 0, i 1, eq_ix2 i⟩
  rw [Cert.Sage.dense_apply]
  unfold layer1
  rw [maximumf_apply, dot_apply, zeros256_apply]
  exact Cert.Sage.max_sum640_eq_denseAt (M := 32768) self (Cert.Sage.segsum seg G) (Cert.Sage.segsum seg edge)
    (transpose S640x256 [1, 0] W transposes_S256x640_S640x256_1_0) r j _ _
    (fun k => cat640_left self _ r _ k rfl)
    (fun k => (cat640_right self _ r _ (⟨k.val, by omega⟩ : Fin 384) (Nat.add_comm _ _)).trans
      (scatter_left seg G edge r _ k rfl))
    (fun k => (cat640_right self _ r _ (⟨256 + k.val, by omega⟩ : Fin 384) (by show 256 + k.val + 256 = 512 + k.val; omega)).trans
      (scatter_right seg G edge r _ k (Nat.add_comm _ _)))
    (fun _ => rfl)

end Cert.ReferenceIdeal.Layer1

end
-- ==== Proof.RefLayer2.lean ====
/-
  The second layer of the reference is the dense layer of the segment sums, over 8192 rows and 81920 edges: the gathered rows beside the edge features (384 columns) are summed by segment, the own rows are laid beside that sum (640 columns) and the 640-wide rows are multiplied by the transposed weights. A row scatter-add works column by column, so the 384-wide segment sum is the segment sum of the gathered rows (first 256 columns) beside that of the edge features (last 128); one row of 640 times one column of weights is then the element of the dense layer, a sum over 640 indices split into its stretches of 256, 256 and 128.
-/
import proofs.«419529_j43293270344193_2_alg».proof.Proof.RefRun
import proofs.«419529_j43293270344193_2_alg».proof.Proof.SegSum
import Idealize.ShloMosaic.Lib.Pipeline.Value
import Idealize.ShloMosaic.Lib.ValueIdx
import Idealize.ShloMosaic.PureOps.Ideal.Laws

noncomputable section

open scoped BigOperators

namespace Cert.ReferenceIdeal.Layer2

open Cert.ReferenceIdeal Cert.ReferenceIdeal.Gen Cert.ReferenceIdeal.RunS
open Idealize.ShloMosaic Idealize.ShloMosaic.ValueIdx

/-! ## The product of a 640-wide row array and a 640-tall column array, at an element -/

/-- The left operand's index has the result's row on axis 0 … -/
theorem lhs_0 (i : S8192x256.Idx) (q : dot_S8192x640_S640x256_S8192x256_1_0_0_1_n_n.contr.Idx) :
    (dot_S8192x640_S640x256_S8192x256_1_0_0_1_n_n.lhsIdx i q 0).val = (i 0).val := by
  unfold DotDims.lhsIdx
  rw [dif_neg (show ¬(0 : Fin S8192x640.rank) ∈ dot_S8192x640_S640x256_S8192x256_1_0_0_1_n_n.lhsBatch by decide), dif_pos (show (0 : Fin S8192x640.rank) ∈ dot_S8192x640_S640x256_S8192x256_1_0_0_1_n_n.lhsNonContracting by decide)]
  rfl
/-- … and the contracted coordinate on axis 1. -/
theorem lhs_1 (i : S8192x256.Idx) (q : dot_S8192x640_S640x256_S8192x256_1_0_0_1_n_n.contr.Idx) :
    (dot_S8192x640_S640x256_S8192x256_1_0_0_1_n_n.lhsIdx i q 1).val = (q ⟨0, by decide⟩).val :=
  dot_S8192x640_S640x256_S8192x256_1_0_0_1_n_n.lhsIdx_val_of_single rfl i q
/-- The right operand's index has the contracted coordinate on axis 0 … -/
theorem rhs_0 (i : S8192x256.Idx) (q : dot_S8192x640_S640x256_S8192x256_1_0_0_1_n_n.contr.Idx) :
    (dot_S8192x640_S640x256_S8192x256_1_0_0_1_n_n.rhsIdx i q 0).val = (q ⟨0, by decide⟩).val :=
  dot_S8192x640_S640x256_S8192x256_1_0_0_1_n_n.rhsIdx_val_of_single rfl i q
/-- … and the result's column on axis 1. -/
theorem rhs_1 (i : S8192x256.Idx) (q : dot_S8192x640_S640x256_S8192x256_1_0_0_1_n_n.contr.Idx) :
    (dot_S8192x640_S640x256_S8192x256_1_0_0_1_n_n.rhsIdx i q 1).val = (i 1).val := by
  unfold DotDims.rhsIdx
  rw [dif_neg (show ¬(1 : Fin S640x256.rank) ∈ dot_S8192x640_S640x256_S8192x256_1_0_0_1_n_n.rhsBatch by decide), dif_pos (show (1 : Fin S640x256.rank) ∈ dot_S8192x640_S640x256_S8192x256_1_0_0_1_n_n.rhsNonContracting by decide)]
  rfl

/-- The product at row `r`, column `j`: the sum over the 640 contracted positions of the row's element times the column's. -/
theorem dot_apply (l : FVec Ideal S8192x640 .f32) (rr : FVec Ideal S640x256 .f32) (r : Fin 8192) (j : Fin 256) :
    Host.dotGeneral dot_S8192x640_S640x256_S8192x256_1_0_0_1_n_n none l rr (ix2 r j)
      = ∑ k : Fin 640, l (ix2 r k) * rr (ix2 k j) := by
  simp only [Host.dotGeneral]
  rw [Ideal.dotGeneral_apply, ← Equiv.sum_comp (ValueIdx.contrEquiv1 dot_S8192x640_S640x256_S8192x256_1_0_0_1_n_n 640 rfl rfl).symm]
  refine Finset.sum_congr rfl fun k _ => ?_
  have hk := ValueIdx.contrEquiv1_symm_val dot_S8192x640_S640x256_S8192x256_1_0_0_1_n_n 640 rfl rfl k
  have el : dot_S8192x640_S640x256_S8192x256_1_0_0_1_n_n.lhsIdx (ix2 r j) ((ValueIdx.contrEquiv1 dot_S8192x640_S640x256_S8192x256_1_0_0_1_n_n 640 rfl rfl).symm k) = ix2 r k := funext fun a => Fin.ext (by
    match a with
    | ⟨0, _⟩ => exact lhs_0 _ _
    | ⟨1, _⟩ => exact (lhs_1 _ _).trans hk)
  have er : dot_S8192x640_S640x256_S8192x256_1_0_0_1_n_n.rhsIdx (ix2 r j) ((ValueIdx.contrEquiv1 dot_S8192x640_S640x256_S8192x256_1_0_0_1_n_n 640 rfl rfl).symm k) = ix2 k j := funext fun a => Fin.ext (by
    match a with
    | ⟨0, _⟩ => exact (rhs_0 _ _).trans hk
    | ⟨1, _⟩ => exact rhs_1 _ _)
  rw [el, er]

/-! ## The zero arrays -/

/-- The 8192 × 256 array of the zero constant reads 0. -/
theorem zeros256_apply (i : S8192x256.Idx) :
    broadcastInDim S8192x256 ![] bcast_S_S8192x256 (constant (F := Ideal) S_ .f32 0x00000000#32) i = 0 :=
  (broadcastInDim_apply _ bcast_S_S8192x256 (constant (F := Ideal) S_ .f32 0x00000000#32) i (fun a => a.elim0) (fun a => a.elim0)).trans
    ((constant_apply _ _).trans Ideal.ofBits_zero_f32)

/-- The 8192 × 384 array of the zero constant reads 0. -/
theorem zeros384_apply (i : S8192x384.Idx) :
    broadcastInDim S8192x384 ![] bcast_S_S8192x384 (constant (F := Ideal) S_ .f32 0x00000000#32) i = 0 :=
  (broadcastInDim_apply _ bcast_S_S8192x384 (constant (F := Ideal) S_ .f32 0x00000000#32) i (fun a => a.elim0) (fun a => a.elim0)).trans
    ((constant_apply _ _).trans Ideal.ofBits_zero_f32)

/-! ## The two arrays laid side by side, at an element -/

/-- The 384-wide update rows read the gathered rows on their first 256 columns … -/
theorem cat384_left (G : FVec Ideal S81920x256 .f32) (edge : FVec Ideal S81920x128 .f32) (e : Fin 81920) (c : Fin 384) (k : Fin 256)
    (h : k.val = c.val) :
    concatenate S81920x384 1 [⟨S81920x256, G⟩, ⟨S81920x128, edge⟩] concatenates_S81920x256_S81920x128_S81920x384_d1 (ix2 e c)
      = G (ix2 e k) :=
  concatenate_pair_apply_left 1 G edge concatenates_S81920x256_S81920x128_S81920x384_d1 (ix2 e c) rfl (ix2 e k)
    (fun b => by match b with | ⟨0, _⟩ => rfl | ⟨1, _⟩ => exact h)

/-- … and the edge features on their last 128. -/
theorem cat384_right (G : FVec Ideal S81920x256 .f32) (edge : FVec Ideal S81920x128 .f32) (e : Fin 81920) (c : Fin 384) (k : Fin 128)
    (h : k.val + 256 = c.val) :
    concatenate S81920x384 1 [⟨S81920x256, G⟩, ⟨S81920x128, edge⟩] concatenates_S81920x256_S81920x128_S81920x384_d1 (ix2 e c)
      = edge (ix2 e k) :=
  concatenate_pair_apply_right 1 G edge concatenates_S81920x256_S81920x128_S81920x384_d1 (ix2 e c) rfl rfl (ix2 e k)
    (fun b hb => by match b with | ⟨0, _⟩ => rfl | ⟨1, _⟩ => exact absurd rfl hb) h

/-- The 640-wide rows read the own rows on their first 256 columns … -/
theorem cat640_left (self : FVec Ideal S8192x256 .f32) (s : FVec Ideal S8192x384 .f32) (r : Fin 8192) (c : Fin 640) (k : Fin 256)
    (h : k.val = c.val) :
    concatenate S8192x640 1 [⟨S8192x256, self⟩, ⟨S8192x384, s⟩] concatenates_S8192x256_S8192x384_S8192x640_d1 (ix2 r c)
      = self (ix2 r k) :=
  concatenate_pair_apply_left 1 self s concatenates_S8192x256_S8192x384_S8192x640_d1 (ix2 r c) rfl (ix2 r k)
    (fun b => by match b with | ⟨0, _⟩ => rfl | ⟨1, _⟩ => exact h)

/-- … and the 384-wide array on their last 384. -/
theorem cat640_right (self : FVec Ideal S8192x256 .f32) (s : FVec Ideal S8192x384 .f32) (r : Fin 8192) (c : Fin 640) (k : Fin 384)
    (h : k.val + 256 = c.val) :
    concatenate S8192x640 1 [⟨S8192x256, self⟩, ⟨S8192x384, s⟩] concatenates_S8192x256_S8192x384_S8192x640_d1 (ix2 r c)
      = s (ix2 r k) :=
  concatenate_pair_apply_right 1 self s concatenates_S8192x256_S8192x384_S8192x640_d1 (ix2 r c) rfl rfl (ix2 r k)
    (fun b hb => by match b with | ⟨0, _⟩ => rfl | ⟨1, _⟩ => exact absurd rfl hb) h

/-! ## The 384-wide segment sum, column by column -/

/-- The row scatter-add at row `r`, column `c`: the operand's element plus the update rows whose segment id is `r`, at column `c`. -/
theorem scatter_apply (z : FVec Ideal S8192x384 .f32) (seg : IVec S81920x1 32) (u : FVec Ideal S81920x384 .f32) (r : Fin 8192) (c : Fin 384) :
    Host.scatterAdd scatter_S8192x384_S81920x1_S81920x384_1_0_0_1 z seg u (ix2 r c)
      = z (ix2 r c) + ∑ e : Fin 81920, if (seg (ix2 e (0 : Fin 1))).toInt = (r.val : ℤ) then u (ix2 e c) else 0 :=
  Cert.LibSegmentSum.rowScatterAdd_apply scatter_S8192x384_S81920x1_S81920x384_1_0_0_1_wf z seg u r c

/-- The 384-wide segment sum's first 256 columns are the segment sum of the gathered rows … -/
theorem scatter_left (seg : IVec S81920x1 32) (G : FVec Ideal S81920x256 .f32) (edge : FVec Ideal S81920x128 .f32) (r : Fin 8192)
    (c : Fin 384) (k : Fin 256) (h : k.val = c.val) :
    Host.scatterAdd scatter_S8192x384_S81920x1_S81920x384_1_0_0_1
        (broadcastInDim S8192x384 ![] bcast_S_S8192x384 (constant (F := Ideal) S_ .f32 0x00000000#32)) seg
        (concatenate S81920x384 1 [⟨S81920x256, G⟩, ⟨S81920x128, edge⟩] concatenates_S81920x256_S81920x128_S81920x384_d1) (ix2 r c)
      = Cert.Sage.segsum (M := 8192) seg G (ix2 r k) := by
  refine (scatter_apply _ seg _ r c).trans ?_
  rw [zeros384_apply, zero_add, Cert.Sage.segsum_apply]
  refine Finset.sum_congr rfl fun e _ => ?_
  rw [cat384_left G edge e c k h]

/-- … and its last 128 the segment sum of the edge features. -/
theorem scatter_right (seg : IVec S81920x1 32) (G : FVec Ideal S81920x256 .f32) (edge : FVec Ideal S81920x128 .f32) (r : Fin 8192)
    (c : Fin 384) (k : Fin 128) (h : k.val + 256 = c.val) :
    Host.scatterAdd scatter_S8192x384_S81920x1_S81920x384_1_0_0_1
        (broadcastInDim S8192x384 ![] bcast_S_S8192x384 (constant (F := Ideal) S_ .f32 0x00000000#32)) seg
        (concatenate S81920x384 1 [⟨S81920x256, G⟩, ⟨S81920x128, edge⟩] concatenates_S81920x256_S81920x128_S81920x384_d1) (ix2 r c)
      = Cert.Sage.segsum (M := 8192) seg edge (ix2 r k) := by
  refine (scatter_apply _ seg _ r c).trans ?_
  rw [zeros384_apply, zero_add, Cert.Sage.segsum_apply]
  refine Finset.sum_congr rfl fun e _ => ?_
  rw [cat384_right G edge e c k h]

/-- LAYER 2 OF THE REFERENCE is the dense layer of: the own rows, the segment sum of the gathered rows, the segment sum of
    the edge features, and the transposed weights. -/
theorem layer2_eq (self : FVec Ideal S8192x256 .f32) (seg : IVec S81920x1 32) (G : FVec Ideal S81920x256 .f32)
    (edge : FVec Ideal S81920x128 .f32) (W : FVec Ideal S256x640 .f32) :
    layer2 (F := Ideal) self seg G edge W
      = Cert.Sage.dense (M := 8192) self (Cert.Sage.segsum seg G) (Cert.Sage.segsum seg edge)
          (transpose S640x256 [1, 0] W transposes_S256x640_S640x256_1_0) := by
  funext i
  obtain ⟨r, j, rfl⟩ : ∃ (r : Fin 8192) (j : Fin 256), i = ix2 r j := ⟨i 0, i 1, eq_ix2 i⟩
  rw [Cert.Sage.dense_apply]
  unfold layer2
  rw [maximumf_apply, dot_apply, zeros256_apply]
  exact Cert.Sage.max_sum640_eq_denseAt (M := 8192) self (Cert.Sage.segsum seg G) (Cert.Sage.segsum seg edge)
    (transpose S640x256 [1, 0] W transposes_S256x640_S640x256_1_0) r j _ _
    (fun k => cat640_left self _ r _ k rfl)
    (fun k => (cat640_right self _ r _ (⟨k.val, by omega⟩ : Fin 384) (Nat.add_comm _ _)).trans
      (scatter_left seg G edge r _ k rfl))
    (fun k => (cat640_right self _ r _ (⟨256 + k.val, by omega⟩ : Fin 384) (by show 256 + k.val + 256 = 512 + k.val; omega)).trans
      (scatter_right seg G edge r _ k (Nat.add_comm _ _)))
    (fun _ => rfl)

end Cert.ReferenceIdeal.Layer2

end
-- ==== Proof.NetEq.lean ====
/-
  The reference's network and the kernel program's are one function of the arguments. Layer by layer the reference's
  concatenate-then-sum is the dense layer of the segment sums; what is left are the same operations spelled once per program:
  the gathers, the wrap of the negative indices, the transposes, the segment ids laid out as a column. The kernel program also
  narrows the transposed weights to a shorter float format, which is the identity on extended reals.
-/
import proofs.«419529_j43293270344193_2_alg».proof.Proof.KernelNet
import proofs.«419529_j43293270344193_2_alg».proof.Proof.RefRun
import proofs.«419529_j43293270344193_2_alg».proof.Proof.RefLayer1
import proofs.«419529_j43293270344193_2_alg».proof.Proof.RefLayer2

noncomputable section

namespace Cert.Proof

open Idealize.ShloMosaic

/-- The reference's network and the kernel program's are one function of the arguments: layer by layer the reference's
    concatenate-then-sum is the dense layer of the segment sums, and the two programs' gathers, index wraps, transposes and
    segment-id columns are the same operations (the narrowing of the weights is the identity on extended reals). -/
theorem net_eq (x0 : FVec Ideal Cert.ReferenceIdeal.S100000x256 .f32) (x1 : FVec Ideal Cert.ReferenceIdeal.S327680x128 .f32)
    (x2 : FVec Ideal Cert.ReferenceIdeal.S81920x128 .f32) (x3 x4 : FVec Ideal Cert.ReferenceIdeal.S256x640 .f32)
    (x5 x6 : IVec Cert.ReferenceIdeal.S327680 32) (x7 : IVec Cert.ReferenceIdeal.S32768 32)
    (x8 x9 : IVec Cert.ReferenceIdeal.S81920 32) (x10 : IVec Cert.ReferenceIdeal.S8192 32) :
    Cert.ReferenceIdeal.RunS.net (F := Ideal) x0 x1 x2 x3 x4 x5 x6 x7 x8 x9 x10
      = Cert.KernelIdeal.ValueK.netK x0 x1 x2 x3 x4 x5 x6 x7 x8 x9 x10 := by
  unfold Cert.ReferenceIdeal.RunS.net
  rw [Cert.ReferenceIdeal.Layer2.layer2_eq, Cert.ReferenceIdeal.Layer1.layer1_eq]
  rfl

end Cert.Proof

end
-- ==== Proof.PreIdx.lean ====
/-
  The index ranges the precondition states, read back. The precondition is one conjunction: the five float arrays hold
  finite numbers, and every word of the four gather-index arrays lies in `[−N, N)` for the extent `N` of the axis it
  indexes (100000 rows of node features for three of them, 32768 rows of the first layer's output for the fourth). Each
  range conjunct is a `jnp.all` of the elementwise `and` of two signed word compares against broadcast constants; that the
  whole is all ones gives each compare at each word, and a signed compare that answers 1 is the order of the words' integers.
-/
import proofs.«419529_j43293270344193_2_alg».proof.Pre_finite_inputs
import Idealize.ShloMosaic.PureOps.Ideal
import Idealize.ShloMosaic.Lib.Affine
import Idealize.ShloMosaic.Lib.ReduceAll
import Idealize.ShloMosaic.Lib.ValueIdx
import Idealize.ShloMosaic.Lib.Pipeline.Value

noncomputable section

namespace Cert.PreIdx

open Idealize.ShloMosaic Cert.Pre_finite_inputs

variable [Cert.Pre_finite_inputs.Facts]

/-- ONE RANGE CONJUNCT READ BACK: a `jnp.all` of `lo ≤ a` and `a < hi` (signed word compares against broadcast constants) that
    came out 1 gives, at every word of `a`, the two inequalities between the words' integers. -/
theorem range_of_all {s : Shape} {axes : List (Fin s.rank)} (a : IVec s 32) (lo hi : BitVec 32) (L H : ℤ)
    (hlo : lo.toInt = L) (hhi : hi.toInt = H) (hb : S_.BroadcastsInDim s (![] : Fin 0 → Fin s.rank))
    (hr : s.ReducesTo axes S_) (hu : 0 < S_.numel) (j : S_.Idx)
    (e : Host.reduce IntOp.andi
          (andi (cmpi .sge a (broadcastInDim s ![] hb (constantI S_ 32 lo)))
            (cmpi .slt a (broadcastInDim s ![] hb (constantI S_ 32 hi))))
          (constantI S_ 1 1#1) hr hu j = 1#1) :
    ∀ i : s.Idx, L ≤ (a i).toInt ∧ (a i).toInt < H := by
  intro i
  haveI : Subsingleton S_.Idx := ⟨fun a b => funext fun d => d.elim0⟩
  have h1 := Host.reduce_andi_all _ _ hr hu j e i
  obtain ⟨hA, hB⟩ := IntOp.andi_eq_one.1 h1
  have hA' : lo.toInt ≤ (a i).toInt := IntOp.cmpi_sge.1 hA
  have hB' : (a i).toInt < hi.toInt := IntOp.cmpi_slt.1 hB
  rw [hlo] at hA'
  rw [hhi] at hB'
  exact ⟨hA', hB'⟩

/-- THE FOUR INDEX RANGES out of the precondition. -/
theorem ranges (a0 : FVec Ideal S100000x256 .f32) (a1 : FVec Ideal S327680x128 .f32) (a2 : FVec Ideal S81920x128 .f32)
    (a3 a4 : FVec Ideal S256x640 .f32) (a5 a6 : IVec S327680 32) (a7 : IVec S32768 32) (a8 a9 : IVec S81920 32)
    (a10 : IVec S8192 32)
    (h : Cert.Pre_finite_inputs.fn (F := Ideal) a0 a1 a2 a3 a4 a5 a6 a7 a8 a9 a10 = fun _ => 1#1) :
    (∀ e : S327680.Idx, -((100000 : ℕ) : ℤ) ≤ (a5 e).toInt ∧ (a5 e).toInt < ((100000 : ℕ) : ℤ))
    ∧ (∀ e : S32768.Idx, -((100000 : ℕ) : ℤ) ≤ (a7 e).toInt ∧ (a7 e).toInt < ((100000 : ℕ) : ℤ))
    ∧ (∀ e : S81920.Idx, -((100000 : ℕ) : ℤ) ≤ (a8 e).toInt ∧ (a8 e).toInt < ((100000 : ℕ) : ℤ))
    ∧ (∀ e : S8192.Idx, -((32768 : ℕ) : ℤ) ≤ (a10 e).toInt ∧ (a10 e).toInt < ((32768 : ℕ) : ℤ)) := by
  have h0 := congrFun h ValueIdx.ix0
  dsimp only [Cert.Pre_finite_inputs.fn, fn_part1, fn_part2, fn_part3] at h0
  obtain ⟨h1, h50⟩ := IntOp.andi_eq_one.1 h0
  obtain ⟨h2, h43⟩ := IntOp.andi_eq_one.1 h1
  obtain ⟨h3, h36⟩ := IntOp.andi_eq_one.1 h2
  obtain ⟨-, h29⟩ := IntOp.andi_eq_one.1 h3
  have hLa : (4294867296#32).toInt = -((100000 : ℕ) : ℤ) := by decide
  have hHa : (100000#32).toInt = ((100000 : ℕ) : ℤ) := by decide
  have hLb : (4294934528#32).toInt = -((32768 : ℕ) : ℤ) := by decide
  have hHb : (32768#32).toInt = ((32768 : ℕ) : ℤ) := by decide
  exact ⟨range_of_all a5 _ _ _ _ hLa hHa _ _ _ _ h29, range_of_all a7 _ _ _ _ hLa hHa _ _ _ _ h36,
    range_of_all a8 _ _ _ _ hLa hHa _ _ _ _ h43, range_of_all a10 _ _ _ _ hLb hHb _ _ _ _ h50⟩

end Cert.PreIdx

end
-- ==== Proof.lean ====
/-
  The certificate of a two-layer graph convolution: the kernel program and the reference compute the same result over the
  extended reals whenever every gather index addresses a row of the table it indexes.

  Each layer is relu of (own rows ‖ summed neighbour rows ‖ summed edge features) times the transposed weights. The kernel
  program computes it as three partial products over the three operands (a Pallas kernel per layer, gridded over row blocks),
  with the two segment sums taken separately; the reference concatenates first (gathered rows with edge features before the
  segment sum, own rows with the segment sum before the product) and takes one segment sum and one product. A row scatter-add
  acts column by column, and a sum over 640 indices is the sum of its stretches of 256, 256 and 128, so the two agree; only
  commutativity and associativity of addition are used, and finiteness of the inputs is not.

  The one place where the programs differ as stated is the gather: the kernel program's gather fills a row whose index is
  out of range with a fill value, the reference's clamps the index. Under the precondition (every index word i of the four
  index arrays satisfies −N ≤ i < N for the extent N of the table it indexes, so that NumPy's wrap of a negative index lands
  in range) the range test of the filling gather passes on every row and the two gathers are one function.

  The kernel program's frames are the generated ones; the run that also names the result buffer calls the same launch once
  more; the reference's run is read back stretch by stretch.
-/
import proofs.«419529_j43293270344193_2_alg».proof.Defs
import proofs.«419529_j43293270344193_2_alg».proof.Proof.Gen.Kernel
import proofs.«419529_j43293270344193_2_alg».proof.Proof.Gen.Kernel.Skeleton
import proofs.«419529_j43293270344193_2_alg».proof.Proof.Gen.Kernel.Launch
import proofs.«419529_j43293270344193_2_alg».proof.Proof.Gen.Kernel.Points
import proofs.«419529_j43293270344193_2_alg».proof.Proof.Gen.Kernel.Frame
import proofs.«419529_j43293270344193_2_alg».proof.Proof.Gen.KernelIdeal
import proofs.«419529_j43293270344193_2_alg».proof.Proof.Gen.KernelIdeal.Skeleton
import proofs.«419529_j43293270344193_2_alg».proof.Proof.Gen.KernelIdeal.Launch
import proofs.«419529_j43293270344193_2_alg».proof.Proof.Gen.KernelIdeal.Points
import proofs.«419529_j43293270344193_2_alg».proof.Proof.Gen.KernelIdeal.Frame
import proofs.«419529_j43293270344193_2_alg».proof.Proof.Gen.ReferenceIdeal
import proofs.«419529_j43293270344193_2_alg».proof.Proof.Gen.Pre_finite_inputs
import proofs.«419529_j43293270344193_2_alg».proof.Proof.KernelRun
import proofs.«419529_j43293270344193_2_alg».proof.Proof.KernelValue
import proofs.«419529_j43293270344193_2_alg».proof.Proof.RefRun
import proofs.«419529_j43293270344193_2_alg».proof.Proof.NetEq
import proofs.«419529_j43293270344193_2_alg».proof.Proof.PreIdx
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunS.run (F := Ideal) m ρ)

/-- The idealization rewrote nothing. -/
theorem preserves : Cert.preserves_Kernel_KernelIdeal := trivial

/-- Both programs end with the result at `netK` of the (agreeing) arguments. -/
theorem algebraic : Cert.algebraic_KernelIdeal_ReferenceIdeal := by
  intro m ρ m' ρ' hpre hagree
  have hr := fun c : Dev Cert.KernelIdeal.nD => Cert.PreIdx.ranges _ _ _ _ _ _ _ _ _ _ _ (hpre c)
  refine ⟨fun c => Cert.KernelIdeal.ValueK.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.ValueK.value m ρ c (hr c).1 (hr c).2.1 (hr c).2.2.1 (hr c).2.2.2), (h c).2⟩)
      (Cert.KernelIdeal.RunP.run_result (F := Ideal) m ρ)
  · refine (θ_run Cert.ReferenceIdeal.defs _ _).mono (fun r h c => ⟨(h c).1.trans ?_, (h c).2⟩)
      (Cert.ReferenceIdeal.RunS.run (F := Ideal) m' ρ')
    obtain ⟨e0, e1, e2, e3, e4, e5, e6, e7, e8, e9, e10⟩ := hagree c
    rw [e0, e1, e2, e3, e4, e5, e6, e7, e8, e9, e10]
    exact net_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
